-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S32768x64 : Shape := ⟨2, ![32768, 64]⟩
abbrev S8192x32768 : Shape := ⟨2, ![8192, 32768]⟩
abbrev S32768 : Shape := ⟨1, ![32768]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S8192x32768 : S_.BroadcastsInDim S8192x32768 (![] : Fin 0 → Fin S8192x32768.rank)
  reducesTo_S8192x32768_S_d0_1 : S8192x32768.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S32768 : S_.BroadcastsInDim S32768 (![] : Fin 0 → Fin S32768.rank)
  reducesTo_S32768_S_d0 : S32768.ReducesTo [0] S_

variable [Facts]

def fn_part3 {F : FTy → Type} [FloatOps F] (main_arg3 : IVec S32768 32) (main_arg4 : IVec S32768 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 4294959104#32
  let main_v54 : IVec S32768 32 := broadcastInDim S32768 ![] bcast_S_S32768 main_c_20
  let main_v55 : IVec S32768 1 := cmpi .sge main_arg3 main_v54
  let main_c_21 : IVec S_ 32 := constantI S_ 32 8192#32
  let main_v56 : IVec S32768 32 := broadcastInDim S32768 ![] bcast_S_S32768 main_c_21
  let main_v57 : IVec S32768 1 := cmpi .slt main_arg3 main_v56
  let main_v58 : IVec S32768 1 := andi main_v55 main_v57
  let main_c_22 : IVec S_ 1 := constantI S_ 1 1#1
  let main_v59 : IVec S_ 1 := (fun x v => Host.reduce IntOp.andi x v reducesTo_S32768_S_d0 h_S_) main_v58 main_c_22
  let main_v60 : IVec S_ 1 := andi main_v53 main_v59
  let main_c_23 : IVec S_ 32 := constantI S_ 32 4294959104#32
  let main_v61 : IVec S32768 32 := broadcastInDim S32768 ![] bcast_S_S32768 main_c_23
  let main_v62 : IVec S32768 1 := cmpi .sge main_arg4 main_v61
  let main_c_24 : IVec S_ 32 := constantI S_ 32 8192#32
  let main_v63 : IVec S32768 32 := broadcastInDim S32768 ![] bcast_S_S32768 main_c_24
  let main_v64 : IVec S32768 1 := cmpi .slt main_arg4 main_v63
  let main_v65 : IVec S32768 1 := andi main_v62 main_v64
  let main_c_25 : IVec S_ 1 := constantI S_ 1 1#1
  let main_v66 : IVec S_ 1 := (fun x v => Host.reduce IntOp.andi x v reducesTo_S32768_S_d0 h_S_) main_v65 main_c_25
  let main_v67 : IVec S_ 1 := andi main_v60 main_v66
  main_v67

def fn_part2 {F : FTy → Type} [FloatOps F] (main_arg3 : IVec S32768 32) (main_arg4 : IVec S32768 32) (main_arg9 : FVec F S128x64 .f32) (main_arg10 : FVec F S64 .f32) (main_arg11 : FVec F S64x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_v48 main_v49 main_v50

def fn_part1 {F : FTy → Type} [FloatOps F] (main_arg3 : IVec S32768 32) (main_arg4 : IVec S32768 32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_v33

def fn {F : FTy → Type} [FloatOps F] (main_arg0 : FVec F S8192x64 .f32) (main_arg1 : FVec F S32768x64 .f32) (main_arg2 : FVec F S8192x32768 .f32) (main_arg3 : IVec S32768 32) (main_arg4 : IVec S32768 32) (main_arg5 : FVec F S192x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S8192x32768 .f32 := Host.absf main_arg2
  let main_cst_2 : FVec F S_ .f32 := constant S_ .f32 0x7F800000#32
  let main_v10 : FVec F S8192x32768 .f32 := broadcastInDim S8192x32768 ![] bcast_S_S8192x32768 main_cst_2
  let main_v11 : IVec S8192x32768 1 := cmpf .olt main_v9 main_v10
  let main_c_3 : IVec S_ 1 := constantI S_ 1 1#1
  let main_v12 : IVec S_ 1 := (fun x v => Host.reduce IntOp.andi x v reducesTo_S8192x32768_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg3 main_arg4 main_arg6 main_arg7 main_arg8 main_arg9 main_arg10 main_arg11 main_arg12 main_v13 main_v16
-- ==== Kernel.lean ====
abbrev S8192x64 : Shape := ⟨2, ![8192, 64]⟩
abbrev S32768x64 : Shape := ⟨2, ![32768, 64]⟩
abbrev S8192x32768 : Shape := ⟨2, ![8192, 32768]⟩
abbrev S32768 : Shape := ⟨1, ![32768]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S1x64 : Shape := ⟨2, ![1, 64]⟩
abbrev S512x4096 : Shape := ⟨2, ![512, 4096]⟩
abbrev S512x64 : Shape := ⟨2, ![512, 64]⟩
abbrev S4096x64 : Shape := ⟨2, ![4096, 64]⟩

abbrev nBuf : Space → Nat
  | .hbm => 73
  | .vmem => 27
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S8192x32768, .f32⟩
  | .hbm, ⟨3, _⟩ => ⟨S32768, .i32⟩
  | .hbm, ⟨4, _⟩ => ⟨S32768, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S32768, .i32⟩
  | .hbm, ⟨20, _⟩ => ⟨S32768x1, .i32⟩
  | .hbm, ⟨21, _⟩ => ⟨S1, .i32⟩
  | .hbm, ⟨22, _⟩ => ⟨S_, .i32⟩
  | .hbm, ⟨23, _⟩ => ⟨S32768x1, .i32⟩
  | .hbm, ⟨24, _⟩ => ⟨S32768x1, .i1⟩
  | .hbm, ⟨25, _⟩ => ⟨S1x1, .i32⟩
  | .hbm, ⟨26, _⟩ => ⟨S32768x1, .i32⟩
  | .hbm, ⟨27, _⟩ => ⟨S32768x1, .i1⟩
  | .hbm, ⟨28, _⟩ => ⟨S32768x1, .i1⟩
  | .hbm, ⟨29, _⟩ => ⟨S_, .i1⟩
  | .hbm, ⟨30, _⟩ => ⟨S32768, .i1⟩
  | .hbm, ⟨31, _⟩ => ⟨S32768x64, .f32⟩
  | .hbm, ⟨32, _⟩ => ⟨S32768x64, .i1⟩
  | .hbm, ⟨33, _⟩ => ⟨S_, .f32⟩
  | .hbm, ⟨34, _⟩ => ⟨S32768x64, .f32⟩
  | .hbm, ⟨35, _⟩ => ⟨S32768x64, .f32⟩
  | .hbm, ⟨36, _⟩ => ⟨S32768x64, .bf16⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S1, .i32⟩
  | .hbm, ⟨46, _⟩ => ⟨S_, .i32⟩
  | .hbm, ⟨47, _⟩ => ⟨S32768x1, .i32⟩
  | .hbm, ⟨48, _⟩ => ⟨S32768x1, .i1⟩
  | .hbm, ⟨49, _⟩ => ⟨S1x1, .i32⟩
  | .hbm, ⟨50, _⟩ => ⟨S32768x1, .i32⟩
  | .hbm, ⟨51, _⟩ => ⟨S32768x1, .i1⟩
  | .hbm, ⟨52, _⟩ => ⟨S32768x1, .i1⟩
  | .hbm, ⟨53, _⟩ => ⟨S_, .i1⟩
  | .hbm, ⟨54, _⟩ => ⟨S32768, .i1⟩
  | .hbm, ⟨55, _⟩ => ⟨S32768x64, .f32⟩
  | .hbm, ⟨56, _⟩ => ⟨S32768x64, .i1⟩
  | .hbm, ⟨57, _⟩ => ⟨S_, .f32⟩
  | .hbm, ⟨58, _⟩ => ⟨S32768x64, .f32⟩
  | .hbm, ⟨59, _⟩ => ⟨S32768x64, .f32⟩
  | .hbm, ⟨60, _⟩ => ⟨S32768x64, .bf16⟩
  | .hbm, ⟨61, _⟩ => ⟨S32768x64, .bf16⟩
  | .hbm, ⟨62, _⟩ => ⟨S1x64, .f32⟩
  | .hbm, ⟨63, _⟩ => ⟨S1x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S32768x64, .f32⟩
  | .hbm, ⟨68, _⟩ => ⟨S1x64, .f32⟩
  | .hbm, ⟨69, _⟩ => ⟨S1x64, .f32⟩
  | .hbm, ⟨70, _⟩ => ⟨S64x64, .f32⟩
  | .hbm, ⟨71, _⟩ => ⟨S64x64, .f32⟩
  | .hbm, ⟨72, _⟩ => ⟨S8192x64, .f32⟩
  | .local _ .vmem, ⟨0, _⟩ => ⟨S8192x64, .bf16⟩
  | .local _ .vmem, ⟨1, _⟩ => ⟨S8192x64, .bf16⟩
  | .local _ .vmem, ⟨2, _⟩ => ⟨S8192x64, .bf16⟩
  | .local _ .vmem, ⟨3, _⟩ => ⟨S8192x64, .bf16⟩
  | .local _ .vmem, ⟨4, _⟩ => ⟨S8192x64, .bf16⟩
  | .local _ .vmem, ⟨5, _⟩ => ⟨S8192x64, .bf16⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | .local _ .vmem, ⟨14, _⟩ => ⟨S512x4096, .f32⟩
  | .local _ .vmem, ⟨15, _⟩ => ⟨S512x4096, .f32⟩
  | .local _ .vmem, ⟨16, _⟩ => ⟨S32768x64, .f32⟩
  | .local _ .vmem, ⟨17, _⟩ => ⟨S512x64, .f32⟩
  | .local _ .vmem, ⟨18, _⟩ => ⟨S512x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c4096_i32 : BitVec 32 := 4096#32
  let v5 : BitVec 32 := Scalar.muli arg1 c4096_i32
  v5
def k1_off1 (i : grid1.Coords) : Fin 2 → Nat :=
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S32768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x64_0 : S32768.BroadcastsInDim S32768x64 (![0] : Fin 1 → Fin S32768x64.rank)
  bcast_S_S32768x64 : S_.BroadcastsInDim S32768x64 (![] : Fin 0 → Fin S32768x64.rank)
  bitsLt_bf16_f32 : FTy.bits .bf16 < FTy.bits .f32
  shapeCasts_S64_S1x64 : S64.ShapeCasts S1x64
  slices_S192x64_S64x64_0_0 : S192x64.Slices ![0, 0] S64x64
  slices_S192x64_S64x64_64_0 : S192x64.Slices ![64, 0] S64x64
  slices_S192x64_S64x64_128_0 : S192x64.Slices ![128, 0] S64x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S128x64_S64x64_0_0 : S128x64.Slices ![0, 0] S64x64
  slices_S128x64_S64x64_64_0 : S128x64.Slices ![64, 0] S64x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  h_S4096x64 : 0 < S4096x64.numel
  shapeCasts_S4096x64_S4096x64 : S4096x64.ShapeCasts S4096x64
  broadcasts_S1x64_S512x64 : S1x64.Broadcasts S512x64
  gather_S8192x64_S32768x1_S32768x64_1_0_n_n_0_1_164_wf : GatherDims.WF S8192x64 S32768x1 S32768x64 [1] [0] [] [0] [] 1 ![1, 64]
  dot_S8192x64_S64x64_S8192x64_1_0_0_1_n_n_wf : DotDims.WF S8192x64 S64x64 S8192x64 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S32768x64.size a
  hwx0_0 : ∀ i : grid0.Coords, EltTy.bits .bf16 = 32 ∨ (Rect.block (s := S32768x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S32768x64.size a
  hwx0_1 : ∀ i : grid0.Coords, EltTy.bits .bf16 = 32 ∨ (Rect.block (s := S32768x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S32768x64.size a
  hwx0_2 : ∀ i : grid0.Coords, EltTy.bits .bf16 = 32 ∨ (Rect.block (s := S32768x64) S8192x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x64.size a ≤ S32768x64.size a
  hwx0_9 : ∀ i : grid0.Coords, EltTy.bits .f32 = 32 ∨ (Rect.block (s := S32768x64) S8192x64.size (cc0_transform_9 i) (hinb0_9 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x64.size a ≤ S32768x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x32768.size a
  hwx1_0 : ∀ i : grid1.Coords, EltTy.bits .f32 = 32 ∨ (Rect.block (s := S8192x32768) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32768x64.size a ≤ S32768x64.size a
  hwx1_1 : ∀ i : grid1.Coords, EltTy.bits .f32 = 32 ∨ (Rect.block (s := S32768x64) S32768x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .f32 = 32 ∨ (Rect.block (s := S8192x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x64.size a ≤ S8192x64.size a
  hwx1_8 : ∀ i : grid1.Coords, EltTy.bits .f32 = 32 ∨ (Rect.block (s := S8192x64) S512x64.size (cc1_transform_8 i) (hinb1_8 i)).WholeWords (EltTy.packing .f32)

variable [Facts₀]

def gather_S8192x64_S32768x1_S32768x64_1_0_n_n_0_1_164 : GatherDims S8192x64 S32768x1 S32768x64 where
  offsetDims := [1]
  collapsedSliceDims := [0]
  operandBatchingDims := []
  startIndicesBatchingDims := []
  startIndexMap := [0]
  indexVectorDim := 1
  sliceSizes := ![1, 64]
  wf := gather_S8192x64_S32768x1_S32768x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v4) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S8192x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S32768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S512x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x64 : Shape := ⟨2, ![8192, 64]⟩
abbrev S32768x64 : Shape := ⟨2, ![32768, 64]⟩
abbrev S8192x32768 : Shape := ⟨2, ![8192, 32768]⟩
abbrev S32768 : Shape := ⟨1, ![32768]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩
abbrev S32768x1 : Shape := ⟨2, ![32768, 1]⟩
abbrev S32768x192 : Shape := ⟨2, ![32768, 192]⟩
abbrev S1x64 : Shape := ⟨2, ![1, 64]⟩
abbrev S8192x128 : Shape := ⟨2, ![8192, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S8192x32768, .f32⟩
  | .hbm, ⟨3, _⟩ => ⟨S32768, .i32⟩
  | .hbm, ⟨4, _⟩ => ⟨S32768, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S32768, .i32⟩
  | .hbm, ⟨20, _⟩ => ⟨S32768x1, .i32⟩
  | .hbm, ⟨21, _⟩ => ⟨S32768x64, .f32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768x64, .f32⟩
  | .hbm, ⟨31, _⟩ => ⟨S32768x192, .f32⟩
  | .hbm, ⟨32, _⟩ => ⟨S32768x64, .f32⟩
  | .hbm, ⟨33, _⟩ => ⟨S1x64, .f32⟩
  | .hbm, ⟨34, _⟩ => ⟨S32768x64, .f32⟩
  | .hbm, ⟨35, _⟩ => ⟨S32768x64, .f32⟩
  | .hbm, ⟨36, _⟩ => ⟨S_, .f32⟩
  | .hbm, ⟨37, _⟩ => ⟨S32768x64, .f32⟩
  | .hbm, ⟨38, _⟩ => ⟨S32768x64, .f32⟩
  | .hbm, ⟨39, _⟩ => ⟨S32768x64, .f32⟩
  | .hbm, ⟨40, _⟩ => ⟨S1x64, .f32⟩
  | .hbm, ⟨41, _⟩ => ⟨S32768x64, .f32⟩
  | .hbm, ⟨42, _⟩ => ⟨S32768x64, .f32⟩
  | .hbm, ⟨43, _⟩ => ⟨S8192x64, .f32⟩
  | .hbm, ⟨44, _⟩ => ⟨S8192x128, .f32⟩
  | .hbm, ⟨45, _⟩ => ⟨S8192x64, .f32⟩
  | .hbm, ⟨46, _⟩ => ⟨S1x64, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S1x64, .f32⟩
  | .hbm, ⟨54, _⟩ => ⟨S8192x64, .f32⟩
  | .hbm, ⟨55, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x64_S32768x64_S32768x64_S32768x192_d1 : Shape.Concatenates [S32768x64, S32768x64, S32768x64] S32768x192 1
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  concatenates_S8192x64_S8192x64_S8192x128_d1 : Shape.Concatenates [S8192x64, S8192x64] S8192x128 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  gather_S8192x64_S32768x1_S32768x64_1_0_n_n_0_1_164_wf : GatherDims.WF S8192x64 S32768x1 S32768x64 [1] [0] [] [0] [] 1 ![1, 64]
  dot_S32768x192_S192x64_S32768x64_1_0_0_1_n_n_wf : DotDims.WF S32768x192 S192x64 S32768x64 [1] [0] [0] [1] [] []
  dot_S32768x64_S64x64_S32768x64_1_0_0_1_n_n_wf : DotDims.WF S32768x64 S64x64 S32768x64 [1] [0] [0] [1] [] []
  dot_S8192x32768_S32768x64_S8192x64_1_0_0_1_n_n_wf : DotDims.WF S8192x32768 S32768x64 S8192x64 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []

variable [Facts₀]

def gather_S8192x64_S32768x1_S32768x64_1_0_n_n_0_1_164 : GatherDims S8192x64 S32768x1 S32768x64 where
  offsetDims := [1]
  collapsedSliceDims := [0]
  operandBatchingDims := []
  startIndicesBatchingDims := []
  startIndexMap := [0]
  indexVectorDim := 1
  sliceSizes := ![1, 64]
  wf := gather_S8192x64_S32768x1_S32768x64_1_0_n_n_0_1_164_wf
def dot_S32768x192_S192x64_S32768x64_1_0_0_1_n_n : DotDims S32768x192 S192x64 S32768x64 where
  lhsContracting := [1]
  rhsContracting := [0]
  lhsNonContracting := [0]
  rhsNonContracting := [1]
  lhsBatch := []
  rhsBatch := []
  wf := dot_S32768x192_S192x64_S32768x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S8192x32768_S32768x64_S8192x64_1_0_0_1_n_n : DotDims S8192x32768 S32768x64 S8192x64 where
  lhsContracting := [1]
  rhsContracting := [0]
  lhsNonContracting := [0]
  rhsNonContracting := [1]
  lhsBatch := []
  rhsBatch := []
  wf := dot_S8192x32768_S32768x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.K.R0.lean ====
import proofs.«407642_j41936060678384_3_alg».proof.Proof.Gen.Kernel.Launch
import proofs.«407642_j41936060678384_3_alg».proof.Proof.Gen.Kernel.Skeleton
import proofs.«407642_j41936060678384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the edge MLP): the body's half of the frame, at any entry contents

The first pipelined call computes, for each block of 8192 edges,
`relu(x_em · W1em + x_src · W1src + x_dst · W1dst + b1) · W2 + b2`.
Its body reads nine staging buffers whole (three edge-row blocks and six parameter blocks) and writes the
output block whole, once. So what the body leaves in the output buffer is a closed function of the nine
blocks it finds, and what it finds in each input buffer is that window's block of its array at the point,
whether the pipeline fetched it at this point (the row blocks, every point) or only at the first (the
parameters, whose block index never moves).

Everything is stated at a parameter `V`: the TensorCore's buffer contents when the region is entered.
-/

-- membership in a rectangle of 8192 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input buffer

An input window's current staging buffer holds its block at every point, fetched there or not, for any proof
data whose array is the entry contents and whose body leaves the block in place: where the window is not
fetched its block index has not moved, so the block still in the buffer is this point's. The row-block windows
0, 1, 2 are fetched at every point; the parameter windows 3 to 8 at the first point only. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store go through the whole-buffer rectangle of the buffer's shape. -/

abbrev rRows : Rect S8192x64 := Rect.unit (s := S8192x64) ![0, 0] S8192x64.size inb_S8192x64_S8192x64_0_0
abbrev rMat : Rect S64x64 := Rect.unit (s := S64x64) ![0, 0] S64x64.size inb_S64x64_S64x64_0_0
abbrev rVec : Rect S1x64 := Rect.unit (s := S1x64) ![0, 0] S1x64.size inb_S1x64_S1x64_0_0

/-! ## What the body leaves in the output window's buffer -/

/-- The output staging buffer after the body, from the nine input blocks: its one store as a piece, the payload
    the edge MLP of the blocks as loaded. -/
def out0_9 (x0 x1 x2 : Vec F S8192x64 .bf16) (x3 x4 x5 : Vec F S64x64 .f32) (x6 : Vec F S1x64 .f32) (x7 : Vec F S64x64 .f32) (x8 : Vec F S1x64 .f32) : Vec F S8192x64 .f32 :=
  View.canon [⟨rRows, k0_pay1 (View.ld x0 rRows) (View.ld x1 rRows) (View.ld x2 rRows) (View.ld x3 rMat) (View.ld x4 rMat) (View.ld x5 rMat) (View.ld x6 rVec) (View.ld x7 rMat) (View.ld x8 rVec)⟩]

/-- The one store is the whole buffer, so it covers it. -/
theorem cover0_9 (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

/-! ## The body's triple -/

set_option maxHeartbeats 4000000 in
/-- The body on whole staging memrefs, the nine inputs' at read contents `x0 … x8` and the output's at anything,
    runs to the continuation holding the inputs' as they were and the output's at `out0_9` of them. The grid
    coordinate is not read. -/
theorem sound_kernel0 (c : Dev nD) (E : Set ℕ) (i : grid0.Coords)
    (arg0 : Memref sig .tc .vmem S8192x64 .bf16) (harg0 : arg0.IsWhole)
    (arg1 : Memref sig .tc .vmem S8192x64 .bf16) (harg1 : arg1.IsWhole)
    (arg2 : Memref sig .tc .vmem S8192x64 .bf16) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S64x64 .f32) (harg7 : arg7.IsWhole)
    (arg8 : Memref sig .tc .vmem S1x64 .f32) (harg8 : arg8.IsWhole)
    (arg9 : Memref sig .tc .vmem S8192x64 .f32) (harg9 : arg9.IsWhole)
    (x0 x1 x2 : Vec F S8192x64 .bf16) (x3 x4 x5 : Vec F S64x64 .f32) (x6 : Vec F S1x64 .f32) (x7 : Vec F S64x64 .f32) (x8 : Vec F S1x64 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__edge_mlp_kernel i arg0 harg0 arg1 harg1 arg2 harg2 arg3 harg3 arg4 harg4 arg5 harg5 arg6 harg6 arg7 harg7 arg8 harg8 arg9 harg9) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them; after the body at point
    `t` each input's buffer at its block and the output's at `out0_9` of the nine input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/- The node-update region (a 16 x 8 grid; the second coordinate k walks the 8 column blocks of the adjacency
   row block, and an accumulator of 512 x 64 sums adjacency-block times message-chunk over k): what its three
   whole-body runs share. Each window's block at a point, read off the array as the region finds it; the two
   branch conditions of the body (k = 0: the accumulator is reset; k = 7: the node update is computed and
   stored) in closed form over the grid; where the output window is idle and where it is written back; the
   staging memrefs and the accumulator's memref; the region invariant with the accumulator named. -/
import proofs.«407642_j41936060678384_3_alg».proof.Proof.Gen.Kernel.Launch
import proofs.«407642_j41936060678384_3_alg».proof.Proof.Gen.Kernel.Skeleton
import proofs.«407642_j41936060678384_3_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the node-update region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved), for any proof data whose array is the entry contents and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved), for any proof data whose array is the entry contents and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its
    block index has not moved), for any proof data whose array is the entry contents and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its
    block index has not moved), for any proof data whose array is the entry contents and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its
    block index has not moved), for any proof data whose array is the entry contents and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, its
    block index has not moved), for any proof data whose array is the entry contents and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, its
    block index has not moved), for any proof data whose array is the entry contents and whose body leaves the
    block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch's condition (the accumulator is reset), from the grid coordinates: k = 0. -/
abbrev cond1_0 (i : grid1.Coords) : Prop := (Scalar.cmpi .ne (Scalar.extui (Scalar.cmpi .eq (BitVec.ofNat 32 (i 1).val) 0#32)) 0#32) = 1#1
/-- It holds at the points ≡ 0 (mod 8), decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the node update is computed and stored), from the grid coordinates: k = 7. -/
abbrev cond1_1 (i : grid1.Coords) : Prop := k1_cond2 i = 1#1
/-- It holds at the points ≡ 7 (mod 8), decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Where k = 0 the output window is idle: nothing is stored into it. -/
theorem idleAt1_8_A : ∀ t : Fin cfg1.N, cond1_0 (grid1.coords t) → ¬cond1_1 (grid1.coords t) → cfg1.idle 8 (grid1.coords t) = true := by decide +kernel
/-- Where k = 0 the output block is not written back. -/
theorem noFlush1_8_A : ∀ t : Fin cfg1.N, cond1_0 (grid1.coords t) → ¬cond1_1 (grid1.coords t) → (cfg1.win 8).flush t = false := by decide +kernel
/-- Where 0 < k < 7 the output window is idle: nothing is stored into it. -/
theorem idleAt1_8_B : ∀ t : Fin cfg1.N, ¬cond1_0 (grid1.coords t) → ¬cond1_1 (grid1.coords t) → cfg1.idle 8 (grid1.coords t) = true := by decide +kernel
/-- Where 0 < k < 7 the output block is not written back. -/
theorem noFlush1_8_B : ∀ t : Fin cfg1.N, ¬cond1_0 (grid1.coords t) → ¬cond1_1 (grid1.coords t) → (cfg1.win 8).flush t = false := by decide +kernel
/-- Where k = 7 the output window is live: the node update is stored into it. -/
theorem liveAt1_8_C : ∀ t : Fin cfg1.N, ¬cond1_0 (grid1.coords t) → cond1_1 (grid1.coords t) → cfg1.idle 8 (grid1.coords t) = false := by decide +kernel

/-! ## The staging memrefs and the accumulator -/

/-- One staging buffer of the output window, through which its contents are stated (the choice does not matter). -/
abbrev VO1_8 : View sig .tc .vmem S512x64 .f32 := (Memref.whole cc1_stg8_0 : Memref sig .tc .vmem S512x64 .f32).view
/-- Window 0's current staging memref at point `t`, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
/-- Window 1's current staging memref at point `t`, and its wholeness. -/
abbrev ms1_1 (t : Fin cfg1.N) : Memref sig .tc .vmem S32768x64 .f32 := win1_1.stage (cfg1.slots t 1)
abbrev hs1_1 (t : Fin cfg1.N) : (ms1_1 t).IsWhole := hstage1_1 ((cfg1.slots t 1).cast nbuf1_1)
/-- Window 2's current staging memref at point `t`, and its wholeness. -/
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
/-- Window 3's current staging memref at point `t`, and its wholeness. -/
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
/-- Window 4's current staging memref at point `t`, and its wholeness. -/
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
/-- Window 5's current staging memref at point `t`, and its wholeness. -/
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
/-- Window 6's current staging memref at point `t`, and its wholeness. -/
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
/-- Window 7's current staging memref at point `t`, and its wholeness. -/
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
/-- Window 8's current staging memref at point `t`, and its wholeness. -/
abbrev ms1_8 (t : Fin cfg1.N) : Memref sig .tc .vmem S512x64 .f32 := win1_8.stage (cfg1.slots t 8)
abbrev hs1_8 (t : Fin cfg1.N) : (ms1_8 t).IsWhole := hstage1_8 ((cfg1.slots t 8).cast nbuf1_8)
/-- The accumulator: a whole scoped buffer of the kernel's own, passed beside the windows. -/
abbrev scM1_0 : Memref sig .tc .vmem S512x64 .f32 := Memref.whole cc1_scratch0
/-- The accumulator as a view: what it holds is stated through it. -/
abbrev VS1_0 : View sig .tc .vmem S512x64 .f32 := scM1_0.view

/-- The core's scoped buffers other than this region's staging buffers and the accumulator (the other region's
    staging buffers), each whole at some contents, conjoined in front of `X`. -/
def restBefore (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ X)

/-- What stands behind the other buffers may be weakened. -/
theorem restBefore_mono (c : Dev nD) {X Y : sProp 𝕄} (h : X ⊢ Y) : restBefore (F := F) c X ⊢ restBefore (F := F) c Y := by
  unfold restBefore
  iintro ⟨H0, H1, H2, H3, H4, H5, H6, H7, H8, H9, H10, H11, H12, H13, HX⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply h; iexact HX

/-- The region's entry invariant with the accumulator as a memref owned at some contents: what the body obligation
    hands the run and takes back. -/
theorem PhiA1_eq (c : Dev nD) :
    (Pipeline.ΦA spec1 c : sProp 𝕄)
      = iprop(restBefore (F := F) c iprop(∃ d, owns (c : Thread nD τ) scM1_0 fullShare d) ∗ (∃ r, prngReg c r)) := by
  unfold Pipeline.ΦA restBefore; rw [scopedRest1_eq]; simp only [scM1_0, owns_whole]; try rfl

end Cert.Kernel.Hand

end
-- ==== Proof.K.R1RunA.lean ====
/- The node-update kernel's whole body run where k = 0: the accumulator is reset to zero and takes the first adjacency block times message chunk; nothing else is written. -/
import proofs.«407642_j41936060678384_3_alg».proof.Proof.K.R1Runs

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where k = 0 (the first branch taken, the second not). On whole staging memrefs — the inputs' at their
    contents, the output's at contents `xi8` handed back untouched (the window is idle here), the accumulator at
    anything — the body runs to the continuation holding the inputs' as they were and the accumulator with the pieces
    `LS0` written (last first): the reset to zero, then zero plus adjacency block times message chunk. The pieces are
    the witness the run finds. -/
noncomputable def kernelRun1_A (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) :
    Σ' (L8 : List (View.Piece (Elt F) S512x64 .f32)), { LS0 : List (View.Piece (Elt F) S512x64 .f32) //
      ∀ (xi8 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunB.lean ====
/- The node-update kernel's whole body run where 0 < k < 7: the accumulator takes one more adjacency block times message chunk; nothing else is written. -/
import proofs.«407642_j41936060678384_3_alg».proof.Proof.K.R1RunA

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where 0 < k < 7 (neither branch taken). On whole staging memrefs — the inputs' at their contents, the
    output's at contents `xi8` handed back untouched (the window is idle here), the accumulator at what the point
    before left (`xs0`) — the body runs to the continuation holding the inputs' as they were and the accumulator with
    the pieces `LS0` written: the accumulator plus adjacency block times message chunk. The pieces are the witness
    the run finds. -/
noncomputable def kernelRun1_B (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    Σ' (L8 : List (View.Piece (Elt F) S512x64 .f32)), { LS0 : List (View.Piece (Elt F) S512x64 .f32) //
      ∀ (xi8 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunC.lean ====
/- The node-update kernel's whole body run where k = 7: the accumulator takes the last adjacency block times message chunk, and the node update of the row block, computed from the finished accumulator, is stored into the output window. -/
import proofs.«407642_j41936060678384_3_alg».proof.Proof.K.R1RunB

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where k = 7 (the second branch taken, the first not). On whole staging memrefs — the inputs' at their
    contents, the output's at anything, the accumulator at what the point before left (`xs0`) — the body runs to the
    continuation holding the inputs' as they were, the accumulator with the pieces `LS0` written (the accumulator
    plus adjacency block times message chunk) and the output's buffer with the pieces `L8` written (the node update
    of the row block, from the finished accumulator). The pieces are the witness the run finds. -/
noncomputable def kernelRun1_C (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    Σ' (L8 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.K.R1.lean ====
/- The node-update region's frame half, at any entry contents V. What each of the three cases of a point (k = 0,
   0 < k < 7, k = 7) leaves in the accumulator and in the output window's staging buffer, read back from the pieces
   its run found; what they hold point by point along the grid (the accumulator restarts at every k = 0 and is
   carried through k = 1 .. 7; the output buffer is stored at k = 7 and idle elsewhere); the region invariant
   naming the accumulator's contents between points; the proof data of the pipeline; and the body obligation at
   every point, with the invariant's entry and exit. -/
import proofs.«407642_j41936060678384_3_alg».proof.Proof.K.R1RunC

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the node-update region is entered
variable (V : (c : Dev nD) → (b : Ref sig .tc) → Buf (Elt F) ((c : Thread nD τ).loc b))

/-- The case where k = 0 stores nothing into the output window (idle there, and not written back): a placeholder
    nothing consults. -/
def out1_A_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) : Vec F S512x64 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- The pieces the case where k = 0 writes into the accumulator cover it (each is a whole-buffer store). -/
theorem scover1_A_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (y : S512x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S512x64.size (by sl_kernel_rfl) y

/-- What the case where k = 0 leaves in the accumulator: its pieces read back. -/
def sout1_A_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) : Vec F S512x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- The case where 0 < k < 7 stores nothing into the output window (idle there, and not written back): a placeholder
    nothing consults. -/
def out1_B_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The pieces the case where 0 < k < 7 writes into the accumulator cover it (each is a whole-buffer store). -/
theorem scover1_B_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S512x64.size (by sl_kernel_rfl) y

/-- What the case where 0 < k < 7 leaves in the accumulator: its pieces read back. -/
def sout1_B_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- The case where k = 7 stores the whole output block once: its piece covers the block. -/
theorem cover1_C_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S512x64.size (by sl_kernel_rfl) y

/-- What the case where k = 7 leaves in the output window's staging buffer: its pieces read back. -/
def out1_C_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The pieces the case where k = 7 writes into the accumulator cover it (each is a whole-buffer store). -/
theorem scover1_C_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S512x64.size (by sl_kernel_rfl) y

/-- What the case where k = 7 leaves in the accumulator: its pieces read back. -/
def sout1_C_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output buffer and the accumulator hold after each point -/

/-- THE ACCUMULATION. What the output window's staging buffer and the accumulator hold after the body at position
    `n` (a pair): the case the closed forms select at `n`, run at the point's memrefs and input blocks, the
    accumulator taken at what position `n - 1` left (nothing touches it between points); at k = 0 it is reset, so
    nothing earlier is consulted. -/
def outsAt1 (c : Dev nD) : (n : ℕ) → n < cfg1.N → Vec F S512x64 .f32 × Vec F S512x64 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a point with k = 0: that case's contents. -/
theorem outsAt1_A (c : Dev nD) (t : Fin cfg1.N) (h0 : t.val % 8 = 0) (h1 : ¬t.val % 8 = 7) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at a point with 0 < k < 7: that case's contents, over what the point before left in the accumulator. -/
theorem outsAt1_B (c : Dev nD) (t : Fin cfg1.N) (h0 : ¬t.val % 8 = 0) (h1 : ¬t.val % 8 = 7) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: that case's contents, over what the point before left in the accumulator. -/
theorem outsAt1_C (c : Dev nD) (t : Fin cfg1.N) (h0 : ¬t.val % 8 = 0) (h1 : t.val % 8 = 7) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the other scoped buffers as they were, the accumulator at what the point before left in it,
    and the generator register at some state. -/
def PhiS1 (c : Dev nD) : (n : ℕ) → n ≤ cfg1.N → sProp 𝕄
  | 0, _ => Pipeline.ΦA spec1 c
  | n + 1, hn => iprop(restBefore (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(restBefore (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(restBefore (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the node-update pipeline on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the closed forms say which case the point is in;
    the invariant hands the body the accumulator at what the point before left (at anything at the first point),
    the other scoped buffers and the generator register, and takes the accumulator back at this point's contents
    (its pieces cover it); where the output window is idle its buffer goes through untouched, where k = 7 it comes
    back at the stored node update; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine Idealize.SL.BI.sep_mono (restBefore_mono c ?_) (Idealize.SL.BI.Entails.refl _)
  iintro H; iexists _; iexact H

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
/-
  The whole program's run, with every buffer's final contents named.

  @main is seven items in a row: four stretches of host operations (the two endpoint gathers with their in-bounds
  selects, the format changes, the weight blocks and bias rows of the edge update), the edge kernel's region, one more
  stretch (the node update's weight blocks and bias rows), the node kernel's region. Between two items a core holds
  every unscoped buffer at contents that are a function of the launch memory: a stretch applies its operations; a
  region leaves each of its arrays at what its write-backs fold to, and every other buffer as it found it. The node
  region is entered at contents that already hold the edge region's output, so its proof data are stated over them.
  Composing the items gives: every weakly fair execution ends, and the final memory holds each unscoped buffer at the
  last contents of this chain. Read at the two results these are the two regions' folded outputs; read at an argument
  they are the launch contents, because no stretch writes an argument and a region only reads one.
-/
import proofs.«407642_j41936060678384_3_alg».proof.Proof.K.R0
import proofs.«407642_j41936060678384_3_alg».proof.Proof.K.R1
import proofs.«407642_j41936060678384_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
/-- The node region's proof data hold every array at the full share and owe nothing. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
end

variable (m : (ℓ : Loc nD τ sig) → Buf (Elt F) ℓ) (ρ : Dev nD → PrngReg)

/-! ## The contents at the two regions' boundaries -/

/-- What the edge region is entered with: the launch memory after the four leading stretches. -/
abbrev entry0 : (c : Dev nD) → (b : Ref sig .tc) → Buf (Elt F) ((c : Thread nD τ).loc b) := fun c b => Gen.V4 m c b

/-- After the edge region: its arrays at what the write-backs fold to, every other buffer as before. -/
def exit0 (c : Dev nD) : Valuation τ sig (Elt F) :=
  Pipeline.withArrays spec0 c (Gen.V4 m c) fun w => (dat0 (entry0 m) c).arrAt w cfg0.N

theorem exit0_arr (c : Dev nD) (w : Fin cfg0.W) :
    exit0 m c (Proc.devRef .tc (Pipeline.arrRef spec0 w)) = (dat0 (entry0 m) c).arrAt w cfg0.N := by
  unfold exit0; exact Pipeline.withArrays_arr spec0 launch0.win.arr_inj c _ _ w

theorem exit0_of_ne (c : Dev nD) (b : Ref sig .tc) (hb : ∀ w, Pipeline.arrRef spec0 w ≠ b) :
    exit0 m c (Proc.devRef .tc b) = Gen.V4 m c (Proc.devRef .tc b) := by
  unfold exit0; exact Pipeline.withArrays_of_ne spec0 c _ _ b hb

/-- The same contents read at the TensorCore's references. -/
abbrev exit0R : (c : Dev nD) → (b : Ref sig .tc) → Buf (Elt F) ((c : Thread nD τ).loc b) := fun c b => exit0 m c b

/-- A window of the edge region other than its output is an input: its array is never written back. -/
theorem isIn0 : ∀ w : Fin cfg0.W, Pipeline.arrRef spec0 w ≠ main_v10 → (cfg0.win w).isOut = false := by decide

/-- Every buffer but the edge region's result leaves that region as it entered it. -/
theorem exit0_keep (c : Dev nD) (b : Ref sig .tc) (hb : b ≠ main_v10) :
    exit0 m c (Proc.devRef .tc b) = Gen.V4 m c (Proc.devRef .tc b) := by
  by_cases h : ∃ w, Pipeline.arrRef spec0 w = b
  · obtain ⟨w, rfl⟩ := h
    rw [exit0_arr]
    exact ((dat0 (entry0 m) c).arrAt_in w (isIn0 w hb) _).trans (A_eq0 (entry0 m) c w)
  · exact exit0_of_ne m c b fun w e => h ⟨w, e⟩

theorem hF0 (c : Dev nD) (w : Fin cfg0.W) : (dat0 (entry0 m) c).arrAt w cfg0.N = exit0R m c (Pipeline.arrRef spec0 w) :=
  (exit0_arr m c w).symm
theorem hrest0 (c : Dev nD) : ∀ b, b ∉ Finset.univ.image (Pipeline.arrRef spec0) → exit0R m c b = entry0 m c b :=
  fun b hb => exit0_of_ne m c b fun w e => hb (Finset.mem_image.mpr ⟨w, Finset.mem_univ _, e⟩)

/-- What the node region is entered with: the edge region's exit contents after the last stretch. -/
abbrev mid : Dev nD → Valuation τ sig (Elt F) := fun c => StableHlo.after hostOps1 (exit0 m c)
abbrev entry1 : (c : Dev nD) → (b : Ref sig .tc) → Buf (Elt F) ((c : Thread nD τ).loc b) := fun c b => mid m c b

/-- After the node region: its arrays at what the write-backs fold to, every other buffer as before. -/
def exit1 (c : Dev nD) : Valuation τ sig (Elt F) :=
  Pipeline.withArrays spec1 c (mid m c) fun w => (dat1 (entry1 m) c).arrAt w cfg1.N

theorem exit1_arr (c : Dev nD) (w : Fin cfg1.W) :
    exit1 m c (Proc.devRef .tc (Pipeline.arrRef spec1 w)) = (dat1 (entry1 m) c).arrAt w cfg1.N := by
  unfold exit1; exact Pipeline.withArrays_arr spec1 launch1.win.arr_inj c _ _ w

theorem exit1_of_ne (c : Dev nD) (b : Ref sig .tc) (hb : ∀ w, Pipeline.arrRef spec1 w ≠ b) :
    exit1 m c (Proc.devRef .tc b) = mid m c (Proc.devRef .tc b) := by
  unfold exit1; exact Pipeline.withArrays_of_ne spec1 c _ _ b hb

abbrev exit1R : (c : Dev nD) → (b : Ref sig .tc) → Buf (Elt F) ((c : Thread nD τ).loc b) := fun c b => exit1 m c b

theorem isIn1 : ∀ w : Fin cfg1.W, Pipeline.arrRef spec1 w ≠ main_v15 → (cfg1.win w).isOut = false := by decide

/-- Every buffer but the node region's result leaves that region as it entered it. -/
theorem exit1_keep (c : Dev nD) (b : Ref sig .tc) (hb : b ≠ main_v15) :
    exit1 m c (Proc.devRef .tc b) = mid m c (Proc.devRef .tc b) := by
  by_cases h : ∃ w, Pipeline.arrRef spec1 w = b
  · obtain ⟨w, rfl⟩ := h
    rw [exit1_arr]
    exact ((dat1 (entry1 m) c).arrAt_in w (isIn1 w hb) _).trans (A_eq1 (entry1 m) c w)
  · exact exit1_of_ne m c b fun w e => h ⟨w, e⟩

theorem hF1 (c : Dev nD) (w : Fin cfg1.W) : (dat1 (entry1 m) c).arrAt w cfg1.N = exit1R m c (Pipeline.arrRef spec1 w) :=
  (exit1_arr m c w).symm
theorem hrest1 (c : Dev nD) : ∀ b, b ∉ Finset.univ.image (Pipeline.arrRef spec1) → exit1R m c b = entry1 m c b :=
  fun b hb => exit1_of_ne m c b fun w e => hb (Finset.mem_image.mpr ⟨w, Finset.mem_univ _, e⟩)

/-! ## What the final contents are, buffer by buffer -/

/-- The node update's result buffer ends at the node region's folded output. -/
theorem exit1_v15 (c : Dev nD) : exit1 m c (Proc.devRef .tc main_v15) = (dat1 (entry1 m) c).arrAt 8 cfg1.N :=
  exit1_arr m c 8

/-- The last stretch writes only the node update's weight blocks and bias rows. -/
theorem mid_keep (c : Dev nD) (b : Ref sig .tc) (hb : b ∉ hostOps1_W) :
    mid m c (Proc.devRef .tc b) = exit0 m c (Proc.devRef .tc b) :=
  StableHlo.after_of_writes_sub hostOps1 _ hostOps1_writes hb

/-- The edge update's result buffer ends at the edge region's folded output: the last stretch does not write it and
    the node region only reads it. -/
theorem exit1_v10 (c : Dev nD) : exit1 m c (Proc.devRef .tc main_v10) = (dat0 (entry0 m) c).arrAt 9 cfg0.N :=
  (exit1_keep m c main_v10 (by decide)).trans <| (mid_keep m c main_v10 (by decide)).trans (exit0_arr m c 9)

/-- The node region finds the edge region's folded output in the edge result buffer. -/
theorem entry1_v10 (c : Dev nD) : entry1 m c main_v10 = (dat0 (entry0 m) c).arrAt 9 cfg0.N :=
  (mid_keep m c main_v10 (by decide)).trans (exit0_arr m c 9)

/-- A buffer no item writes ends as launched. -/
theorem exit1_launch (c : Dev nD) (b : Ref sig .tc) (h0 : b ∉ hostOps0_W) (h1 : b ∉ hostOps0_1_W) (h2 : b ∉ hostOps0_2_W)
    (h3 : b ∉ hostOps0_3_W) (h5 : b ∉ hostOps1_W) (h10 : b ≠ main_v10) (h15 : b ≠ main_v15) :
    exit1 m c (Proc.devRef .tc b) = m ((c : Thread nD τ).loc b) :=
  (exit1_keep m c b h15).trans <| (mid_keep m c b h5).trans <| (exit0_keep m c b h10).trans <|
    (Gen.V4_of m c b h3).trans <| (Gen.V3_of m c b h2).trans <| (Gen.V2_of m c b h1).trans <| (Gen.V1_of m c b h0).trans rfl

/-- A buffer the leading stretches may write but nothing after them: the node region finds it as the edge region did. -/
theorem entry1_of_entry0 (c : Dev nD) (b : Ref sig .tc) (h5 : b ∉ hostOps1_W) (h10 : b ≠ main_v10) :
    entry1 m c b = entry0 m c b :=
  (mid_keep m c b h5).trans (exit0_keep m c b h10)

/-- A buffer no item before the node region writes is, when the edge region is left, as launched. -/
theorem exit0_launch (c : Dev nD) (b : Ref sig .tc) (h0 : b ∉ hostOps0_W) (h1 : b ∉ hostOps0_1_W) (h2 : b ∉ hostOps0_2_W)
    (h3 : b ∉ hostOps0_3_W) (h10 : b ≠ main_v10) :
    exit0 m c (Proc.devRef .tc b) = m ((c : Thread nD τ).loc b) :=
  (exit0_keep m c b h10).trans <|
    (Gen.V4_of m c b h3).trans <| (Gen.V3_of m c b h2).trans <| (Gen.V2_of m c b h1).trans <| (Gen.V1_of m c b h0).trans rfl

/-- A buffer no item before the node region writes is, when that region is entered, as launched. -/
theorem entry1_launch (c : Dev nD) (b : Ref sig .tc) (h0 : b ∉ hostOps0_W) (h1 : b ∉ hostOps0_1_W) (h2 : b ∉ hostOps0_2_W)
    (h3 : b ∉ hostOps0_3_W) (h5 : b ∉ hostOps1_W) (h10 : b ≠ main_v10) :
    entry1 m c b = m ((c : Thread nD τ).loc b) :=
  (mid_keep m c b h5).trans (exit0_launch m c b h0 h1 h2 h3 h10)

/-! ## The proof data family and the thread state -/

abbrev adm' : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and the core owing
    nothing. -/
abbrev R (c : Dev nD) : sProp 𝕄 := iprop((∃ r, prngReg c r) ∗ ∃ W, owes (c : Thread nD τ) (0 : CellTallies nD τ sig Unit) W)

/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register at
    some state. -/
abbrev Tₙ (c : Dev nD) : sProp 𝕄 := iprop(StableHlo.held (c : Thread nD τ) (Pipeline.ucRefs τ sig) (exit1 m c) ∗ ∃ r, prngReg c r)

/-! ## The regions as items -/

set_option backward.isDefEq.respectTransparency.types false in
/-- The edge region: entered from every unscoped buffer at the contents after the leading stretches, left at `exit0`.
    Its arrays are split out of the unscoped buffers and put back at the exit contents; the generator register goes
    into the region's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (entry0 m c) (exit0R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region: entered from every unscoped buffer at `mid`, left at the final contents. As the edge region,
    except that its invariant carries the accumulator between grid points: what the entry hands it is the invariant
    before the first point, and after the last point the invariant gives the same back. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun c t => owed_eq1 (entry1 m) c t
  pre c := iprop(StableHlo.held (c : Thread nD τ) (Pipeline.ucRefs τ sig) (mid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm' (pdats m) launch1.win launch1.arr_whole c
      ((pdats m 1 c).share_full fun w => q_eq1 (entry1 m) c w) (entry1 m c) fun w => A_eq1 (entry1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q_eq1 (entry1 m) c w)
      (entry1 m c) (exit1R m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's seven items in order. -/
abbrev segs : List (Pipeline.Seg (pcfgs (F := F)) adm' (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .region (reg0 m),
    .host (hseg hostOps1 hostOps1_sub hostOps1_fresh (exit0 m)),
    .region (reg1 m) ]

/-- @main is the run of the items. -/
theorem main_run (c : Dev nD) : main (F := F) c = Pipeline.Seg.run (segs m) := (main_chain c).trans (by chain_rfl)

set_option backward.isDefEq.respectTransparency.types false in
/-- THE RUN. From any memory with every semaphore counter at zero, every weakly fair execution of @main on the
    TensorCores terminates, nothing faulting, and in every final state each unscoped buffer holds the last contents of
    the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = exit1 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exit1 m c b)
    (hfin := fun c s' => by
      iintro ⟨⟨Hh, -⟩, HSI⟩
      unfold StableHlo.held
      imodintro
      iapply (pointsTo_read_all (Pipeline.ucRefs τ sig) (fun b => (((c : Thread nD τ)).1, b)) (exit1 m c) s')
      isplitl [Hh] <;> iassumption)
    (hQ := fun s h c => h c)

/-- The run's post read at one unscoped buffer. -/
theorem run_at (b : Ref sig .tc) (hb : ¬ (Proc.devRef .tc b : DevRef τ sig).isScoped) {r : PUnit × MemSt nD τ sig (Elt F)}
    (h : ∀ c : Dev nD, ∀ b ∈ Pipeline.ucRefs τ sig, r.2.mem (((c : Thread nD τ)).1, b) = exit1 m c b) (c : Dev nD) :
    r.2.mem ((c.tc : Thread nD τ).loc b) = exit1 m c (Proc.devRef .tc b) :=
  h c _ (mem_uc b hb)

/-- A buffer no item writes holds its launch contents in every final state. -/
theorem kept (b : Ref sig .tc) (hb : ¬ (Proc.devRef .tc b : DevRef τ sig).isScoped) (h0 : b ∉ hostOps0_W) (h1 : b ∉ hostOps0_1_W)
    (h2 : b ∉ hostOps0_2_W) (h3 : b ∉ hostOps0_3_W) (h5 : b ∉ hostOps1_W) (h10 : b ≠ main_v10) (h15 : b ≠ main_v15)
    {r : PUnit × MemSt nD τ sig (Elt F)}
    (h : ∀ c : Dev nD, ∀ b ∈ Pipeline.ucRefs τ sig, r.2.mem (((c : Thread nD τ)).1, b) = exit1 m c b) (c : Dev nD) :
    r.2.mem ((c.tc : Thread nD τ).loc b) = m ((c.tc : Thread nD τ).loc b) :=
  (run_at m b hb h c).trans (exit1_launch m c b h0 h1 h2 h3 h5 h10 h15)

/-- The program runs to the end and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨kept m main_arg0 (by decide) (by decide) (by decide) (by decide) (by decide) (by decide) (by decide) (by decide) h c,
      kept m main_arg1 (by decide) (by decide) (by decide) (by decide) (by decide) (by decide) (by decide) (by decide) h c,
      kept m main_arg2 (by decide) (by decide) (by decide) (by decide) (by decide) (by decide) (by decide) (by decide) h c,
      kept m main_arg3 (by decide) (by decide) (by decide) (by decide) (by decide) (by decide) (by decide) (by decide) h c,
      kept m main_arg4 (by decide) (by decide) (by decide) (by decide) (by decide) (by decide) (by decide) (by decide) h c,
      kept m main_arg5 (by decide) (by decide) (by decide) (by decide) (by decide) (by decide) (by decide) (by decide) h c,
      kept m main_arg6 (by decide) (by decide) (by decide) (by decide) (by decide) (by decide) (by decide) (by decide) h c,
      kept m main_arg7 (by decide) (by decide) (by decide) (by decide) (by decide) (by decide) (by decide) (by decide) h c,
      kept m main_arg8 (by decide) (by decide) (by decide) (by decide) (by decide) (by decide) (by decide) (by decide) h c,
      kept m main_arg9 (by decide) (by decide) (by decide) (by decide) (by decide) (by decide) (by decide) (by decide) h c,
      kept m main_arg10 (by decide) (by decide) (by decide) (by decide) (by decide) (by decide) (by decide) (by decide) h c,
      kept m main_arg11 (by decide) (by decide) (by decide) (by decide) (by decide) (by decide) (by decide) (by decide) h c,
      kept m main_arg12 (by decide) (by decide) (by decide) (by decide) (by decide) (by decide) (by decide) (by decide) h c⟩) (run_all m ρ)

/-- The program runs to the end with the node update's result at the node region's folded output, the edge update's
    result at the edge region's folded output, and every argument array as launched. -/
theorem run_named : θ_run defs (onTc (τ := τ) (main (F := F))) ⟨m, fun _ => 0, ρ⟩ (fun r => ∀ c : Dev nD,
      r.2.mem ((c.tc : Thread nD τ).loc main_v15) = (dat1 (entry1 m) c).arrAt 8 cfg1.N
      ∧ r.2.mem ((c.tc : Thread nD τ).loc main_v10) = (dat0 (entry0 m) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(run_at m main_v15 (by decide) h c).trans (exit1_v15 m c),
      (run_at m main_v10 (by decide) h c).trans (exit1_v10 m c),
      kept m main_arg0 (by decide) (by decide) (by decide) (by decide) (by decide) (by decide) (by decide) (by decide) h c,
      kept m main_arg1 (by decide) (by decide) (by decide) (by decide) (by decide) (by decide) (by decide) (by decide) h c,
      kept m main_arg2 (by decide) (by decide) (by decide) (by decide) (by decide) (by decide) (by decide) (by decide) h c,
      kept m main_arg3 (by decide) (by decide) (by decide) (by decide) (by decide) (by decide) (by decide) (by decide) h c,
      kept m main_arg4 (by decide) (by decide) (by decide) (by decide) (by decide) (by decide) (by decide) (by decide) h c,
      kept m main_arg5 (by decide) (by decide) (by decide) (by decide) (by decide) (by decide) (by decide) (by decide) h c,
      kept m main_arg6 (by decide) (by decide) (by decide) (by decide) (by decide) (by decide) (by decide) (by decide) h c,
      kept m main_arg7 (by decide) (by decide) (by decide) (by decide) (by decide) (by decide) (by decide) (by decide) h c,
      kept m main_arg8 (by decide) (by decide) (by decide) (by decide) (by decide) (by decide) (by decide) (by decide) h c,
      kept m main_arg9 (by decide) (by decide) (by decide) (by decide) (by decide) (by decide) (by decide) (by decide) h c,
      kept m main_arg10 (by decide) (by decide) (by decide) (by decide) (by decide) (by decide) (by decide) (by decide) h c,
      kept m main_arg11 (by decide) (by decide) (by decide) (by decide) (by decide) (by decide) (by decide) (by decide) h c,
      kept m main_arg12 (by decide) (by decide) (by decide) (by decide) (by decide) (by decide) (by decide) (by decide) h c⟩) (run_all m ρ)

end Cert.Kernel.Hand

end
-- ==== Proof.KI.R0.lean ====
import proofs.«407642_j41936060678384_3_alg».proof.Proof.Gen.KernelIdeal.Launch
import proofs.«407642_j41936060678384_3_alg».proof.Proof.Gen.KernelIdeal.Skeleton
import proofs.«407642_j41936060678384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the edge MLP): the body's half of the frame, at any entry contents

The first pipelined call computes, for each block of 8192 edges,
`relu(x_em · W1em + x_src · W1src + x_dst · W1dst + b1) · W2 + b2`.
Its body reads nine staging buffers whole (three edge-row blocks and six parameter blocks) and writes the
output block whole, once. So what the body leaves in the output buffer is a closed function of the nine
blocks it finds, and what it finds in each input buffer is that window's block of its array at the point,
whether the pipeline fetched it at this point (the row blocks, every point) or only at the first (the
parameters, whose block index never moves).

Everything is stated at a parameter `V`: the TensorCore's buffer contents when the region is entered.
-/

-- membership in a rectangle of 8192 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input buffer

An input window's current staging buffer holds its block at every point, fetched there or not, for any proof
data whose array is the entry contents and whose body leaves the block in place: where the window is not
fetched its block index has not moved, so the block still in the buffer is this point's. The row-block windows
0, 1, 2 are fetched at every point; the parameter windows 3 to 8 at the first point only. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store go through the whole-buffer rectangle of the buffer's shape. -/

abbrev rRows : Rect S8192x64 := Rect.unit (s := S8192x64) ![0, 0] S8192x64.size inb_S8192x64_S8192x64_0_0
abbrev rMat : Rect S64x64 := Rect.unit (s := S64x64) ![0, 0] S64x64.size inb_S64x64_S64x64_0_0
abbrev rVec : Rect S1x64 := Rect.unit (s := S1x64) ![0, 0] S1x64.size inb_S1x64_S1x64_0_0

/-! ## What the body leaves in the output window's buffer -/

/-- The output staging buffer after the body, from the nine input blocks: its one store as a piece, the payload
    the edge MLP of the blocks as loaded. -/
def out0_9 (x0 x1 x2 : Vec F S8192x64 .bf16) (x3 x4 x5 : Vec F S64x64 .f32) (x6 : Vec F S1x64 .f32) (x7 : Vec F S64x64 .f32) (x8 : Vec F S1x64 .f32) : Vec F S8192x64 .f32 :=
  View.canon [⟨rRows, k0_pay1 (View.ld x0 rRows) (View.ld x1 rRows) (View.ld x2 rRows) (View.ld x3 rMat) (View.ld x4 rMat) (View.ld x5 rMat) (View.ld x6 rVec) (View.ld x7 rMat) (View.ld x8 rVec)⟩]

/-- The one store is the whole buffer, so it covers it. -/
theorem cover0_9 (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

/-! ## The body's triple -/

set_option maxHeartbeats 4000000 in
/-- The body on whole staging memrefs, the nine inputs' at read contents `x0 … x8` and the output's at anything,
    runs to the continuation holding the inputs' as they were and the output's at `out0_9` of them. The grid
    coordinate is not read. -/
theorem sound_kernel0 (c : Dev nD) (E : Set ℕ) (i : grid0.Coords)
    (arg0 : Memref sig .tc .vmem S8192x64 .bf16) (harg0 : arg0.IsWhole)
    (arg1 : Memref sig .tc .vmem S8192x64 .bf16) (harg1 : arg1.IsWhole)
    (arg2 : Memref sig .tc .vmem S8192x64 .bf16) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S64x64 .f32) (harg7 : arg7.IsWhole)
    (arg8 : Memref sig .tc .vmem S1x64 .f32) (harg8 : arg8.IsWhole)
    (arg9 : Memref sig .tc .vmem S8192x64 .f32) (harg9 : arg9.IsWhole)
    (x0 x1 x2 : Vec F S8192x64 .bf16) (x3 x4 x5 : Vec F S64x64 .f32) (x6 : Vec F S1x64 .f32) (x7 : Vec F S64x64 .f32) (x8 : Vec F S1x64 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__edge_mlp_kernel i arg0 harg0 arg1 harg1 arg2 harg2 arg3 harg3 arg4 harg4 arg5 harg5 arg6 harg6 arg7 harg7 arg8 harg8 arg9 harg9) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them; after the body at point
    `t` each input's buffer at its block and the output's at `out0_9` of the nine input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/- The node-update region (a 16 x 8 grid; the second coordinate k walks the 8 column blocks of the adjacency
   row block, and an accumulator of 512 x 64 sums adjacency-block times message-chunk over k): what its three
   whole-body runs share. Each window's block at a point, read off the array as the region finds it; the two
   branch conditions of the body (k = 0: the accumulator is reset; k = 7: the node update is computed and
   stored) in closed form over the grid; where the output window is idle and where it is written back; the
   staging memrefs and the accumulator's memref; the region invariant with the accumulator named. -/
import proofs.«407642_j41936060678384_3_alg».proof.Proof.Gen.KernelIdeal.Launch
import proofs.«407642_j41936060678384_3_alg».proof.Proof.Gen.KernelIdeal.Skeleton
import proofs.«407642_j41936060678384_3_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the node-update region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved), for any proof data whose array is the entry contents and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved), for any proof data whose array is the entry contents and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its
    block index has not moved), for any proof data whose array is the entry contents and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its
    block index has not moved), for any proof data whose array is the entry contents and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its
    block index has not moved), for any proof data whose array is the entry contents and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, its
    block index has not moved), for any proof data whose array is the entry contents and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, its
    block index has not moved), for any proof data whose array is the entry contents and whose body leaves the
    block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch's condition (the accumulator is reset), from the grid coordinates: k = 0. -/
abbrev cond1_0 (i : grid1.Coords) : Prop := (Scalar.cmpi .ne (Scalar.extui (Scalar.cmpi .eq (BitVec.ofNat 32 (i 1).val) 0#32)) 0#32) = 1#1
/-- It holds at the points ≡ 0 (mod 8), decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the node update is computed and stored), from the grid coordinates: k = 7. -/
abbrev cond1_1 (i : grid1.Coords) : Prop := k1_cond2 i = 1#1
/-- It holds at the points ≡ 7 (mod 8), decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Where k = 0 the output window is idle: nothing is stored into it. -/
theorem idleAt1_8_A : ∀ t : Fin cfg1.N, cond1_0 (grid1.coords t) → ¬cond1_1 (grid1.coords t) → cfg1.idle 8 (grid1.coords t) = true := by decide +kernel
/-- Where k = 0 the output block is not written back. -/
theorem noFlush1_8_A : ∀ t : Fin cfg1.N, cond1_0 (grid1.coords t) → ¬cond1_1 (grid1.coords t) → (cfg1.win 8).flush t = false := by decide +kernel
/-- Where 0 < k < 7 the output window is idle: nothing is stored into it. -/
theorem idleAt1_8_B : ∀ t : Fin cfg1.N, ¬cond1_0 (grid1.coords t) → ¬cond1_1 (grid1.coords t) → cfg1.idle 8 (grid1.coords t) = true := by decide +kernel
/-- Where 0 < k < 7 the output block is not written back. -/
theorem noFlush1_8_B : ∀ t : Fin cfg1.N, ¬cond1_0 (grid1.coords t) → ¬cond1_1 (grid1.coords t) → (cfg1.win 8).flush t = false := by decide +kernel
/-- Where k = 7 the output window is live: the node update is stored into it. -/
theorem liveAt1_8_C : ∀ t : Fin cfg1.N, ¬cond1_0 (grid1.coords t) → cond1_1 (grid1.coords t) → cfg1.idle 8 (grid1.coords t) = false := by decide +kernel

/-! ## The staging memrefs and the accumulator -/

/-- One staging buffer of the output window, through which its contents are stated (the choice does not matter). -/
abbrev VO1_8 : View sig .tc .vmem S512x64 .f32 := (Memref.whole cc1_stg8_0 : Memref sig .tc .vmem S512x64 .f32).view
/-- Window 0's current staging memref at point `t`, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
/-- Window 1's current staging memref at point `t`, and its wholeness. -/
abbrev ms1_1 (t : Fin cfg1.N) : Memref sig .tc .vmem S32768x64 .f32 := win1_1.stage (cfg1.slots t 1)
abbrev hs1_1 (t : Fin cfg1.N) : (ms1_1 t).IsWhole := hstage1_1 ((cfg1.slots t 1).cast nbuf1_1)
/-- Window 2's current staging memref at point `t`, and its wholeness. -/
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
/-- Window 3's current staging memref at point `t`, and its wholeness. -/
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
/-- Window 4's current staging memref at point `t`, and its wholeness. -/
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
/-- Window 5's current staging memref at point `t`, and its wholeness. -/
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
/-- Window 6's current staging memref at point `t`, and its wholeness. -/
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
/-- Window 7's current staging memref at point `t`, and its wholeness. -/
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
/-- Window 8's current staging memref at point `t`, and its wholeness. -/
abbrev ms1_8 (t : Fin cfg1.N) : Memref sig .tc .vmem S512x64 .f32 := win1_8.stage (cfg1.slots t 8)
abbrev hs1_8 (t : Fin cfg1.N) : (ms1_8 t).IsWhole := hstage1_8 ((cfg1.slots t 8).cast nbuf1_8)
/-- The accumulator: a whole scoped buffer of the kernel's own, passed beside the windows. -/
abbrev scM1_0 : Memref sig .tc .vmem S512x64 .f32 := Memref.whole cc1_scratch0
/-- The accumulator as a view: what it holds is stated through it. -/
abbrev VS1_0 : View sig .tc .vmem S512x64 .f32 := scM1_0.view

/-- The core's scoped buffers other than this region's staging buffers and the accumulator (the other region's
    staging buffers), each whole at some contents, conjoined in front of `X`. -/
def restBefore (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ X)

/-- What stands behind the other buffers may be weakened. -/
theorem restBefore_mono (c : Dev nD) {X Y : sProp 𝕄} (h : X ⊢ Y) : restBefore (F := F) c X ⊢ restBefore (F := F) c Y := by
  unfold restBefore
  iintro ⟨H0, H1, H2, H3, H4, H5, H6, H7, H8, H9, H10, H11, H12, H13, HX⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply h; iexact HX

/-- The region's entry invariant with the accumulator as a memref owned at some contents: what the body obligation
    hands the run and takes back. -/
theorem PhiA1_eq (c : Dev nD) :
    (Pipeline.ΦA spec1 c : sProp 𝕄)
      = iprop(restBefore (F := F) c iprop(∃ d, owns (c : Thread nD τ) scM1_0 fullShare d) ∗ (∃ r, prngReg c r)) := by
  unfold Pipeline.ΦA restBefore; rw [scopedRest1_eq]; simp only [scM1_0, owns_whole]; try rfl

end Cert.KernelIdeal.Hand

end
-- ==== Proof.KI.R1RunA.lean ====
/- The node-update kernel's whole body run where k = 0: the accumulator is reset to zero and takes the first adjacency block times message chunk; nothing else is written. -/
import proofs.«407642_j41936060678384_3_alg».proof.Proof.KI.R1Runs

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where k = 0 (the first branch taken, the second not). On whole staging memrefs — the inputs' at their
    contents, the output's at contents `xi8` handed back untouched (the window is idle here), the accumulator at
    anything — the body runs to the continuation holding the inputs' as they were and the accumulator with the pieces
    `LS0` written (last first): the reset to zero, then zero plus adjacency block times message chunk. The pieces are
    the witness the run finds. -/
noncomputable def kernelRun1_A (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) :
    Σ' (L8 : List (View.Piece (Elt F) S512x64 .f32)), { LS0 : List (View.Piece (Elt F) S512x64 .f32) //
      ∀ (xi8 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunB.lean ====
/- The node-update kernel's whole body run where 0 < k < 7: the accumulator takes one more adjacency block times message chunk; nothing else is written. -/
import proofs.«407642_j41936060678384_3_alg».proof.Proof.KI.R1RunA

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where 0 < k < 7 (neither branch taken). On whole staging memrefs — the inputs' at their contents, the
    output's at contents `xi8` handed back untouched (the window is idle here), the accumulator at what the point
    before left (`xs0`) — the body runs to the continuation holding the inputs' as they were and the accumulator with
    the pieces `LS0` written: the accumulator plus adjacency block times message chunk. The pieces are the witness
    the run finds. -/
noncomputable def kernelRun1_B (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    Σ' (L8 : List (View.Piece (Elt F) S512x64 .f32)), { LS0 : List (View.Piece (Elt F) S512x64 .f32) //
      ∀ (xi8 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunC.lean ====
/- The node-update kernel's whole body run where k = 7: the accumulator takes the last adjacency block times message chunk, and the node update of the row block, computed from the finished accumulator, is stored into the output window. -/
import proofs.«407642_j41936060678384_3_alg».proof.Proof.KI.R1RunB

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body where k = 7 (the second branch taken, the first not). On whole staging memrefs — the inputs' at their
    contents, the output's at anything, the accumulator at what the point before left (`xs0`) — the body runs to the
    continuation holding the inputs' as they were, the accumulator with the pieces `LS0` written (the accumulator
    plus adjacency block times message chunk) and the output's buffer with the pieces `L8` written (the node update
    of the row block, from the finished accumulator). The pieces are the witness the run finds. -/
noncomputable def kernelRun1_C (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    Σ' (L8 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__node_update_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__node_update_kernel_eq_skeleton]; unfold cc1__node_update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KI.R1.lean ====
/- The node-update region's frame half, at any entry contents V. What each of the three cases of a point (k = 0,
   0 < k < 7, k = 7) leaves in the accumulator and in the output window's staging buffer, read back from the pieces
   its run found; what they hold point by point along the grid (the accumulator restarts at every k = 0 and is
   carried through k = 1 .. 7; the output buffer is stored at k = 7 and idle elsewhere); the region invariant
   naming the accumulator's contents between points; the proof data of the pipeline; and the body obligation at
   every point, with the invariant's entry and exit. -/
import proofs.«407642_j41936060678384_3_alg».proof.Proof.KI.R1RunC

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the node-update region is entered
variable (V : (c : Dev nD) → (b : Ref sig .tc) → Buf (Elt F) ((c : Thread nD τ).loc b))

/-- The case where k = 0 stores nothing into the output window (idle there, and not written back): a placeholder
    nothing consults. -/
def out1_A_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) : Vec F S512x64 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- The pieces the case where k = 0 writes into the accumulator cover it (each is a whole-buffer store). -/
theorem scover1_A_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (y : S512x64.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S512x64.size (by sl_kernel_rfl) y

/-- What the case where k = 0 leaves in the accumulator: its pieces read back. -/
def sout1_A_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) : Vec F S512x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- The case where 0 < k < 7 stores nothing into the output window (idle there, and not written back): a placeholder
    nothing consults. -/
def out1_B_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The pieces the case where 0 < k < 7 writes into the accumulator cover it (each is a whole-buffer store). -/
theorem scover1_B_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S512x64.size (by sl_kernel_rfl) y

/-- What the case where 0 < k < 7 leaves in the accumulator: its pieces read back. -/
def sout1_B_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- The case where k = 7 stores the whole output block once: its piece covers the block. -/
theorem cover1_C_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S512x64.size (by sl_kernel_rfl) y

/-- What the case where k = 7 leaves in the output window's staging buffer: its pieces read back. -/
def out1_C_8 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The pieces the case where k = 7 writes into the accumulator cover it (each is a whole-buffer store). -/
theorem scover1_C_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) (y : S512x64.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S512x64.size (by sl_kernel_rfl) y

/-- What the case where k = 7 leaves in the accumulator: its pieces read back. -/
def sout1_C_0 (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) : Vec F S512x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output buffer and the accumulator hold after each point -/

/-- THE ACCUMULATION. What the output window's staging buffer and the accumulator hold after the body at position
    `n` (a pair): the case the closed forms select at `n`, run at the point's memrefs and input blocks, the
    accumulator taken at what position `n - 1` left (nothing touches it between points); at k = 0 it is reset, so
    nothing earlier is consulted. -/
def outsAt1 (c : Dev nD) : (n : ℕ) → n < cfg1.N → Vec F S512x64 .f32 × Vec F S512x64 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a point with k = 0: that case's contents. -/
theorem outsAt1_A (c : Dev nD) (t : Fin cfg1.N) (h0 : t.val % 8 = 0) (h1 : ¬t.val % 8 = 7) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at a point with 0 < k < 7: that case's contents, over what the point before left in the accumulator. -/
theorem outsAt1_B (c : Dev nD) (t : Fin cfg1.N) (h0 : ¬t.val % 8 = 0) (h1 : ¬t.val % 8 = 7) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: that case's contents, over what the point before left in the accumulator. -/
theorem outsAt1_C (c : Dev nD) (t : Fin cfg1.N) (h0 : ¬t.val % 8 = 0) (h1 : t.val % 8 = 7) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the other scoped buffers as they were, the accumulator at what the point before left in it,
    and the generator register at some state. -/
def PhiS1 (c : Dev nD) : (n : ℕ) → n ≤ cfg1.N → sProp 𝕄
  | 0, _ => Pipeline.ΦA spec1 c
  | n + 1, hn => iprop(restBefore (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(restBefore (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(restBefore (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the node-update pipeline on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the closed forms say which case the point is in;
    the invariant hands the body the accumulator at what the point before left (at anything at the first point),
    the other scoped buffers and the generator register, and takes the accumulator back at this point's contents
    (its pieces cover it); where the output window is idle its buffer goes through untouched, where k = 7 it comes
    back at the stored node update; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold restBefore
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine Idealize.SL.BI.sep_mono (restBefore_mono c ?_) (Idealize.SL.BI.Entails.refl _)
  iintro H; iexists _; iexact H

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  The whole program's run, with every buffer's final contents named.

  @main is seven items in a row: four stretches of host operations (the two endpoint gathers with their in-bounds
  selects, the format changes, the weight blocks and bias rows of the edge update), the edge kernel's region, one more
  stretch (the node update's weight blocks and bias rows), the node kernel's region. Between two items a core holds
  every unscoped buffer at contents that are a function of the launch memory: a stretch applies its operations; a
  region leaves each of its arrays at what its write-backs fold to, and every other buffer as it found it. The node
  region is entered at contents that already hold the edge region's output, so its proof data are stated over them.
  Composing the items gives: every weakly fair execution ends, and the final memory holds each unscoped buffer at the
  last contents of this chain. Read at the two results these are the two regions' folded outputs; read at an argument
  they are the launch contents, because no stretch writes an argument and a region only reads one.
-/
import proofs.«407642_j41936060678384_3_alg».proof.Proof.KI.R0
import proofs.«407642_j41936060678384_3_alg».proof.Proof.KI.R1
import proofs.«407642_j41936060678384_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
/-- The node region's proof data hold every array at the full share and owe nothing. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
end

variable (m : (ℓ : Loc nD τ sig) → Buf (Elt F) ℓ) (ρ : Dev nD → PrngReg)

/-! ## The contents at the two regions' boundaries -/

/-- What the edge region is entered with: the launch memory after the four leading stretches. -/
abbrev entry0 : (c : Dev nD) → (b : Ref sig .tc) → Buf (Elt F) ((c : Thread nD τ).loc b) := fun c b => Gen.V4 m c b

/-- After the edge region: its arrays at what the write-backs fold to, every other buffer as before. -/
def exit0 (c : Dev nD) : Valuation τ sig (Elt F) :=
  Pipeline.withArrays spec0 c (Gen.V4 m c) fun w => (dat0 (entry0 m) c).arrAt w cfg0.N

theorem exit0_arr (c : Dev nD) (w : Fin cfg0.W) :
    exit0 m c (Proc.devRef .tc (Pipeline.arrRef spec0 w)) = (dat0 (entry0 m) c).arrAt w cfg0.N := by
  unfold exit0; exact Pipeline.withArrays_arr spec0 launch0.win.arr_inj c _ _ w

theorem exit0_of_ne (c : Dev nD) (b : Ref sig .tc) (hb : ∀ w, Pipeline.arrRef spec0 w ≠ b) :
    exit0 m c (Proc.devRef .tc b) = Gen.V4 m c (Proc.devRef .tc b) := by
  unfold exit0; exact Pipeline.withArrays_of_ne spec0 c _ _ b hb

/-- The same contents read at the TensorCore's references. -/
abbrev exit0R : (c : Dev nD) → (b : Ref sig .tc) → Buf (Elt F) ((c : Thread nD τ).loc b) := fun c b => exit0 m c b

/-- A window of the edge region other than its output is an input: its array is never written back. -/
theorem isIn0 : ∀ w : Fin cfg0.W, Pipeline.arrRef spec0 w ≠ main_v10 → (cfg0.win w).isOut = false := by decide

/-- Every buffer but the edge region's result leaves that region as it entered it. -/
theorem exit0_keep (c : Dev nD) (b : Ref sig .tc) (hb : b ≠ main_v10) :
    exit0 m c (Proc.devRef .tc b) = Gen.V4 m c (Proc.devRef .tc b) := by
  by_cases h : ∃ w, Pipeline.arrRef spec0 w = b
  · obtain ⟨w, rfl⟩ := h
    rw [exit0_arr]
    exact ((dat0 (entry0 m) c).arrAt_in w (isIn0 w hb) _).trans (A_eq0 (entry0 m) c w)
  · exact exit0_of_ne m c b fun w e => h ⟨w, e⟩

theorem hF0 (c : Dev nD) (w : Fin cfg0.W) : (dat0 (entry0 m) c).arrAt w cfg0.N = exit0R m c (Pipeline.arrRef spec0 w) :=
  (exit0_arr m c w).symm
theorem hrest0 (c : Dev nD) : ∀ b, b ∉ Finset.univ.image (Pipeline.arrRef spec0) → exit0R m c b = entry0 m c b :=
  fun b hb => exit0_of_ne m c b fun w e => hb (Finset.mem_image.mpr ⟨w, Finset.mem_univ _, e⟩)

/-- What the node region is entered with: the edge region's exit contents after the last stretch. -/
abbrev mid : Dev nD → Valuation τ sig (Elt F) := fun c => StableHlo.after hostOps1 (exit0 m c)
abbrev entry1 : (c : Dev nD) → (b : Ref sig .tc) → Buf (Elt F) ((c : Thread nD τ).loc b) := fun c b => mid m c b

/-- After the node region: its arrays at what the write-backs fold to, every other buffer as before. -/
def exit1 (c : Dev nD) : Valuation τ sig (Elt F) :=
  Pipeline.withArrays spec1 c (mid m c) fun w => (dat1 (entry1 m) c).arrAt w cfg1.N

theorem exit1_arr (c : Dev nD) (w : Fin cfg1.W) :
    exit1 m c (Proc.devRef .tc (Pipeline.arrRef spec1 w)) = (dat1 (entry1 m) c).arrAt w cfg1.N := by
  unfold exit1; exact Pipeline.withArrays_arr spec1 launch1.win.arr_inj c _ _ w

theorem exit1_of_ne (c : Dev nD) (b : Ref sig .tc) (hb : ∀ w, Pipeline.arrRef spec1 w ≠ b) :
    exit1 m c (Proc.devRef .tc b) = mid m c (Proc.devRef .tc b) := by
  unfold exit1; exact Pipeline.withArrays_of_ne spec1 c _ _ b hb

abbrev exit1R : (c : Dev nD) → (b : Ref sig .tc) → Buf (Elt F) ((c : Thread nD τ).loc b) := fun c b => exit1 m c b

theorem isIn1 : ∀ w : Fin cfg1.W, Pipeline.arrRef spec1 w ≠ main_v15 → (cfg1.win w).isOut = false := by decide

/-- Every buffer but the node region's result leaves that region as it entered it. -/
theorem exit1_keep (c : Dev nD) (b : Ref sig .tc) (hb : b ≠ main_v15) :
    exit1 m c (Proc.devRef .tc b) = mid m c (Proc.devRef .tc b) := by
  by_cases h : ∃ w, Pipeline.arrRef spec1 w = b
  · obtain ⟨w, rfl⟩ := h
    rw [exit1_arr]
    exact ((dat1 (entry1 m) c).arrAt_in w (isIn1 w hb) _).trans (A_eq1 (entry1 m) c w)
  · exact exit1_of_ne m c b fun w e => h ⟨w, e⟩

theorem hF1 (c : Dev nD) (w : Fin cfg1.W) : (dat1 (entry1 m) c).arrAt w cfg1.N = exit1R m c (Pipeline.arrRef spec1 w) :=
  (exit1_arr m c w).symm
theorem hrest1 (c : Dev nD) : ∀ b, b ∉ Finset.univ.image (Pipeline.arrRef spec1) → exit1R m c b = entry1 m c b :=
  fun b hb => exit1_of_ne m c b fun w e => hb (Finset.mem_image.mpr ⟨w, Finset.mem_univ _, e⟩)

/-! ## What the final contents are, buffer by buffer -/

/-- The node update's result buffer ends at the node region's folded output. -/
theorem exit1_v15 (c : Dev nD) : exit1 m c (Proc.devRef .tc main_v15) = (dat1 (entry1 m) c).arrAt 8 cfg1.N :=
  exit1_arr m c 8

/-- The last stretch writes only the node update's weight blocks and bias rows. -/
theorem mid_keep (c : Dev nD) (b : Ref sig .tc) (hb : b ∉ hostOps1_W) :
    mid m c (Proc.devRef .tc b) = exit0 m c (Proc.devRef .tc b) :=
  StableHlo.after_of_writes_sub hostOps1 _ hostOps1_writes hb

/-- The edge update's result buffer ends at the edge region's folded output: the last stretch does not write it and
    the node region only reads it. -/
theorem exit1_v10 (c : Dev nD) : exit1 m c (Proc.devRef .tc main_v10) = (dat0 (entry0 m) c).arrAt 9 cfg0.N :=
  (exit1_keep m c main_v10 (by decide)).trans <| (mid_keep m c main_v10 (by decide)).trans (exit0_arr m c 9)

/-- The node region finds the edge region's folded output in the edge result buffer. -/
theorem entry1_v10 (c : Dev nD) : entry1 m c main_v10 = (dat0 (entry0 m) c).arrAt 9 cfg0.N :=
  (mid_keep m c main_v10 (by decide)).trans (exit0_arr m c 9)

/-- A buffer no item writes ends as launched. -/
theorem exit1_launch (c : Dev nD) (b : Ref sig .tc) (h0 : b ∉ hostOps0_W) (h1 : b ∉ hostOps0_1_W) (h2 : b ∉ hostOps0_2_W)
    (h3 : b ∉ hostOps0_3_W) (h5 : b ∉ hostOps1_W) (h10 : b ≠ main_v10) (h15 : b ≠ main_v15) :
    exit1 m c (Proc.devRef .tc b) = m ((c : Thread nD τ).loc b) :=
  (exit1_keep m c b h15).trans <| (mid_keep m c b h5).trans <| (exit0_keep m c b h10).trans <|
    (Gen.V4_of m c b h3).trans <| (Gen.V3_of m c b h2).trans <| (Gen.V2_of m c b h1).trans <| (Gen.V1_of m c b h0).trans rfl

/-- A buffer the leading stretches may write but nothing after them: the node region finds it as the edge region did. -/
theorem entry1_of_entry0 (c : Dev nD) (b : Ref sig .tc) (h5 : b ∉ hostOps1_W) (h10 : b ≠ main_v10) :
    entry1 m c b = entry0 m c b :=
  (mid_keep m c b h5).trans (exit0_keep m c b h10)

/-- A buffer no item before the node region writes is, when the edge region is left, as launched. -/
theorem exit0_launch (c : Dev nD) (b : Ref sig .tc) (h0 : b ∉ hostOps0_W) (h1 : b ∉ hostOps0_1_W) (h2 : b ∉ hostOps0_2_W)
    (h3 : b ∉ hostOps0_3_W) (h10 : b ≠ main_v10) :
    exit0 m c (Proc.devRef .tc b) = m ((c : Thread nD τ).loc b) :=
  (exit0_keep m c b h10).trans <|
    (Gen.V4_of m c b h3).trans <| (Gen.V3_of m c b h2).trans <| (Gen.V2_of m c b h1).trans <| (Gen.V1_of m c b h0).trans rfl

/-- A buffer no item before the node region writes is, when that region is entered, as launched. -/
theorem entry1_launch (c : Dev nD) (b : Ref sig .tc) (h0 : b ∉ hostOps0_W) (h1 : b ∉ hostOps0_1_W) (h2 : b ∉ hostOps0_2_W)
    (h3 : b ∉ hostOps0_3_W) (h5 : b ∉ hostOps1_W) (h10 : b ≠ main_v10) :
    entry1 m c b = m ((c : Thread nD τ).loc b) :=
  (mid_keep m c b h5).trans (exit0_launch m c b h0 h1 h2 h3 h10)

/-! ## The proof data family and the thread state -/

abbrev adm' : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and the core owing
    nothing. -/
abbrev R (c : Dev nD) : sProp 𝕄 := iprop((∃ r, prngReg c r) ∗ ∃ W, owes (c : Thread nD τ) (0 : CellTallies nD τ sig Unit) W)

/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register at
    some state. -/
abbrev Tₙ (c : Dev nD) : sProp 𝕄 := iprop(StableHlo.held (c : Thread nD τ) (Pipeline.ucRefs τ sig) (exit1 m c) ∗ ∃ r, prngReg c r)

/-! ## The regions as items -/

set_option backward.isDefEq.respectTransparency.types false in
/-- The edge region: entered from every unscoped buffer at the contents after the leading stretches, left at `exit0`.
    Its arrays are split out of the unscoped buffers and put back at the exit contents; the generator register goes
    into the region's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (entry0 m c) (exit0R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region: entered from every unscoped buffer at `mid`, left at the final contents. As the edge region,
    except that its invariant carries the accumulator between grid points: what the entry hands it is the invariant
    before the first point, and after the last point the invariant gives the same back. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun c t => owed_eq1 (entry1 m) c t
  pre c := iprop(StableHlo.held (c : Thread nD τ) (Pipeline.ucRefs τ sig) (mid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm' (pdats m) launch1.win launch1.arr_whole c
      ((pdats m 1 c).share_full fun w => q_eq1 (entry1 m) c w) (entry1 m c) fun w => A_eq1 (entry1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q_eq1 (entry1 m) c w)
      (entry1 m c) (exit1R m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's seven items in order. -/
abbrev segs : List (Pipeline.Seg (pcfgs (F := F)) adm' (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .region (reg0 m),
    .host (hseg hostOps1 hostOps1_sub hostOps1_fresh (exit0 m)),
    .region (reg1 m) ]

/-- @main is the run of the items. -/
theorem main_run (c : Dev nD) : main (F := F) c = Pipeline.Seg.run (segs m) := (main_chain c).trans (by chain_rfl)

set_option backward.isDefEq.respectTransparency.types false in
/-- THE RUN. From any memory with every semaphore counter at zero, every weakly fair execution of @main on the
    TensorCores terminates, nothing faulting, and in every final state each unscoped buffer holds the last contents of
    the chain above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = exit1 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exit1 m c b)
    (hfin := fun c s' => by
      iintro ⟨⟨Hh, -⟩, HSI⟩
      unfold StableHlo.held
      imodintro
      iapply (pointsTo_read_all (Pipeline.ucRefs τ sig) (fun b => (((c : Thread nD τ)).1, b)) (exit1 m c) s')
      isplitl [Hh] <;> iassumption)
    (hQ := fun s h c => h c)

/-- The run's post read at one unscoped buffer. -/
theorem run_at (b : Ref sig .tc) (hb : ¬ (Proc.devRef .tc b : DevRef τ sig).isScoped) {r : PUnit × MemSt nD τ sig (Elt F)}
    (h : ∀ c : Dev nD, ∀ b ∈ Pipeline.ucRefs τ sig, r.2.mem (((c : Thread nD τ)).1, b) = exit1 m c b) (c : Dev nD) :
    r.2.mem ((c.tc : Thread nD τ).loc b) = exit1 m c (Proc.devRef .tc b) :=
  h c _ (mem_uc b hb)

/-- A buffer no item writes holds its launch contents in every final state. -/
theorem kept (b : Ref sig .tc) (hb : ¬ (Proc.devRef .tc b : DevRef τ sig).isScoped) (h0 : b ∉ hostOps0_W) (h1 : b ∉ hostOps0_1_W)
    (h2 : b ∉ hostOps0_2_W) (h3 : b ∉ hostOps0_3_W) (h5 : b ∉ hostOps1_W) (h10 : b ≠ main_v10) (h15 : b ≠ main_v15)
    {r : PUnit × MemSt nD τ sig (Elt F)}
    (h : ∀ c : Dev nD, ∀ b ∈ Pipeline.ucRefs τ sig, r.2.mem (((c : Thread nD τ)).1, b) = exit1 m c b) (c : Dev nD) :
    r.2.mem ((c.tc : Thread nD τ).loc b) = m ((c.tc : Thread nD τ).loc b) :=
  (run_at m b hb h c).trans (exit1_launch m c b h0 h1 h2 h3 h5 h10 h15)

/-- The program runs to the end and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨kept m main_arg0 (by decide) (by decide) (by decide) (by decide) (by decide) (by decide) (by decide) (by decide) h c,
      kept m main_arg1 (by decide) (by decide) (by decide) (by decide) (by decide) (by decide) (by decide) (by decide) h c,
      kept m main_arg2 (by decide) (by decide) (by decide) (by decide) (by decide) (by decide) (by decide) (by decide) h c,
      kept m main_arg3 (by decide) (by decide) (by decide) (by decide) (by decide) (by decide) (by decide) (by decide) h c,
      kept m main_arg4 (by decide) (by decide) (by decide) (by decide) (by decide) (by decide) (by decide) (by decide) h c,
      kept m main_arg5 (by decide) (by decide) (by decide) (by decide) (by decide) (by decide) (by decide) (by decide) h c,
      kept m main_arg6 (by decide) (by decide) (by decide) (by decide) (by decide) (by decide) (by decide) (by decide) h c,
      kept m main_arg7 (by decide) (by decide) (by decide) (by decide) (by decide) (by decide) (by decide) (by decide) h c,
      kept m main_arg8 (by decide) (by decide) (by decide) (by decide) (by decide) (by decide) (by decide) (by decide) h c,
      kept m main_arg9 (by decide) (by decide) (by decide) (by decide) (by decide) (by decide) (by decide) (by decide) h c,
      kept m main_arg10 (by decide) (by decide) (by decide) (by decide) (by decide) (by decide) (by decide) (by decide) h c,
      kept m main_arg11 (by decide) (by decide) (by decide) (by decide) (by decide) (by decide) (by decide) (by decide) h c,
      kept m main_arg12 (by decide) (by decide) (by decide) (by decide) (by decide) (by decide) (by decide) (by decide) h c⟩) (run_all m ρ)

/-- The program runs to the end with the node update's result at the node region's folded output, the edge update's
    result at the edge region's folded output, and every argument array as launched. -/
theorem run_named : θ_run defs (onTc (τ := τ) (main (F := F))) ⟨m, fun _ => 0, ρ⟩ (fun r => ∀ c : Dev nD,
      r.2.mem ((c.tc : Thread nD τ).loc main_v15) = (dat1 (entry1 m) c).arrAt 8 cfg1.N
      ∧ r.2.mem ((c.tc : Thread nD τ).loc main_v10) = (dat0 (entry0 m) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(run_at m main_v15 (by decide) h c).trans (exit1_v15 m c),
      (run_at m main_v10 (by decide) h c).trans (exit1_v10 m c),
      kept m main_arg0 (by decide) (by decide) (by decide) (by decide) (by decide) (by decide) (by decide) (by decide) h c,
      kept m main_arg1 (by decide) (by decide) (by decide) (by decide) (by decide) (by decide) (by decide) (by decide) h c,
      kept m main_arg2 (by decide) (by decide) (by decide) (by decide) (by decide) (by decide) (by decide) (by decide) h c,
      kept m main_arg3 (by decide) (by decide) (by decide) (by decide) (by decide) (by decide) (by decide) (by decide) h c,
      kept m main_arg4 (by decide) (by decide) (by decide) (by decide) (by decide) (by decide) (by decide) (by decide) h c,
      kept m main_arg5 (by decide) (by decide) (by decide) (by decide) (by decide) (by decide) (by decide) (by decide) h c,
      kept m main_arg6 (by decide) (by decide) (by decide) (by decide) (by decide) (by decide) (by decide) (by decide) h c,
      kept m main_arg7 (by decide) (by decide) (by decide) (by decide) (by decide) (by decide) (by decide) (by decide) h c,
      kept m main_arg8 (by decide) (by decide) (by decide) (by decide) (by decide) (by decide) (by decide) (by decide) h c,
      kept m main_arg9 (by decide) (by decide) (by decide) (by decide) (by decide) (by decide) (by decide) (by decide) h c,
      kept m main_arg10 (by decide) (by decide) (by decide) (by decide) (by decide) (by decide) (by decide) (by decide) h c,
      kept m main_arg11 (by decide) (by decide) (by decide) (by decide) (by decide) (by decide) (by decide) (by decide) h c,
      kept m main_arg12 (by decide) (by decide) (by decide) (by decide) (by decide) (by decide) (by decide) (by decide) h c⟩) (run_all m ρ)

end Cert.KernelIdeal.Hand

end
-- ==== Proof.Spec.lean ====
/-
  The mathematics of one message-passing step, as functions on extended-real arrays.

  Edge update. For an edge `e` with features `xe e`, source-node features `xs e` and destination-node
  features `xd e`, the hidden layer is
      h e k = ((∑ a, xe e a · wa a k) + (∑ a, xs e a · wb a k)) + (∑ a, xd e a · wc a k) + b1 k
  and the new edge feature is  (∑ k, max (h e k) 0 · w2 k j) + b2 j.

  Node update. With `s n a = ∑ e, adj n e · em e a` the aggregated messages of node `n`, the hidden layer is
      g n k = ((∑ a, vm n a · wt a k) + (∑ a, s n a · wb a k)) + b1 k
  and the new node feature is  (∑ k, max (g n k) 0 · w2 k j) + b2 j.

  Every sum is a finite sum in the extended reals, where addition is commutative and associative, so the
  grouping above is a choice of spelling and not of value.
-/
import Idealize.ShloMosaic.PureOps.Ideal
import Idealize.ShloMosaic.Lib.ValueIdx

noncomputable section

namespace Cert.Spec

open Idealize.ShloMosaic Idealize.ShloMosaic.ValueIdx

/-- edges × features -/
abbrev SE : Shape := ⟨2, ![32768, 64]⟩
/-- nodes × features -/
abbrev SN : Shape := ⟨2, ![8192, 64]⟩
/-- nodes × edges -/
abbrev SA : Shape := ⟨2, ![8192, 32768]⟩
/-- a square weight matrix -/
abbrev SW : Shape := ⟨2, ![64, 64]⟩
/-- a bias row -/
abbrev SB : Shape := ⟨2, ![1, 64]⟩

/-- the edge update's first weight matrix: three stacked square blocks -/
abbrev SW3 : Shape := ⟨2, ![192, 64]⟩
/-- the node update's first weight matrix: two stacked square blocks -/
abbrev SW2 : Shape := ⟨2, ![128, 64]⟩
/-- a bias vector -/
abbrev SV : Shape := ⟨1, ![64]⟩

/-- Block `o` (of three) of a 192-row matrix: rows `64·o … 64·o + 63`. -/
def rows3 (o : Fin 3) (w : SW3.Idx → EReal) : SW.Idx → EReal := fun i =>
  let a : Fin 64 := i 0
  let k : Fin 64 := i 1
  w (ix2 (⟨64 * o.val + a.val, by omega⟩ : Fin 192) k)

/-- Block `o` (of two) of a 128-row matrix: rows `64·o … 64·o + 63`. -/
def rows2 (o : Fin 2) (w : SW2.Idx → EReal) : SW.Idx → EReal := fun i =>
  let a : Fin 64 := i 0
  let k : Fin 64 := i 1
  w (ix2 (⟨64 * o.val + a.val, by omega⟩ : Fin 128) k)

/-- A bias vector as a one-row matrix. -/
def biasRow (b : SV.Idx → EReal) : SB.Idx → EReal := fun i =>
  let k : Fin 64 := i 1
  b (ix1 k)

/-- The hidden layer of the edge update before its rectifier, at edge `e` and hidden unit `k`. -/
def edgeHidden (xe xs xd : SE.Idx → EReal) (wa wb wc : SW.Idx → EReal) (b1 : SB.Idx → EReal)
    (e : Fin 32768) (k : Fin 64) : EReal :=
  (((∑ a : Fin 64, xe (ix2 e a) * wa (ix2 a k)) + (∑ a : Fin 64, xs (ix2 e a) * wb (ix2 a k)))
      + (∑ a : Fin 64, xd (ix2 e a) * wc (ix2 a k))) + b1 (ix2 (0 : Fin 1) k)

/-- The edge update: a rectified hidden layer followed by a linear layer. -/
def edgeMlp (xe xs xd : SE.Idx → EReal) (wa wb wc : SW.Idx → EReal) (b1 : SB.Idx → EReal)
    (w2 : SW.Idx → EReal) (b2 : SB.Idx → EReal) : SE.Idx → EReal := fun i =>
  (∑ k : Fin 64, max (edgeHidden xe xs xd wa wb wc b1 (i 0) k) 0 * w2 (ix2 k (i 1))) + b2 (ix2 (0 : Fin 1) (i 1))

/-- The messages a node receives: the adjacency row against the edge features. -/
def aggregate (adj : SA.Idx → EReal) (em : SE.Idx → EReal) (n : Fin 8192) (a : Fin 64) : EReal :=
  ∑ e : Fin 32768, adj (ix2 n e) * em (ix2 e a)

/-- The hidden layer of the node update before its rectifier, from the node's own features `vm` and the
    aggregated messages `s`. -/
def nodeHidden (vm s : SN.Idx → EReal) (wt wb : SW.Idx → EReal) (b1 : SB.Idx → EReal)
    (n : Fin 8192) (k : Fin 64) : EReal :=
  ((∑ a : Fin 64, vm (ix2 n a) * wt (ix2 a k)) + (∑ a : Fin 64, s (ix2 n a) * wb (ix2 a k))) + b1 (ix2 (0 : Fin 1) k)

/-- The node update from already aggregated messages `s`. -/
def nodeMlpOf (vm s : SN.Idx → EReal) (wt wb : SW.Idx → EReal) (b1 : SB.Idx → EReal)
    (w2 : SW.Idx → EReal) (b2 : SB.Idx → EReal) : SN.Idx → EReal := fun i =>
  (∑ k : Fin 64, max (nodeHidden vm s wt wb b1 (i 0) k) 0 * w2 (ix2 k (i 1))) + b2 (ix2 (0 : Fin 1) (i 1))

/-- The node update: aggregate the edge features along the adjacency, then the two-layer map. -/
def nodeMlp (adj : SA.Idx → EReal) (em : SE.Idx → EReal) (vm : SN.Idx → EReal) (wt wb : SW.Idx → EReal)
    (b1 : SB.Idx → EReal) (w2 : SW.Idx → EReal) (b2 : SB.Idx → EReal) : SN.Idx → EReal :=
  nodeMlpOf vm (fun i => aggregate adj em (i 0) (i 1)) wt wb b1 w2 b2

end Cert.Spec

end
-- ==== Proof.KI.R0Value.lean ====
import proofs.«407642_j41936060678384_3_alg».proof.Proof.KI.R0
import proofs.«407642_j41936060678384_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 0 (the edge update): the value of its output array

At the extended reals the body's payload, read at row `p` and column `q` of its block, is
`(∑ k, max (h p k) 0 · w2 k q) + b2 q` with
`h p k = ((∑ a, xe p a · wa a k) + (∑ a, xs p a · wb a k)) + (∑ a, xd p a · wc a k) + b1 k`:
four contractions over one axis of 64, each a plain finite sum, two one-row broadcasts, a rectifier; a change
of float format is the identity there. Point `t` of the grid of four reads rows `8192·t … 8192·t + 8191` of the
three edge-row arrays and the six parameter arrays whole, and writes back the same rows of the output. The four
row blocks tile the 32768 rows, so the output array ends holding the edge update of the arrays the region was
entered with.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window cellOf)

/-! ## One contraction of the payload, as a sum over the contracted axis -/

/-- The row-by-matrix contraction's left operand is read at the output's row … -/
theorem lhs_edge_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- … and the contracted coordinate; -/
theorem lhs_edge_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
/-- the right operand at the contracted coordinate … -/
theorem rhs_edge_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
/-- … and the output's column. -/
theorem rhs_edge_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A row block times a square matrix, accumulated into zero, read at row `p` and column `q`: the sum over the
    contracted axis of the products. -/
theorem edge_matmul_apply {φ₁ φ₂ : FTy} (x : FVec Ideal S8192x64 φ₁) (w : FVec Ideal S64x64 φ₂) (p : Fin 8192) (q : Fin 64) :
    matmul dot_S8192x64_S64x64_S8192x64_1_0_0_1_n_n none x w (constant (F := Ideal) S8192x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p q) ((ValueIdx.contrEquiv1 dot_S8192x64_S64x64_S8192x64_1_0_0_1_n_n 64 rfl rfl).symm k) = ix2 p k := funext fun a => Fin.ext (by
    match a with
    | ⟨0, _⟩ => exact lhs_edge_0 _ _
    | ⟨1, _⟩ => exact (lhs_edge_1 _ _).trans hk)
  have er : dot_S8192x64_S64x64_S8192x64_1_0_0_1_n_n.rhsIdx (ix2 p q) ((ValueIdx.contrEquiv1 dot_S8192x64_S64x64_S8192x64_1_0_0_1_n_n 64 rfl rfl).symm k) = ix2 k q := funext fun a => Fin.ext (by
    match a with
    | ⟨0, _⟩ => exact (rhs_edge_0 _ _).trans hk
    | ⟨1, _⟩ => exact rhs_edge_1 _ _)
  rw [el, er]

/-! ## The payload at an index -/

/-- The body's payload read at row `p` and column `q` of the block: the rectified hidden layer of the three row
    blocks against the three first-layer matrices and the first bias row, against the second matrix, plus the
    second bias row. -/
theorem edge_payload_apply (x0 x1 x2 : Vec Ideal S8192x64 .bf16) (x3 x4 x5 : Vec Ideal S64x64 .f32) (x6 : Vec Ideal S1x64 .f32)
    (x7 : Vec Ideal S64x64 .f32) (x8 : Vec Ideal S1x64 .f32) (p : Fin 8192) (q : Fin 64) :
    k0_pay1 (F := Ideal) x0 x1 x2 x3 x4 x5 x6 x7 x8 (ix2 p q)
      = (∑ k : Fin 64, max ((((∑ a : Fin 64, x0 (ix2 p a) * x3 (ix2 a k)) + (∑ a : Fin 64, x1 (ix2 p a) * x4 (ix2 a k)))
            + (∑ a : Fin 64, x2 (ix2 p a) * x5 (ix2 a k))) + x6 (ix2 (0 : Fin 1) k)) 0 * x7 (ix2 k q)) + x8 (ix2 (0 : Fin 1) q) := by
  have hz : (FloatOps.ofBits (F := Ideal) .f32 0x00000000#32 : EReal) = 0 := Ideal.ofBits_zero_f32
  unfold k0_pay1
  simp only [shapeCast_self, addf_apply, edge_matmul_apply, truncf_apply, maximumf_apply, broadcast_apply, broadcastTo_1b_ab_apply, Scalar.ofBits, hz, Ideal.ofBits_zero_f32]

/-! ## The specification at an index -/

/-- The edge update read at edge `e` and feature `q`. -/
theorem edgeMlp_apply (xe xs xd : Spec.SE.Idx → EReal) (wa wb wc : Spec.SW.Idx → EReal) (b1 : Spec.SB.Idx → EReal)
    (w2 : Spec.SW.Idx → EReal) (b2 : Spec.SB.Idx → EReal) (e : Fin 32768) (q : Fin 64) :
    Spec.edgeMlp xe xs xd wa wb wc b1 w2 b2 (ix2 e q)
      = (∑ k : Fin 64, max ((((∑ a : Fin 64, xe (ix2 e a) * wa (ix2 a k)) + (∑ a : Fin 64, xs (ix2 e a) * wb (ix2 a k)))
            + (∑ a : Fin 64, xd (ix2 e a) * wc (ix2 a k))) + b1 (ix2 (0 : Fin 1) k)) 0 * w2 (ix2 k q)) + b2 (ix2 (0 : Fin 1) q) := rfl

/-! ## Where each window's block sits in its array -/

theorem zero_offsets : (![0, 0] : Fin 2 → Nat) = fun _ => 0 :=
  funext fun a => by match a with | ⟨0, _⟩ => rfl | ⟨1, _⟩ => rfl

/-- The index maps over the grid of four: the three row windows and the output window are at row block `t`,
    column block 0; the six parameter windows stay at block (0, 0). -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of point `t`'s block is row `8192·t + p` of the array. -/
def erow (t : Fin cfg0.N) (p : Fin 8192) : Fin 32768 :=
  ⟨8192 * t.val + p.val, by
    have ht : t.val < 4 := lt_of_lt_of_eq t.isLt N_0
    have hp := p.isLt
    omega⟩

section Region0Value
-- the TensorCore's buffer contents when the region is entered
variable (V : (c : Dev nD) → (b : Ref sig .tc) → Buf (Elt Ideal) ((c : Thread nD τ).loc b))

/-- The edge-feature block at point `t` is rows `8192·t …` of the edge features. -/
theorem iblk0_0_apply (c : Dev nD) (t : Fin cfg0.N) (p : Fin 8192) (a : Fin 64) :
    (iblk0 V c 0 t : Vec Ideal S8192x64 .bf16) (ix2 p a) = (V c main_v4 : S32768x64.Idx → EReal) (ix2 (erow t p) a) := by
  obtain ⟨e00, e01, e10, e11, e20, e21, -⟩ := idx_facts0 t
  show V c main_v4 (((cfg0.win 0).blk t).view.emb (ix2 p a)) = V c main_v4 (ix2 (erow t p) a)
  refine congrArg (V c main_v4) (funext fun ax => Fin.ext ?_)
  match ax with
  | ⟨0, _⟩ => show win0_0.index t (0 : Fin 2) * 8192 + 1 * p.val = 8192 * t.val + p.val; omega
  | ⟨1, _⟩ => show win0_0.index t (1 : Fin 2) * 64 + 1 * a.val = a.val; omega

/-- The source-node block at point `t` is the same rows of the gathered source features. -/
theorem iblk0_1_apply (c : Dev nD) (t : Fin cfg0.N) (p : Fin 8192) (a : Fin 64) :
    (iblk0 V c 1 t : Vec Ideal S8192x64 .bf16) (ix2 p a) = (V c main_v1 : S32768x64.Idx → EReal) (ix2 (erow t p) a) := by
  obtain ⟨e00, e01, e10, e11, e20, e21, -⟩ := idx_facts0 t
  show V c main_v1 (((cfg0.win 1).blk t).view.emb (ix2 p a)) = V c main_v1 (ix2 (erow t p) a)
  refine congrArg (V c main_v1) (funext fun ax => Fin.ext ?_)
  match ax with
  | ⟨0, _⟩ => show win0_1.index t (0 : Fin 2) * 8192 + 1 * p.val = 8192 * t.val + p.val; omega
  | ⟨1, _⟩ => show win0_1.index t (1 : Fin 2) * 64 + 1 * a.val = a.val; omega

/-- The destination-node block at point `t` is the same rows of the gathered destination features. -/
theorem iblk0_2_apply (c : Dev nD) (t : Fin cfg0.N) (p : Fin 8192) (a : Fin 64) :
    (iblk0 V c 2 t : Vec Ideal S8192x64 .bf16) (ix2 p a) = (V c main_v3 : S32768x64.Idx → EReal) (ix2 (erow t p) a) := by
  obtain ⟨e00, e01, e10, e11, e20, e21, -⟩ := idx_facts0 t
  show V c main_v3 (((cfg0.win 2).blk t).view.emb (ix2 p a)) = V c main_v3 (ix2 (erow t p) a)
  refine congrArg (V c main_v3) (funext fun ax => Fin.ext ?_)
  match ax with
  | ⟨0, _⟩ => show win0_2.index t (0 : Fin 2) * 8192 + 1 * p.val = 8192 * t.val + p.val; omega
  | ⟨1, _⟩ => show win0_2.index t (1 : Fin 2) * 64 + 1 * a.val = a.val; omega

/-- The first first-layer matrix is read whole at every point. -/
theorem iblk0_3_eq (c : Dev nD) (t : Fin cfg0.N) :
    (iblk0 V c 3 t : Vec Ideal S64x64 .f32) = (V c main_v7 : S64x64.Idx → EReal) := by
  obtain ⟨-, -, -, -, -, -, e30, e31, e40, e41, e50, e51, e60, e61, e70, e71, e80, e81, -⟩ := idx_facts0 t
  funext j
  show V c main_v7 (((cfg0.win 3).blk t).view.emb j) = V c main_v7 j
  refine congrArg (V c main_v7) (funext fun ax => Fin.ext ?_)
  match ax with
  | ⟨0, _⟩ => show win0_3.index t (0 : Fin 2) * 64 + 1 * (j 0).val = (j 0).val; omega
  | ⟨1, _⟩ => show win0_3.index t (1 : Fin 2) * 64 + 1 * (j 1).val = (j 1).val; omega

/-- The second first-layer matrix is read whole at every point. -/
theorem iblk0_4_eq (c : Dev nD) (t : Fin cfg0.N) :
    (iblk0 V c 4 t : Vec Ideal S64x64 .f32) = (V c main_v8 : S64x64.Idx → EReal) := by
  obtain ⟨-, -, -, -, -, -, e30, e31, e40, e41, e50, e51, e60, e61, e70, e71, e80, e81, -⟩ := idx_facts0 t
  funext j
  show V c main_v8 (((cfg0.win 4).blk t).view.emb j) = V c main_v8 j
  refine congrArg (V c main_v8) (funext fun ax => Fin.ext ?_)
  match ax with
  | ⟨0, _⟩ => show win0_4.index t (0 : Fin 2) * 64 + 1 * (j 0).val = (j 0).val; omega
  | ⟨1, _⟩ => show win0_4.index t (1 : Fin 2) * 64 + 1 * (j 1).val = (j 1).val; omega

/-- The third first-layer matrix is read whole at every point. -/
theorem iblk0_5_eq (c : Dev nD) (t : Fin cfg0.N) :
    (iblk0 V c 5 t : Vec Ideal S64x64 .f32) = (V c main_v9 : S64x64.Idx → EReal) := by
  obtain ⟨-, -, -, -, -, -, e30, e31, e40, e41, e50, e51, e60, e61, e70, e71, e80, e81, -⟩ := idx_facts0 t
  funext j
  show V c main_v9 (((cfg0.win 5).blk t).view.emb j) = V c main_v9 j
  refine congrArg (V c main_v9) (funext fun ax => Fin.ext ?_)
  match ax with
  | ⟨0, _⟩ => show win0_5.index t (0 : Fin 2) * 64 + 1 * (j 0).val = (j 0).val; omega
  | ⟨1, _⟩ => show win0_5.index t (1 : Fin 2) * 64 + 1 * (j 1).val = (j 1).val; omega

/-- The first bias row is read whole at every point. -/
theorem iblk0_6_eq (c : Dev nD) (t : Fin cfg0.N) :
    (iblk0 V c 6 t : Vec Ideal S1x64 .f32) = (V c main_v5 : S1x64.Idx → EReal) := by
  obtain ⟨-, -, -, -, -, -, e30, e31, e40, e41, e50, e51, e60, e61, e70, e71, e80, e81, -⟩ := idx_facts0 t
  funext j
  show V c main_v5 (((cfg0.win 6).blk t).view.emb j) = V c main_v5 j
  refine congrArg (V c main_v5) (funext fun ax => Fin.ext ?_)
  match ax with
  | ⟨0, _⟩ => show win0_6.index t (0 : Fin 2) * 1 + 1 * (j 0).val = (j 0).val; omega
  | ⟨1, _⟩ => show win0_6.index t (1 : Fin 2) * 64 + 1 * (j 1).val = (j 1).val; omega

/-- The second-layer matrix is read whole at every point. -/
theorem iblk0_7_eq (c : Dev nD) (t : Fin cfg0.N) :
    (iblk0 V c 7 t : Vec Ideal S64x64 .f32) = (V c main_arg7 : S64x64.Idx → EReal) := by
  obtain ⟨-, -, -, -, -, -, e30, e31, e40, e41, e50, e51, e60, e61, e70, e71, e80, e81, -⟩ := idx_facts0 t
  funext j
  show V c main_arg7 (((cfg0.win 7).blk t).view.emb j) = V c main_arg7 j
  refine congrArg (V c main_arg7) (funext fun ax => Fin.ext ?_)
  match ax with
  | ⟨0, _⟩ => show win0_7.index t (0 : Fin 2) * 64 + 1 * (j 0).val = (j 0).val; omega
  | ⟨1, _⟩ => show win0_7.index t (1 : Fin 2) * 64 + 1 * (j 1).val = (j 1).val; omega

/-- The second bias row is read whole at every point. -/
theorem iblk0_8_eq (c : Dev nD) (t : Fin cfg0.N) :
    (iblk0 V c 8 t : Vec Ideal S1x64 .f32) = (V c main_v6 : S1x64.Idx → EReal) := by
  obtain ⟨-, -, -, -, -, -, e30, e31, e40, e41, e50, e51, e60, e61, e70, e71, e80, e81, -⟩ := idx_facts0 t
  funext j
  show V c main_v6 (((cfg0.win 8).blk t).view.emb j) = V c main_v6 j
  refine congrArg (V c main_v6) (funext fun ax => Fin.ext ?_)
  match ax with
  | ⟨0, _⟩ => show win0_8.index t (0 : Fin 2) * 1 + 1 * (j 0).val = (j 0).val; omega
  | ⟨1, _⟩ => show win0_8.index t (1 : Fin 2) * 64 + 1 * (j 1).val = (j 1).val; omega

/-- Row `p`, column `q` of the output block at point `t` is row `8192·t + p`, column `q` of the output array. -/
theorem oblk0_9_emb (t : Fin cfg0.N) (p : Fin 8192) (q : Fin 64) :
    ((cfg0.win 9).blk t).view.emb (ix2 p q) = (ix2 (erow t p) q : S32768x64.Idx) := by
  obtain ⟨-, -, -, -, -, -, -, -, -, -, -, -, -, -, -, -, -, -, e90, e91⟩ := idx_facts0 t
  refine funext fun ax => Fin.ext ?_
  match ax with
  | ⟨0, _⟩ => show win0_9.index t (0 : Fin 2) * 8192 + 1 * p.val = 8192 * t.val + p.val; omega
  | ⟨1, _⟩ => show win0_9.index t (1 : Fin 2) * 64 + 1 * q.val = q.val; omega

/-! ## What each point writes back -/

/-- What point `t` writes back is its block of the edge update of the arrays the region was entered with. -/
theorem flushed0_9_eq (c : Dev nD) (t : Fin cfg0.N) :
    (dat0 V c).flushed 9 t = ((cfg0.win 9).blk t).view.read (Elt Ideal)
      (Spec.edgeMlp (V c main_v4) (V c main_v1) (V c main_v3) (V c main_v7) (V c main_v8) (V c main_v9) (V c main_v5) (V c main_arg7) (V c main_v6)) := by
  show (cfg0.win 9).cut (grid0.coords t) ((dat0 V c).after 9 t) = _
  rw [after0_9]
  unfold out0_9
  rw [View.canon_unit_zero zero_offsets]
  simp only [View.ld_unit_zero (S := S8192x64) zero_offsets, View.ld_unit_zero (S := S64x64) zero_offsets, View.ld_unit_zero (S := S1x64) zero_offsets]
  rw [iblk0_3_eq V c t, iblk0_4_eq V c t, iblk0_5_eq V c t, iblk0_6_eq V c t, iblk0_7_eq V c t, iblk0_8_eq V c t]
  funext j
  obtain ⟨p, q, rfl⟩ : ∃ (p : Fin 8192) (q : Fin 64), j = ix2 p q := ⟨j 0, j 1, eq_ix2 j⟩
  show k0_pay1 (F := Ideal) (iblk0 V c 0 t) (iblk0 V c 1 t) (iblk0 V c 2 t) (V c main_v7) (V c main_v8) (V c main_v9) (V c main_v5) (V c main_arg7) (V c main_v6) (ix2 p q)
    = Spec.edgeMlp (V c main_v4) (V c main_v1) (V c main_v3) (V c main_v7) (V c main_v8) (V c main_v9) (V c main_v5) (V c main_arg7) (V c main_v6) (((cfg0.win 9).blk t).view.emb (ix2 p q))
  rw [oblk0_9_emb t p q]
  refine (edge_payload_apply _ _ _ _ _ _ _ _ _ p q).trans (Eq.trans ?_ (edgeMlp_apply _ _ _ _ _ _ _ _ _ (erow t p) q).symm)
  simp only [iblk0_0_apply V c t p, iblk0_1_apply V c t p, iblk0_2_apply V c t p]

/-! ## The blocks tile the array -/

/-- An index of the output array is in point `t`'s block iff each coordinate is in the block's range on its axis. -/
theorem mem_blk0_9 (t : Fin cfg0.N) (i : S32768x64.Idx) :
    i ∈ ((cfg0.win 9).blk t).view.set ↔ ∀ a : Fin 2, win0_9.index t a * S8192x64.size a ≤ (i a).val ∧ (i a).val < win0_9.index t a * S8192x64.size a + S8192x64.size a := by
  show i ∈ ((View.whole main_v10).slice (win0_9.rect t)).set ↔ _
  rw [View.set_slice_whole, Rect.mem_set_unit]
  exact Iff.rfl

/-- Row `r` of the output array is in the block of point `r / 8192`, which writes back. -/
theorem covered0_9 (i : S32768x64.Idx) :
    ∃ t : Fin cfg0.N, (cfg0.win 9).flush t = true ∧ i ∈ ((cfg0.win 9).blk t).view.set := by
  have hi0 : (i 0).val < 32768 := (i 0).isLt
  have hi1 : (i 1).val < 64 := (i 1).isLt
  obtain ⟨t, ht⟩ : ∃ t : Fin cfg0.N, t.val = (i 0).val / 8192 :=
    ⟨⟨(i 0).val / 8192, lt_of_lt_of_eq (by omega : (i 0).val / 8192 < 4) N_0.symm⟩, rfl⟩
  obtain ⟨-, -, -, -, -, -, -, -, -, -, -, -, -, -, -, -, -, -, e90, e91⟩ := idx_facts0 t
  refine ⟨t, flush0_9 t, ?_⟩
  rw [mem_blk0_9]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 64 ≤ (i 1).val ∧ (i 1).val < win0_9.index t (1 : Fin 2) * 64 + 64; omega

/-! ## The output array after the run -/

/-- THE OUTPUT ARRAY after the run is the edge update of the arrays the region was entered with. -/
theorem emNew_final (c : Dev nD) :
    ((dat0 (F := Ideal) V c).arrAt 9 cfg0.N : S32768x64.Idx → EReal)
      = Cert.Spec.edgeMlp (V c main_v4) (V c main_v1) (V c main_v3) (V c main_v7) (V c main_v8) (V c main_v9) (V c main_v5) (V c main_arg7) (V c main_v6) :=
  (dat0 V c).arrAt_eq_of_cover 9 _ (fun t _ => flushed0_9_eq V c t) covered0_9

end Region0Value

end Cert.KernelIdeal.Hand

end
-- ==== Proof.KI.R1Pay.lean ====
/-
  The node update's three stored values, each read at one entry, and the two facts about finite sums
  the accumulation over the edges rests on: a sum over all 32768 edges is the sum over eight chunks of
  4096, and a running sum is its partial sum.
-/
import proofs.«407642_j41936060678384_3_alg».proof.Proof.Gen.KernelIdeal.Skeleton
import proofs.«407642_j41936060678384_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The two contractions read at an index -/

theorem accDot_lhs0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem accDot_lhs1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem accDot_rhs0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem accDot_rhs1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- A 512x4096 block times a 4096x64 block, into zero: entry (p, q) is the sum over the 4096 shared coordinates. -/
theorem accDot_apply {φ₁ φ₂ : FTy} (a : FVec Ideal S512x4096 φ₁) (b : FVec Ideal S4096x64 φ₂) (p : Fin 512) (q : Fin 64) :
    FloatOps.matmul dot_S512x4096_S4096x64_S512x64_1_0_0_1_n_n none a b (constant S512x64 .f32 0x00000000#32) (ix2 p q)
      = ∑ j : Fin 4096, a (ix2 p j) * b (ix2 j q) := by
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q) ((contrEquiv1 dot_S512x4096_S4096x64_S512x64_1_0_0_1_n_n 4096 rfl rfl).symm k) = ix2 p k := funext fun a => Fin.ext (by
    match a with
    | ⟨0, _⟩ => exact accDot_lhs0 _ _
    | ⟨1, _⟩ => exact (accDot_lhs1 _ _).trans hk)
  have er : dot_S512x4096_S4096x64_S512x64_1_0_0_1_n_n.rhsIdx (ix2 p q) ((contrEquiv1 dot_S512x4096_S4096x64_S512x64_1_0_0_1_n_n 4096 rfl rfl).symm k) = ix2 k q := funext fun a => Fin.ext (by
    match a with
    | ⟨0, _⟩ => exact (accDot_rhs0 _ _).trans hk
    | ⟨1, _⟩ => exact accDot_rhs1 _ _)
  rw [el, er]

theorem sqDot_lhs0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem sqDot_lhs1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem sqDot_rhs0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem sqDot_rhs1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- A 512x64 block times a 64x64 matrix, into zero: entry (p, q) is the sum over the 64 shared coordinates. -/
theorem sqDot_apply {φ₁ φ₂ : FTy} (a : FVec Ideal S512x64 φ₁) (b : FVec Ideal S64x64 φ₂) (p : Fin 512) (q : Fin 64) :
    FloatOps.matmul dot_S512x64_S64x64_S512x64_1_0_0_1_n_n none a b (constant S512x64 .f32 0x00000000#32) (ix2 p q)
      = ∑ j : Fin 64, a (ix2 p j) * b (ix2 j q) := by
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k := funext fun a => Fin.ext (by
    match a with
    | ⟨0, _⟩ => exact sqDot_lhs0 _ _
    | ⟨1, _⟩ => exact (sqDot_lhs1 _ _).trans hk)
  have er : dot_S512x64_S64x64_S512x64_1_0_0_1_n_n.rhsIdx (ix2 p q) ((contrEquiv1 dot_S512x64_S64x64_S512x64_1_0_0_1_n_n 64 rfl rfl).symm k) = ix2 k q := funext fun a => Fin.ext (by
    match a with
    | ⟨0, _⟩ => exact (sqDot_rhs0 _ _).trans hk
    | ⟨1, _⟩ => exact sqDot_rhs1 _ _)
  rw [el, er]

/-! ## The three stored values read at an index -/

/-- The reset stores zero everywhere. -/
theorem k1_pay1_apply (p : Fin 512) (q : Fin 64) : k1_pay1 (F := Ideal) (ix2 p q) = 0 := by
  unfold k1_pay1
  refine (congrFun (shapeCast_self _ _) _).trans ?_
  exact Ideal.ofBits_zero_f32

/-- One accumulation step: the carried block plus the product of the adjacency block and the edge-feature chunk. -/
theorem k1_pay2_apply (v3 : Vec Ideal S512x4096 .f32) (v8 : Vec Ideal S4096x64 .f32) (v11 : Vec Ideal S512x64 .f32)
    (p : Fin 512) (q : Fin 64) :
    k1_pay2 v3 v8 v11 (ix2 p q) = v11 (ix2 p q) + ∑ j : Fin 4096, v3 (ix2 p j) * v8 (ix2 j q) := by
  unfold k1_pay2
  refine (congrFun (shapeCast_self _ _) _).trans ?_
  refine (addf_apply _ _ _).trans ?_
  refine congrArg (v11 (ix2 p q) + ·) ?_
  refine (accDot_apply _ _ p q).trans ?_
  refine Finset.sum_congr rfl fun j _ => ?_
  refine congrArg (v3 (ix2 p j) * ·) ?_
  exact congrFun (shapeCast_self v8 _) (ix2 j q)

/-- The last step of a row block: the two-layer map of the node's own features and the aggregated messages. -/
theorem k1_pay3_apply (v20 v22 : Vec Ideal S512x64 .f32) (v24 v27 : Vec Ideal S64x64 .f32) (v33 : Vec Ideal S1x64 .f32)
    (v39 : Vec Ideal S64x64 .f32) (v43 : Vec Ideal S1x64 .f32) (p : Fin 512) (q : Fin 64) :
    k1_pay3 v20 v22 v24 v27 v33 v39 v43 (ix2 p q)
      = (∑ k : Fin 64, max (((∑ a : Fin 64, v20 (ix2 p a) * v24 (ix2 a k)) + ∑ a : Fin 64, v22 (ix2 p a) * v27 (ix2 a k))
            + v33 (ix2 (0 : Fin 1) k)) 0 * v39 (ix2 k q)) + v43 (ix2 (0 : Fin 1) q) := by
  unfold k1_pay3
  refine (addf_apply _ _ _).trans ?_
  refine congrArg₂ (· + ·) ?_ ?_
  · refine (sqDot_apply _ _ p q).trans ?_
    refine Finset.sum_congr rfl fun k _ => ?_
    refine congrArg (· * v39 (ix2 k q)) ?_
    refine (maximumf_apply _ _ _).trans ?_
    refine congrArg₂ max ?_ Ideal.ofBits_zero_f32
    refine (addf_apply _ _ _).trans ?_
    refine congrArg₂ (· + ·) ?_ ?_
    · refine (addf_apply _ _ _).trans ?_
      refine congrArg₂ (· + ·) ?_ ?_
      · refine (sqDot_apply _ _ p k).trans ?_
        refine Finset.sum_congr rfl fun a _ => ?_
        exact congrArg (v20 (ix2 p a) * ·) (congrFun (shapeCast_self v24 _) (ix2 a k))
      · refine (sqDot_apply _ _ p k).trans ?_
        refine Finset.sum_congr rfl fun a _ => ?_
        exact congrArg (v22 (ix2 p a) * ·) (congrFun (shapeCast_self v27 _) (ix2 a k))
    · refine (broadcastTo_1b_ab_apply _ _ p k).trans ?_
      exact congrFun (shapeCast_self v33 _) (ix2 (0 : Fin 1) k)
  · refine (broadcastTo_1b_ab_apply _ _ p q).trans ?_
    exact congrFun (shapeCast_self v43 _) (ix2 (0 : Fin 1) q)

/-! ## Sums over the edges, eight chunks of 4096 -/

/-- A sum over 32768 terms is the sum over eight consecutive chunks of 4096 terms. -/
theorem sum_chunks {M : Type*} [AddCommMonoid M] (f : Fin 32768 → M) :
    ∑ e : Fin 32768, f e = ∑ k : Fin 8, ∑ j : Fin 4096, f ⟨4096 * k.val + j.val, by omega⟩ := by
  rw [← Equiv.sum_comp (finProdFinEquiv (m := 8) (n := 4096)) f, Fintype.sum_prod_type]
  refine Finset.sum_congr rfl fun k _ => Finset.sum_congr rfl fun j _ => congrArg f (Fin.ext ?_)
  show j.val + 4096 * k.val = 4096 * k.val + j.val
  omega

/-- A running sum that starts at zero plus the first term and adds one term per step is the partial sum. -/
theorem running_sum {M : Type*} [AddCommMonoid M] (s acc : ℕ → M) (h0 : acc 0 = 0 + s 0)
    (hs : ∀ k, acc (k + 1) = acc k + s (k + 1)) (k : ℕ) : acc k = ∑ k' ∈ Finset.range (k + 1), s k' := by
  induction k with
  | zero => rw [h0, zero_add, Finset.sum_range_one]
  | succ k ih => rw [hs, ih, Finset.sum_range_succ _ (k + 1)]

end Cert.KernelIdeal.Hand

end
-- ==== Proof.KI.R1Final.lean ====
import proofs.«407642_j41936060678384_3_alg».proof.Proof.KI.R1
import Idealize.ShloMosaic.Lib.Pipeline.Value
import Idealize.ShloMosaic.Lib.ValueIdx

/-!
# Region 1 (the node update): from the blocks written back to the output array

The grid is 16 × 8: point `t` is at node block `t / 8` and edge chunk `t % 8`. The adjacency window's block there
is rows `512·(t/8) …`, columns `4096·(t%8) …` of the adjacency; the node-feature window's and the output window's
are rows `512·(t/8) …` of their arrays, all 64 columns; the edge features and the five parameter arrays are read
whole, and the body takes rows `4096·(t%8) …` of the edge features. The output block is written back at the
last chunk of each node block only, `t % 8 = 7`; those sixteen blocks tile the 8192 node rows. So if what each
of those points leaves is its block of one array function `G`, the output array ends holding `G`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window cellOf)

/-! ## The index maps over the grid, window by window -/

/-- The adjacency window is at node block `t / 8`, edge chunk `t % 8`. -/
theorem idx1_0 : ∀ t : Fin cfg1.N, win1_0.index t (0 : Fin 2) = t.val / 8 ∧ win1_0.index t (1 : Fin 2) = t.val % 8 :=
  (by decide +kernel : ∀ t : Fin grid1.N, _)
/-- The edge-feature window stays at block (0, 0): the whole array. -/
theorem idx1_1 : ∀ t : Fin cfg1.N, win1_1.index t (0 : Fin 2) = 0 ∧ win1_1.index t (1 : Fin 2) = 0 :=
  (by decide +kernel : ∀ t : Fin grid1.N, _)
/-- The node-feature window is at node block `t / 8`. -/
theorem idx1_2 : ∀ t : Fin cfg1.N, win1_2.index t (0 : Fin 2) = t.val / 8 ∧ win1_2.index t (1 : Fin 2) = 0 :=
  (by decide +kernel : ∀ t : Fin grid1.N, _)
/-- The five parameter windows stay at block (0, 0). -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
/-- The output window is at node block `t / 8`. -/
theorem idx1_8 : ∀ t : Fin cfg1.N, win1_8.index t (0 : Fin 2) = t.val / 8 ∧ win1_8.index t (1 : Fin 2) = 0 :=
  (by decide +kernel : ∀ t : Fin grid1.N, _)
/-- The body's load of the edge features starts at row `4096·(t % 8)`, column 0. -/
theorem off1_facts : ∀ t : Fin cfg1.N, k1_off1 (grid1.coords t) (0 : Fin 2) = 4096 * (t.val % 8) ∧ k1_off1 (grid1.coords t) (1 : Fin 2) = 0 :=
  (by decide +kernel : ∀ t : Fin grid1.N, _)

/-- Row `p` of point `t`'s node block is node `512·(t/8) + p`. -/
def nrow (t : Fin cfg1.N) (p : Fin 512) : Fin 8192 :=
  ⟨512 * (t.val / 8) + p.val, by
    have ht : t.val < 128 := lt_of_lt_of_eq t.isLt N_1
    have hp := p.isLt
    omega⟩

/-- Position `j` of point `t`'s edge chunk is edge `4096·(t%8) + j`. -/
def ecol (t : Fin cfg1.N) (j : Fin 4096) : Fin 32768 :=
  ⟨4096 * (t.val % 8) + j.val, by
    have hj := j.isLt
    omega⟩

theorem nrow_val (t : Fin cfg1.N) (p : Fin 512) : (nrow t p).val = 512 * (t.val / 8) + p.val := rfl
theorem ecol_val (t : Fin cfg1.N) (j : Fin 4096) : (ecol t j).val = 4096 * (t.val % 8) + j.val := rfl

/-- The body's load of a chunk of the edge features reads rows `4096·(t%8) + j`. -/
theorem ld_chunk_apply {α : Type} (x : S32768x64.Idx → α) (t : Fin cfg1.N)
    (inb : ∀ a, k1_off1 (grid1.coords t) a + S4096x64.size a ≤ S32768x64.size a) (j : Fin 4096) (q : Fin 64) :
    (View.ld (Val := fun _ => α) (e' := .f32) x (Rect.unit (s := S32768x64) (k1_off1 (grid1.coords t)) S4096x64.size inb) : S4096x64.Idx → α) (ix2 j q)
      = x (ix2 (ecol t j) q) := by
  obtain ⟨o0, o1⟩ := off1_facts t
  refine congrArg x (funext fun ax => Fin.ext ?_)
  match ax with
  | ⟨0, _⟩ => show k1_off1 (grid1.coords t) (0 : Fin 2) + 1 * j.val = 4096 * (t.val % 8) + j.val; omega
  | ⟨1, _⟩ => show k1_off1 (grid1.coords t) (1 : Fin 2) + 1 * q.val = q.val; omega

section Region1Final
-- the TensorCore's buffer contents when the region is entered
variable (V : (c : Dev nD) → (b : Ref sig .tc) → Buf (Elt Ideal) ((c : Thread nD τ).loc b))

/-! ## Each input window's block, read at its place -/

/-- The adjacency block at point `t`: nodes `512·(t/8) + p` against edges `4096·(t%8) + j`. -/
theorem iblk1_0_apply (c : Dev nD) (t : Fin cfg1.N) (p : Fin 512) (j : Fin 4096) :
    (iblk1 V c 0 t : Vec Ideal S512x4096 .f32) (ix2 p j) = (V c main_arg2 : S8192x32768.Idx → EReal) (ix2 (nrow t p) (ecol t j)) := by
  obtain ⟨e0, e1⟩ := idx1_0 t
  show V c main_arg2 (((cfg1.win 0).blk t).view.emb (ix2 p j)) = V c main_arg2 (ix2 (nrow t p) (ecol t j))
  refine congrArg (V c main_arg2) (funext fun ax => Fin.ext ?_)
  match ax with
  | ⟨0, _⟩ => show win1_0.index t (0 : Fin 2) * 512 + 1 * p.val = 512 * (t.val / 8) + p.val; omega
  | ⟨1, _⟩ => show win1_0.index t (1 : Fin 2) * 4096 + 1 * j.val = 4096 * (t.val % 8) + j.val; omega

/-- The node-feature block at point `t`: nodes `512·(t/8) + p`, every feature. -/
theorem iblk1_2_apply (c : Dev nD) (t : Fin cfg1.N) (p : Fin 512) (a : Fin 64) :
    (iblk1 V c 2 t : Vec Ideal S512x64 .f32) (ix2 p a) = (V c main_arg0 : S8192x64.Idx → EReal) (ix2 (nrow t p) a) := by
  obtain ⟨e0, e1⟩ := idx1_2 t
  show V c main_arg0 (((cfg1.win 2).blk t).view.emb (ix2 p a)) = V c main_arg0 (ix2 (nrow t p) a)
  refine congrArg (V c main_arg0) (funext fun ax => Fin.ext ?_)
  match ax with
  | ⟨0, _⟩ => show win1_2.index t (0 : Fin 2) * 512 + 1 * p.val = 512 * (t.val / 8) + p.val; omega
  | ⟨1, _⟩ => show win1_2.index t (1 : Fin 2) * 64 + 1 * a.val = a.val; omega

/-- The edge features are read whole at every point. -/
theorem iblk1_1_eq (c : Dev nD) (t : Fin cfg1.N) :
    (iblk1 V c 1 t : Vec Ideal S32768x64 .f32) = (V c main_v10 : S32768x64.Idx → EReal) := by
  obtain ⟨e0, e1⟩ := idx1_1 t
  funext j
  show V c main_v10 (((cfg1.win 1).blk t).view.emb j) = V c main_v10 j
  refine congrArg (V c main_v10) (funext fun ax => Fin.ext ?_)
  match ax with
  | ⟨0, _⟩ => show win1_1.index t (0 : Fin 2) * 32768 + 1 * (j 0).val = (j 0).val; omega
  | ⟨1, _⟩ => show win1_1.index t (1 : Fin 2) * 64 + 1 * (j 1).val = (j 1).val; omega

/-- The first-layer matrix for the node's own features is read whole at every point. -/
theorem iblk1_3_eq (c : Dev nD) (t : Fin cfg1.N) :
    (iblk1 V c 3 t : Vec Ideal S64x64 .f32) = (V c main_v13 : S64x64.Idx → EReal) := by
  obtain ⟨e0, e1⟩ := idx1_3 t
  funext j
  show V c main_v13 (((cfg1.win 3).blk t).view.emb j) = V c main_v13 j
  refine congrArg (V c main_v13) (funext fun ax => Fin.ext ?_)
  match ax with
  | ⟨0, _⟩ => show win1_3.index t (0 : Fin 2) * 64 + 1 * (j 0).val = (j 0).val; omega
  | ⟨1, _⟩ => show win1_3.index t (1 : Fin 2) * 64 + 1 * (j 1).val = (j 1).val; omega

/-- The first-layer matrix for the aggregated messages is read whole at every point. -/
theorem iblk1_4_eq (c : Dev nD) (t : Fin cfg1.N) :
    (iblk1 V c 4 t : Vec Ideal S64x64 .f32) = (V c main_v14 : S64x64.Idx → EReal) := by
  obtain ⟨e0, e1⟩ := idx1_4 t
  funext j
  show V c main_v14 (((cfg1.win 4).blk t).view.emb j) = V c main_v14 j
  refine congrArg (V c main_v14) (funext fun ax => Fin.ext ?_)
  match ax with
  | ⟨0, _⟩ => show win1_4.index t (0 : Fin 2) * 64 + 1 * (j 0).val = (j 0).val; omega
  | ⟨1, _⟩ => show win1_4.index t (1 : Fin 2) * 64 + 1 * (j 1).val = (j 1).val; omega

/-- The first bias row is read whole at every point. -/
theorem iblk1_5_eq (c : Dev nD) (t : Fin cfg1.N) :
    (iblk1 V c 5 t : Vec Ideal S1x64 .f32) = (V c main_v11 : S1x64.Idx → EReal) := by
  obtain ⟨e0, e1⟩ := idx1_5 t
  funext j
  show V c main_v11 (((cfg1.win 5).blk t).view.emb j) = V c main_v11 j
  refine congrArg (V c main_v11) (funext fun ax => Fin.ext ?_)
  match ax with
  | ⟨0, _⟩ => show win1_5.index t (0 : Fin 2) * 1 + 1 * (j 0).val = (j 0).val; omega
  | ⟨1, _⟩ => show win1_5.index t (1 : Fin 2) * 64 + 1 * (j 1).val = (j 1).val; omega

/-- The second-layer matrix is read whole at every point. -/
theorem iblk1_6_eq (c : Dev nD) (t : Fin cfg1.N) :
    (iblk1 V c 6 t : Vec Ideal S64x64 .f32) = (V c main_arg11 : S64x64.Idx → EReal) := by
  obtain ⟨e0, e1⟩ := idx1_6 t
  funext j
  show V c main_arg11 (((cfg1.win 6).blk t).view.emb j) = V c main_arg11 j
  refine congrArg (V c main_arg11) (funext fun ax => Fin.ext ?_)
  match ax with
  | ⟨0, _⟩ => show win1_6.index t (0 : Fin 2) * 64 + 1 * (j 0).val = (j 0).val; omega
  | ⟨1, _⟩ => show win1_6.index t (1 : Fin 2) * 64 + 1 * (j 1).val = (j 1).val; omega

/-- The second bias row is read whole at every point. -/
theorem iblk1_7_eq (c : Dev nD) (t : Fin cfg1.N) :
    (iblk1 V c 7 t : Vec Ideal S1x64 .f32) = (V c main_v12 : S1x64.Idx → EReal) := by
  obtain ⟨e0, e1⟩ := idx1_7 t
  funext j
  show V c main_v12 (((cfg1.win 7).blk t).view.emb j) = V c main_v12 j
  refine congrArg (V c main_v12) (funext fun ax => Fin.ext ?_)
  match ax with
  | ⟨0, _⟩ => show win1_7.index t (0 : Fin 2) * 1 + 1 * (j 0).val = (j 0).val; omega
  | ⟨1, _⟩ => show win1_7.index t (1 : Fin 2) * 64 + 1 * (j 1).val = (j 1).val; omega

/-- Row `p`, column `q` of the output block at point `t` is node `512·(t/8) + p`, feature `q` of the output array. -/
theorem oblk1_8_emb (t : Fin cfg1.N) (p : Fin 512) (q : Fin 64) :
    ((cfg1.win 8).blk t).view.emb (ix2 p q) = (ix2 (nrow t p) q : S8192x64.Idx) := by
  obtain ⟨e0, e1⟩ := idx1_8 t
  refine funext fun ax => Fin.ext ?_
  match ax with
  | ⟨0, _⟩ => show win1_8.index t (0 : Fin 2) * 512 + 1 * p.val = 512 * (t.val / 8) + p.val; omega
  | ⟨1, _⟩ => show win1_8.index t (1 : Fin 2) * 64 + 1 * q.val = q.val; omega

/-- A block of an array function read at row `p`, column `q`: the function at node `512·(t/8) + p`. -/
theorem read_blk1_8_apply (G : S8192x64.Idx → EReal) (t : Fin cfg1.N) (p : Fin 512) (q : Fin 64) :
    (((cfg1.win 8).blk t).view.read (Elt Ideal) G : S512x64.Idx → EReal) (ix2 p q) = G (ix2 (nrow t p) q) :=
  congrArg G (oblk1_8_emb t p q)

/-! ## The blocks written back tile the array -/

/-- An index of the output array is in point `t`'s block iff each coordinate is in the block's range on its axis. -/
theorem mem_blk1_8 (t : Fin cfg1.N) (i : S8192x64.Idx) :
    i ∈ ((cfg1.win 8).blk t).view.set ↔ ∀ a : Fin 2, win1_8.index t a * S512x64.size a ≤ (i a).val ∧ (i a).val < win1_8.index t a * S512x64.size a + S512x64.size a := by
  show i ∈ ((View.whole main_v15).slice (win1_8.rect t)).set ↔ _
  rw [View.set_slice_whole, Rect.mem_set_unit]
  exact Iff.rfl

/-- Node row `r` is in the block of the point `8·(r / 512) + 7`, the last chunk of its node block, which writes back. -/
theorem covered1_8 (i : S8192x64.Idx) :
    ∃ t : Fin cfg1.N, (cfg1.win 8).flush t = true ∧ i ∈ ((cfg1.win 8).blk t).view.set := by
  have hi0 : (i 0).val < 8192 := (i 0).isLt
  have hi1 : (i 1).val < 64 := (i 1).isLt
  obtain ⟨t, ht⟩ : ∃ t : Fin cfg1.N, t.val = 8 * ((i 0).val / 512) + 7 :=
    ⟨⟨8 * ((i 0).val / 512) + 7, lt_of_lt_of_eq (by omega : 8 * ((i 0).val / 512) + 7 < 128) N_1.symm⟩, rfl⟩
  obtain ⟨e0, e1⟩ := idx1_8 t
  refine ⟨t, (flush1_8 t).mpr (by omega), ?_⟩
  rw [mem_blk1_8]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 64 ≤ (i 1).val ∧ (i 1).val < win1_8.index t (1 : Fin 2) * 64 + 64; omega

/-! ## The output array after the run -/

/-- THE OUTPUT ARRAY after the run is `G`, whenever what each point that writes back leaves in the output buffer
    is its block of `G`. The points that do not write back are not consulted. -/
theorem vmNew_final_of (c : Dev nD) (G : S8192x64.Idx → EReal)
    (hfl : ∀ t : Fin cfg1.N, t.val % 8 = 7 → (dat1 (F := Ideal) V c).after 8 t = ((cfg1.win 8).blk t).view.read (Elt Ideal) G) :
    ((dat1 (F := Ideal) V c).arrAt 8 cfg1.N : S8192x64.Idx → EReal) = G :=
  (dat1 V c).arrAt_eq_of_cover 8 G (fun t hf => hfl t ((flush1_8 t).mp hf)) covered1_8

end Region1Final

end Cert.KernelIdeal.Hand

end
-- ==== Proof.KI.R1Value.lean ====
/-
  The value of the node-update region. Its output array after the run is the node update of the arrays the
  region is entered with.

  A point t of the 16 x 8 grid works on row block t / 8 of the nodes and on chunk t % 8 of the edges. The
  accumulator, a 512 x 64 block, is set to zero plus the first chunk's product where t % 8 = 0 and takes one more
  chunk's product at each later point, so after point t it holds, for each node of the row block, the first
  t % 8 + 1 of the eight chunks of the messages the node receives; at t % 8 = 7 that is the whole sum over the edges,
  and the block stored into the output window there is the two-layer map of the node block and that sum: the
  node update's rows 512 (t / 8) .. 512 (t / 8) + 511.
-/
import proofs.«407642_j41936060678384_3_alg».proof.Proof.KI.R1
import proofs.«407642_j41936060678384_3_alg».proof.Proof.KI.R1Pay
import proofs.«407642_j41936060678384_3_alg».proof.Proof.KI.R1Final
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

namespace R1V

variable {F : FTy → Type} [FloatOps F]

theorem hz : (![0, 0] : Fin 2 → Nat) = fun _ => 0 := funext fun a => by fin_cases a <;> rfl

/-- Rows 4096 k .. 4096 k + 4095 of the edge features, k the point's second coordinate. -/
abbrev chunk (i : grid1.Coords) (x1 : Vec F S32768x64 .f32) : Vec F S4096x64 .f32 :=
  View.ld x1 (Rect.unit (s := S32768x64) (k1_off1 i) S4096x64.size (k1_off1_inb i))

/-! ## What each case of a point leaves, as the stored values -/

/-- Where k = 0 the accumulator is left at zero plus the block product. -/
theorem sout1_A_0_eq (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 x7 = k1_pay2 x0 (chunk i x1) (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S512x64) hz, View.readCov_unit_zero (S := S512x64) _ hz]
  simp only [View.readAt_eq_ld, harg2.read_unread, harg3.read_unread, View.ld_unit_zero (S := S512x4096) hz]
  rfl

/-- Where 0 < k < 7 the accumulator is left at what it held plus the block product. -/
theorem sout1_B_0_eq (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : ¬cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    sout1_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay2 x0 (chunk i x1) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_B
  dsimp only
  sl_unfold_words
  rw [View.canon_unit_zero (S := S512x64) hz]
  simp only [View.readAt_eq_ld, harg2.read_unread, harg3.read_unread, harg11.read_unread, View.ld_unit_zero (S := S512x4096) hz, View.ld_unit_zero (S := S512x64) hz]
  rfl

/-- Where k = 7 the accumulator is left at what it held plus the block product. -/
theorem sout1_C_0_eq (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay2 x0 (chunk i x1) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_words
  rw [View.canon_unit_zero (S := S512x64) hz]
  simp only [View.readAt_eq_ld, harg2.read_unread, harg3.read_unread, harg11.read_unread, View.ld_unit_zero (S := S512x4096) hz, View.ld_unit_zero (S := S512x64) hz]
  rfl

/-- Where k = 7 the output block is left at the two-layer map of the node block and the finished accumulator. -/
theorem out1_C_8_eq (c : Dev nD) (i : grid1.Coords) (arg2 : Memref sig .tc .vmem S512x4096 .f32) (harg2 : arg2.IsWhole) (arg3 : Memref sig .tc .vmem S32768x64 .f32) (harg3 : arg3.IsWhole) (arg4 : Memref sig .tc .vmem S512x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S512x64 .f32) (harg10 : arg10.IsWhole) (arg11 : Memref sig .tc .vmem S512x64 .f32) (harg11 : arg11.IsWhole) (hc0 : ¬cond1_0 i) (hc1 : cond1_1 i)
    (x0 : Vec F S512x4096 .f32) (x1 : Vec F S32768x64 .f32) (x2 : Vec F S512x64 .f32) (x3 : Vec F S64x64 .f32) (x4 : Vec F S64x64 .f32) (x5 : Vec F S1x64 .f32) (x6 : Vec F S64x64 .f32) (x7 : Vec F S1x64 .f32) (xs0 : Vec F S512x64 .f32) :
    out1_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay3 x2 (k1_pay2 x0 (chunk i x1) xs0) x3 x4 x5 x6 x7 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_words
  rw [View.canon_unit_zero (S := S512x64) hz]
  simp only [View.readAt_eq_ld, harg2.read_unread, harg3.read_unread, harg4.read_unread, harg5.read_unread, harg6.read_unread, harg7.read_unread, harg8.read_unread, harg9.read_unread, harg11.read_unread, View.readCov_unit_zero (S := S512x64) _ hz, View.ld_unit_zero (S := S512x4096) hz, View.ld_unit_zero (S := S512x64) hz, View.ld_unit_zero (S := S64x64) hz, View.ld_unit_zero (S := S1x64) hz]
  rfl

/-! ## The arrays and blocks, at their literal types -/

section Blocks

variable (V : (c : Dev nD) → (b : Ref sig .tc) → Buf (Elt F) ((c : Thread nD τ).loc b))

abbrev adjA (c : Dev nD) : Vec F S8192x32768 .f32 := V c main_arg2
abbrev emA (c : Dev nD) : Vec F S32768x64 .f32 := V c main_v10
abbrev vmA (c : Dev nD) : Vec F S8192x64 .f32 := V c main_arg0
abbrev wtA (c : Dev nD) : Vec F S64x64 .f32 := V c main_v13
abbrev wbA (c : Dev nD) : Vec F S64x64 .f32 := V c main_v14
abbrev b1A (c : Dev nD) : Vec F S1x64 .f32 := V c main_v11
abbrev w2A (c : Dev nD) : Vec F S64x64 .f32 := V c main_arg11
abbrev b2A (c : Dev nD) : Vec F S1x64 .f32 := V c main_v12

abbrev adjB (c : Dev nD) (t : Fin cfg1.N) : Vec F S512x4096 .f32 := iblk1 V c 0 t
abbrev emB (c : Dev nD) (t : Fin cfg1.N) : Vec F S32768x64 .f32 := iblk1 V c 1 t
abbrev vmB (c : Dev nD) (t : Fin cfg1.N) : Vec F S512x64 .f32 := iblk1 V c 2 t
abbrev wtB (c : Dev nD) (t : Fin cfg1.N) : Vec F S64x64 .f32 := iblk1 V c 3 t
abbrev wbB (c : Dev nD) (t : Fin cfg1.N) : Vec F S64x64 .f32 := iblk1 V c 4 t
abbrev b1B (c : Dev nD) (t : Fin cfg1.N) : Vec F S1x64 .f32 := iblk1 V c 5 t
abbrev w2B (c : Dev nD) (t : Fin cfg1.N) : Vec F S64x64 .f32 := iblk1 V c 6 t
abbrev b2B (c : Dev nD) (t : Fin cfg1.N) : Vec F S1x64 .f32 := iblk1 V c 7 t

/-- The windows' block indices and the second grid coordinate, at every point: point t is row block t / 8 and
    column block t % 8. -/
theorem idx_facts : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 8 ∧ win1_8.index t (1 : Fin 2) = 0
    ∧ ((grid1.coords t) 1).val = t.val % 8 :=
  (by decide +kernel : ∀ t : Fin grid1.N, _)

/-- The adjacency block at point t: rows 512 (t / 8) .., columns 4096 (t % 8) .. -/
theorem adjB_apply (c : Dev nD) (t : Fin cfg1.N) (p : Fin 512) (j : Fin 4096) (r : Fin 8192) (hr : r.val = 512 * (t.val / 8) + p.val)
    (e : Fin 32768) (he : e.val = 4096 * (t.val % 8) + j.val) :
    adjB V c t (ix2 p j) = adjA V c (ix2 r e) := by
  obtain ⟨e0, e1, -⟩ := idx_facts t
  show V c main_arg2 (((cfg1.win 0).blk t).view.emb (ix2 p j)) = V c main_arg2 (ix2 r e)
  congr 1
  funext a; apply Fin.ext
  match a with
  | ⟨0, _⟩ => show win1_0.index t (0 : Fin 2) * 512 + 1 * p.val = r.val; rw [e0, hr]; omega
  | ⟨1, _⟩ => show win1_0.index t (1 : Fin 2) * 4096 + 1 * j.val = e.val; rw [e1, he]; omega

/-- The edge-feature window holds the whole array at every point. -/
theorem emB_eq (c : Dev nD) (t : Fin cfg1.N) : emB V c t = emA V c := by
  obtain ⟨-, -, e0, e1, -⟩ := idx_facts t
  funext y
  show V c main_v10 (((cfg1.win 1).blk t).view.emb y) = V c main_v10 y
  congr 1
  funext a; apply Fin.ext
  match a with
  | ⟨0, _⟩ => show win1_1.index t (0 : Fin 2) * 32768 + 1 * (y 0).val = (y 0).val; rw [e0]; omega
  | ⟨1, _⟩ => show win1_1.index t (1 : Fin 2) * 64 + 1 * (y 1).val = (y 1).val; rw [e1]; omega

/-- The node-feature block at point t: rows 512 (t / 8) .. -/
theorem vmB_apply (c : Dev nD) (t : Fin cfg1.N) (p : Fin 512) (a : Fin 64) (r : Fin 8192) (hr : r.val = 512 * (t.val / 8) + p.val) :
    vmB V c t (ix2 p a) = vmA V c (ix2 r a) := by
  obtain ⟨-, -, -, -, e0, e1, -⟩ := idx_facts t
  show V c main_arg0 (((cfg1.win 2).blk t).view.emb (ix2 p a)) = V c main_arg0 (ix2 r a)
  congr 1
  funext b; apply Fin.ext
  match b with
  | ⟨0, _⟩ => show win1_2.index t (0 : Fin 2) * 512 + 1 * p.val = r.val; rw [e0, hr]; omega
  | ⟨1, _⟩ => show win1_2.index t (1 : Fin 2) * 64 + 1 * a.val = a.val; rw [e1]; omega

theorem wtB_eq (c : Dev nD) (t : Fin cfg1.N) : wtB V c t = wtA V c := by
  obtain ⟨-, -, -, -, -, -, e0, e1, -⟩ := idx_facts t
  funext y
  show V c main_v13 (((cfg1.win 3).blk t).view.emb y) = V c main_v13 y
  congr 1
  funext a; apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem wbB_eq (c : Dev nD) (t : Fin cfg1.N) : wbB V c t = wbA V c := by
  obtain ⟨-, -, -, -, -, -, -, -, e0, e1, -⟩ := idx_facts t
  funext y
  show V c main_v14 (((cfg1.win 4).blk t).view.emb y) = V c main_v14 y
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem b1B_eq (c : Dev nD) (t : Fin cfg1.N) : b1B V c t = b1A V c := by
  obtain ⟨-, -, -, -, -, -, -, -, -, -, e0, e1, -⟩ := idx_facts t
  funext y
  show V c main_v11 (((cfg1.win 5).blk t).view.emb y) = V c main_v11 y
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

theorem w2B_eq (c : Dev nD) (t : Fin cfg1.N) : w2B V c t = w2A V c := by
  obtain ⟨-, -, -, -, -, -, -, -, -, -, -, -, e0, e1, -⟩ := idx_facts t
  funext y
  show V c main_arg11 (((cfg1.win 6).blk t).view.emb y) = V c main_arg11 y
  congr 1
  funext a; apply Fin.ext
  match a with
  | ⟨0, _⟩ => show win1_6.index t (0 : Fin 2) * 64 + 1 * (y 0).val = (y 0).val; rw [e0]; omega
  | ⟨1, _⟩ => show win1_6.index t (1 : Fin 2) * 64 + 1 * (y 1).val = (y 1).val; rw [e1]; omega

theorem b2B_eq (c : Dev nD) (t : Fin cfg1.N) : b2B V c t = b2A V c := by
  obtain ⟨-, -, -, -, -, -, -, -, -, -, -, -, -, -, e0, e1, -⟩ := idx_facts t
  funext y
  show V c main_v12 (((cfg1.win 7).blk t).view.emb y) = V c main_v12 y
  congr 1
  funext a; apply Fin.ext
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- The rows of the edge features the body loads at point t: 4096 (t % 8) .. -/
theorem chunk_apply (t : Fin cfg1.N) (x1 : Vec F S32768x64 .f32) (j : Fin 4096) (q : Fin 64)
    (e : Fin 32768) (he : e.val = 4096 * (t.val % 8) + j.val) :
    chunk (grid1.coords t) x1 (ix2 j q) = x1 (ix2 e q) := by
  have ek : ((grid1.coords t) 1).val = t.val % 8 := (idx_facts t).2.2.2.2.2.2.2.2.2.2.2.2.2.2.2.2.2.2
  show x1 _ = x1 (ix2 e q)
  congr 1
  funext a; apply Fin.ext
  match a with
  | ⟨0, _⟩ =>
    show k1_off1 (grid1.coords t) 0 + 1 * j.val = e.val
    rw [k1_off1_eq]
    show 4096 * ((grid1.coords t) 1).val + 1 * j.val = e.val
    rw [ek, he]; omega
  | ⟨1, _⟩ =>
    show k1_off1 (grid1.coords t) 1 + 1 * q.val = q.val
    rw [k1_off1_eq]
    show 0 + 1 * q.val = q.val
    omega

end Blocks

/-! ## The accumulator is the running sum of the chunks, and the stored block is the node update -/

/-- Chunk k of the messages node n receives at feature a: the edges 4096 k .. 4096 k + 4095 (zero past the eighth chunk). -/
def part (adj : Cert.Spec.SA.Idx → EReal) (em : Cert.Spec.SE.Idx → EReal) (n : Fin 8192) (a : Fin 64) (k : ℕ) : EReal :=
  if h : k < 8 then
    ∑ j : Fin 4096, adj (ix2 n (⟨4096 * k + j.val, by have := j.isLt; omega⟩ : Fin 32768))
      * em (ix2 (⟨4096 * k + j.val, by have := j.isLt; omega⟩ : Fin 32768) a)
  else 0

/-- The messages a node receives are the sum of their eight chunks. -/
theorem aggregate_eq_parts (adj : Cert.Spec.SA.Idx → EReal) (em : Cert.Spec.SE.Idx → EReal) (n : Fin 8192) (a : Fin 64) :
    Cert.Spec.aggregate adj em n a = ∑ k ∈ Finset.range 8, part adj em n a k := by
  unfold Cert.Spec.aggregate
  rw [sum_chunks, Finset.sum_range]
  refine Finset.sum_congr rfl fun k _ => ?_
  unfold part
  rw [dif_pos k.isLt]

section Invariant

variable (V : (c : Dev nD) → (b : Ref sig .tc) → Buf (Elt Ideal) ((c : Thread nD τ).loc b))

/-- What point t adds to the accumulator at (p, q): chunk t % 8 of the messages of node 512 (t / 8) + p. -/
theorem addend_eq (c : Dev nD) (t : Fin cfg1.N) (p : Fin 512) (q : Fin 64) (r : Fin 8192) (hr : r.val = 512 * (t.val / 8) + p.val) :
    ∑ j : Fin 4096, adjB V c t (ix2 p j) * chunk (grid1.coords t) (emB V c t) (ix2 j q)
      = part (adjA V c) (emA V c) r q (t.val % 8) := by
  unfold part
  rw [dif_pos (Nat.mod_lt _ (by decide))]
  refine Finset.sum_congr rfl fun j _ => ?_
  exact congrArg₂ (· * ·) (adjB_apply V c t p j r hr _ rfl)
    ((chunk_apply t (emB V c t) j q _ rfl).trans (congrFun (emB_eq V c t) _))

/-- Where k = 0 the accumulator is left at the first chunk. -/
theorem acc_first (c : Dev nD) (t : Fin cfg1.N) (h0 : t.val % 8 = 0) (p : Fin 512) (q : Fin 64) :
    (outsAt1 V c t.val t.isLt).2 (ix2 p q)
      = 0 + ∑ j : Fin 4096, adjB V c t (ix2 p j) * chunk (grid1.coords t) (emB V c t) (ix2 j q) := by
  have h1 : ¬t.val % 8 = 7 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) (ix2 p q)).trans ?_
  refine (k1_pay2_apply (adjB V c t) (chunk (grid1.coords t) (emB V c t)) (k1_pay1 (F := Ideal)) p q).trans ?_
  rw [k1_pay1_apply]

/-- Where k > 0 the accumulator is left at what the point before left plus this point's chunk. -/
theorem acc_step (c : Dev nD) (t : Fin cfg1.N) (h0 : ¬t.val % 8 = 0) (p : Fin 512) (q : Fin 64) :
    (outsAt1 V c t.val t.isLt).2 (ix2 p q)
      = (outsAt1 V c (t.val - 1) (Nat.lt_of_le_of_lt (Nat.sub_le _ _) t.isLt)).2 (ix2 p q)
        + ∑ j : Fin 4096, adjB V c t (ix2 p j) * chunk (grid1.coords t) (emB V c t) (ix2 j q) := by
  by_cases h1 : t.val % 8 = 7
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) (ix2 p q)).trans ?_
    exact k1_pay2_apply (adjB V c t) (chunk (grid1.coords t) (emB V c t)) (outsAt1 V c (t.val - 1) (Nat.lt_of_le_of_lt (Nat.sub_le _ _) t.isLt)).2 p q
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) (ix2 p q)).trans ?_
    exact k1_pay2_apply (adjB V c t) (chunk (grid1.coords t) (emB V c t)) (outsAt1 V c (t.val - 1) (Nat.lt_of_le_of_lt (Nat.sub_le _ _) t.isLt)).2 p q

/-- THE INVARIANT. After point n = 8 i + k the accumulator holds, at (p, q), the first k + 1 chunks of the messages of
    node 512 i + p. -/
theorem acc_eq (c : Dev nD) : ∀ (n : ℕ) (h : n < cfg1.N) (p : Fin 512) (q : Fin 64) (r : Fin 8192), r.val = 512 * (n / 8) + p.val →
    (outsAt1 V c n h).2 (ix2 p q) = ∑ k' ∈ Finset.range (n % 8 + 1), part (adjA V c) (emA V c) r q k' := by
  intro n
  induction n with
  | zero =>
    intro h p q r hr
    refine (acc_first V c ⟨0, h⟩ rfl p q).trans ?_
    rw [addend_eq V c ⟨0, h⟩ p q r hr, zero_add]
    exact (Finset.sum_range_one _).symm
  | succ n ih =>
    intro h p q r hr
    by_cases h0 : (n + 1) % 8 = 0
    · refine (acc_first V c ⟨n + 1, h⟩ h0 p q).trans ?_
      rw [addend_eq V c ⟨n + 1, h⟩ p q r hr, zero_add]
      show part (adjA V c) (emA V c) r q ((n + 1) % 8) = _
      rw [h0]
      exact (Finset.sum_range_one _).symm
    · have e8 : (n + 1) / 8 = n / 8 := by omega
      have em : (n + 1) % 8 = n % 8 + 1 := by omega
      refine (acc_step V c ⟨n + 1, h⟩ h0 p q).trans ?_
      rw [addend_eq V c ⟨n + 1, h⟩ p q r hr]
      show (outsAt1 V c n _).2 (ix2 p q) + part (adjA V c) (emA V c) r q ((n + 1) % 8) = _
      rw [ih _ p q r (by rw [hr, e8]), em, Finset.sum_range_succ _ (n % 8 + 1)]

/-- At the last point of a row block the finished accumulator holds the node's messages. -/
theorem acc_last (c : Dev nD) (t : Fin cfg1.N) (h7 : t.val % 8 = 7) (p : Fin 512) (a : Fin 64) (r : Fin 8192)
    (hr : r.val = 512 * (t.val / 8) + p.val) :
    k1_pay2 (adjB V c t) (chunk (grid1.coords t) (emB V c t)) (outsAt1 V c (t.val - 1) (Nat.lt_of_le_of_lt (Nat.sub_le _ _) t.isLt)).2 (ix2 p a)
      = Cert.Spec.aggregate (adjA V c) (emA V c) r a := by
  have h0 : ¬t.val % 8 = 0 := by omega
  refine (k1_pay2_apply (adjB V c t) (chunk (grid1.coords t) (emB V c t)) (outsAt1 V c (t.val - 1) (Nat.lt_of_le_of_lt (Nat.sub_le _ _) t.isLt)).2 p a).trans ?_
  refine (acc_step V c t h0 p a).symm.trans ?_
  rw [acc_eq V c t.val t.isLt p a r hr, h7, aggregate_eq_parts]

/-- The node update of the arrays the region is entered with. -/
abbrev nodeOut (c : Dev nD) : Vec Ideal S8192x64 .f32 :=
  Cert.Spec.nodeMlp (adjA V c) (emA V c) (vmA V c) (wtA V c) (wbA V c) (b1A V c) (w2A V c) (b2A V c)

/-- At the last point of a row block the stored output block is the node update's rows 512 (t / 8) .. -/
theorem out_last (c : Dev nD) (t : Fin cfg1.N) (h7 : t.val % 8 = 7) (p : Fin 512) (q : Fin 64) (r : Fin 8192)
    (hr : r.val = 512 * (t.val / 8) + p.val) :
    (outsAt1 V c t.val t.isLt).1 (ix2 p q) = nodeOut V c (ix2 r q) := by
  have h0 : ¬t.val % 8 = 0 := by omega
  have h1 : t.val % 8 = 7 := h7
  rw [outsAt1_C V c t h0 h1]
  dsimp only
  refine (congrFun (out1_C_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) (ix2 p q)).trans ?_
  refine (k1_pay3_apply (vmB V c t) (k1_pay2 (adjB V c t) (chunk (grid1.coords t) (emB V c t)) (outsAt1 V c (t.val - 1) (Nat.lt_of_le_of_lt (Nat.sub_le _ _) t.isLt)).2) (wtB V c t) (wbB V c t) (b1B V c t) (w2B V c t) (b2B V c t) p q).trans ?_
  show _ = (∑ k : Fin 64, max (Cert.Spec.nodeHidden (vmA V c) (fun i => Cert.Spec.aggregate (adjA V c) (emA V c) (i 0) (i 1)) (wtA V c) (wbA V c) (b1A V c) r k) 0 * w2A V c (ix2 k q)) + b2A V c (ix2 (0 : Fin 1) q)
  refine congrArg₂ (· + ·) (Finset.sum_congr rfl fun k _ => congrArg₂ (· * ·) (congrArg (max · 0) ?_) (congrFun (w2B_eq V c t) _)) (congrFun (b2B_eq V c t) _)
  unfold Cert.Spec.nodeHidden
  refine congrArg₂ (· + ·) (congrArg₂ (· + ·) (Finset.sum_congr rfl fun a _ => ?_) (Finset.sum_congr rfl fun a _ => ?_)) (congrFun (b1B_eq V c t) _)
  · exact congrArg₂ (· * ·) (vmB_apply V c t p a r hr) (congrFun (wtB_eq V c t) _)
  · exact congrArg₂ (· * ·) (acc_last V c t h7 p a r hr) (congrFun (wbB_eq V c t) _)

/-- WHAT THE LAST POINT OF A ROW BLOCK LEAVES in the output window's staging buffer: the block of the node update. -/
theorem after8_eq (c : Dev nD) (t : Fin cfg1.N) (h7 : t.val % 8 = 7) :
    (dat1 V c).after 8 t = ((cfg1.win 8).blk t).view.read (Elt Ideal) (nodeOut V c) := by
  rw [after1_8]
  funext y
  obtain ⟨p, q, rfl⟩ : ∃ (p : Fin 512) (q : Fin 64), y = ix2 p q := ⟨y 0, y 1, eq_ix2 y⟩
  have hN : t.val < 128 := lt_of_lt_of_eq t.isLt (show cfg1.N = 128 from N_1)
  have e0 : win1_8.index t (0 : Fin 2) = t.val / 8 := (idx_facts t).2.2.2.2.2.2.2.2.2.2.2.2.2.2.2.2.1
  have e1 : win1_8.index t (1 : Fin 2) = 0 := (idx_facts t).2.2.2.2.2.2.2.2.2.2.2.2.2.2.2.2.2.1
  refine (out_last V c t h7 p q ⟨512 * (t.val / 8) + p.val, by have := p.isLt; omega⟩ rfl).trans ?_
  show nodeOut V c _ = nodeOut V c (((cfg1.win 8).blk t).view.emb (ix2 p q))
  congr 1
  funext a; apply Fin.ext
  match a with
  | ⟨0, _⟩ => show 512 * (t.val / 8) + p.val = win1_8.index t (0 : Fin 2) * 512 + 1 * p.val; rw [e0]; omega
  | ⟨1, _⟩ => show q.val = win1_8.index t (1 : Fin 2) * 64 + 1 * q.val; rw [e1]; omega

end Invariant

end R1V

section Final

open R1V

variable (V : (c : Dev nD) → (b : Ref sig .tc) → Buf (Elt Ideal) ((c : Thread nD τ).loc b))

/-- WHAT THE LAST POINT OF A ROW BLOCK LEAVES in the output window's staging buffer is the block of the node update of
    the arrays the region is entered with: adjacency, new edge features, node features, the two halves of the first
    weight matrix, the first bias, the second weight matrix, the second bias. -/
theorem vmNew_block (c : Dev nD) (t : Fin cfg1.N) (h7 : t.val % 8 = 7) :
    (dat1 (F := Ideal) V c).after 8 t = ((cfg1.win 8).blk t).view.read (Elt Ideal)
      (Cert.Spec.nodeMlp (V c main_arg2) (V c main_v10) (V c main_arg0) (V c main_v13) (V c main_v14) (V c main_v11) (V c main_arg11) (V c main_v12)) :=
  after8_eq V c t h7

/-- THE OUTPUT ARRAY after the run of the region is the node update of the arrays the region is entered with. -/
theorem vmNew_final (c : Dev nD) :
    ((dat1 (F := Ideal) V c).arrAt 8 cfg1.N : S8192x64.Idx → EReal)
      = Cert.Spec.nodeMlp (V c main_arg2) (V c main_v10) (V c main_arg0) (V c main_v13) (V c main_v14) (V c main_v11) (V c main_arg11) (V c main_v12) :=
  vmNew_final_of V c _ (vmNew_block V c)

end Final

end Cert.KernelIdeal.Hand

end
-- ==== Proof.KI.HostValue.lean ====
import proofs.«407642_j41936060678384_3_alg».proof.Proof.Gen.KernelIdeal.Regions
import proofs.«407642_j41936060678384_3_alg».proof.Defs
import proofs.«407642_j41936060678384_3_alg».proof.Proof.Gen.Pre_finite_inputs
import proofs.«407642_j41936060678384_3_alg».proof.Proof.Spec
import Idealize.ShloMosaic.Lib.StableHlo.Run
import Idealize.ShloMosaic.Lib.StableHlo.Predicate
import Idealize.ShloMosaic.Lib.ReduceAll
import Idealize.ShloMosaic.Lib.ValueLayout
import Idealize.ShloMosaic.Lib.ValueIdx

/-!
# What the host operations hand the two pipelined calls

Before the edge update the host gathers, for every edge, the features of its source node and of its destination
node, narrows three edge-row arrays (the identity on extended reals), cuts the stacked first-layer weights into
their square blocks and turns the bias vectors into one-row matrices; before the node update it does the last two
again for the node update's parameters. Here each array a pipelined call reads is written as a function of the
launch contents, and the range condition on the endpoint indices is read off the precondition.
-/

-- an index into 32768 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## Region 0's entry: what the host operations before it leave

Between the launch and the first pipelined call the host gathers the endpoint rows, narrows three edge-row arrays
(the identity on extended reals), cuts the first layer's stacked weight matrix into its three square blocks and
turns the two bias vectors into one-row matrices. Nothing writes an argument. -/

theorem V4_v7_raw : (Gen.V4 m c main_v7 : S64x64.Idx → EReal)
    = extractStridedSlice S64x64 ![0, 0] (m ((c.tc : Thread nD τ).loc main_arg5) : S192x64.Idx → EReal) slices_S192x64_S64x64_0_0 := by
  show StableHlo.after hostOps0_3 _ (Proc.devRef .tc main_v7) = _
  after_results

theorem V4_v8_raw : (Gen.V4 m c main_v8 : S64x64.Idx → EReal)
    = extractStridedSlice S64x64 ![64, 0] (m ((c.tc : Thread nD τ).loc main_arg5) : S192x64.Idx → EReal) slices_S192x64_S64x64_64_0 := by
  show StableHlo.after hostOps0_3 _ (Proc.devRef .tc main_v8) = _
  after_results

theorem V4_v9_raw : (Gen.V4 m c main_v9 : S64x64.Idx → EReal)
    = extractStridedSlice S64x64 ![128, 0] (m ((c.tc : Thread nD τ).loc main_arg5) : S192x64.Idx → EReal) slices_S192x64_S64x64_128_0 := by
  show StableHlo.after hostOps0_3 _ (Proc.devRef .tc main_v9) = _
  after_results

/-- The first square block of the edge update's stacked weights. -/
theorem V4_v7 : (Gen.V4 m c main_v7 : S64x64.Idx → EReal) = Cert.Spec.rows3 0 (m ((c.tc : Thread nD τ).loc main_arg5)) := by
  rw [V4_v7_raw]
  funext j
  obtain ⟨p, q, rfl⟩ : ∃ (p : Fin 64) (q : Fin 64), j = ix2 p q := ⟨j 0, j 1, eq_ix2 j⟩
  refine (slice2_axis0_apply 0 _ _ p q ⟨64 * (0 : Fin 3).val + p.val, by omega⟩ (by simp)).trans ?_
  rfl

/-- The second square block of the edge update's stacked weights. -/
theorem V4_v8 : (Gen.V4 m c main_v8 : S64x64.Idx → EReal) = Cert.Spec.rows3 1 (m ((c.tc : Thread nD τ).loc main_arg5)) := by
  rw [V4_v8_raw]
  funext j
  obtain ⟨p, q, rfl⟩ : ∃ (p : Fin 64) (q : Fin 64), j = ix2 p q := ⟨j 0, j 1, eq_ix2 j⟩
  refine (slice2_axis0_apply 64 _ _ p q ⟨64 * (1 : Fin 3).val + p.val, by omega⟩ (by simp)).trans ?_
  rfl

/-- The third square block of the edge update's stacked weights. -/
theorem V4_v9 : (Gen.V4 m c main_v9 : S64x64.Idx → EReal) = Cert.Spec.rows3 2 (m ((c.tc : Thread nD τ).loc main_arg5)) := by
  rw [V4_v9_raw]
  funext j
  obtain ⟨p, q, rfl⟩ : ∃ (p : Fin 64) (q : Fin 64), j = ix2 p q := ⟨j 0, j 1, eq_ix2 j⟩
  refine (slice2_axis0_apply 128 _ _ p q ⟨64 * (2 : Fin 3).val + p.val, by omega⟩ (by simp)).trans ?_
  rfl

theorem V4_v5_raw : (Gen.V4 m c main_v5 : S1x64.Idx → EReal)
    = shapeCast S1x64 (m ((c.tc : Thread nD τ).loc main_arg6) : S64.Idx → EReal) shapeCasts_S64_S1x64 := by
  show StableHlo.after hostOps0_3 _ (Proc.devRef .tc main_v5) = _
  after_results
  rfl

theorem V4_v6_raw : (Gen.V4 m c main_v6 : S1x64.Idx → EReal)
    = shapeCast S1x64 (m ((c.tc : Thread nD τ).loc main_arg8) : S64.Idx → EReal) shapeCasts_S64_S1x64 := by
  show StableHlo.after hostOps0_3 _ (Proc.devRef .tc main_v6) = _
  after_results
  rfl

/-- A vector cast to a one-row matrix is that row. -/
theorem shapeCast_biasRow (b : S64.Idx → EReal) : shapeCast S1x64 b shapeCasts_S64_S1x64 = Cert.Spec.biasRow b := by
  funext j
  obtain ⟨p, q, rfl⟩ : ∃ (p : Fin 1) (q : Fin 64), j = ix2 p q := ⟨j 0, j 1, eq_ix2 j⟩
  refine (shapeCast_a_1a_apply _ _ p q).trans ?_
  rfl

/-- The edge update's first bias as a one-row matrix. -/
theorem V4_v5 : (Gen.V4 m c main_v5 : S1x64.Idx → EReal) = Cert.Spec.biasRow (m ((c.tc : Thread nD τ).loc main_arg6)) := by
  rw [V4_v5_raw, shapeCast_biasRow]

/-- The edge update's second bias as a one-row matrix. -/
theorem V4_v6 : (Gen.V4 m c main_v6 : S1x64.Idx → EReal) = Cert.Spec.biasRow (m ((c.tc : Thread nD τ).loc main_arg8)) := by
  rw [V4_v6_raw, shapeCast_biasRow]

/-- The edge features, narrowed: unchanged as extended reals. -/
theorem V4_v4 : (Gen.V4 m c main_v4 : S32768x64.Idx → EReal) = m ((c.tc : Thread nD τ).loc main_arg1) := by
  show StableHlo.after hostOps0_3 _ (Proc.devRef .tc main_v4) = _
  after_results
  rfl

/-- The edge update's second weight matrix is an argument: as launched. -/
theorem V4_a7 : Gen.V4 m c main_arg7 = m ((c.tc : Thread nD τ).loc main_arg7) :=
  (V4_of m c main_arg7 (by decide)).trans <| (V3_of m c main_arg7 (by decide)).trans <| (V2_of m c main_arg7 (by decide)).trans <| (V1_of m c main_arg7 (by decide)).trans rfl

/-! ## Region 1's entry: the host stretch between the two calls, from any contents -/

section Region1
variable (W : Valuation τ sig (Elt Ideal))

theorem after1_v13_raw : (StableHlo.after hostOps1 W (Proc.devRef .tc main_v13) : S64x64.Idx → EReal)
    = extractStridedSlice S64x64 ![0, 0] (W (Proc.devRef .tc main_arg9) : S128x64.Idx → EReal) slices_S128x64_S64x64_0_0 := by
  after_results

theorem after1_v14_raw : (StableHlo.after hostOps1 W (Proc.devRef .tc main_v14) : S64x64.Idx → EReal)
    = extractStridedSlice S64x64 ![64, 0] (W (Proc.devRef .tc main_arg9) : S128x64.Idx → EReal) slices_S128x64_S64x64_64_0 := by
  after_results

theorem after1_v11_raw : (StableHlo.after hostOps1 W (Proc.devRef .tc main_v11) : S1x64.Idx → EReal)
    = shapeCast S1x64 (W (Proc.devRef .tc main_arg10) : S64.Idx → EReal) shapeCasts_S64_S1x64 := by
  after_results
  rfl

theorem after1_v12_raw : (StableHlo.after hostOps1 W (Proc.devRef .tc main_v12) : S1x64.Idx → EReal)
    = shapeCast S1x64 (W (Proc.devRef .tc main_arg12) : S64.Idx → EReal) shapeCasts_S64_S1x64 := by
  after_results
  rfl

/-- The upper square block of the node update's stacked weights. -/
theorem after1_v13 : (StableHlo.after hostOps1 W (Proc.devRef .tc main_v13) : S64x64.Idx → EReal)
    = Cert.Spec.rows2 0 (W (Proc.devRef .tc main_arg9)) := by
  rw [after1_v13_raw]
  funext j
  obtain ⟨p, q, rfl⟩ : ∃ (p : Fin 64) (q : Fin 64), j = ix2 p q := ⟨j 0, j 1, eq_ix2 j⟩
  refine (slice2_axis0_apply 0 _ _ p q ⟨64 * (0 : Fin 2).val + p.val, by omega⟩ (by simp)).trans ?_
  rfl

/-- The lower square block of the node update's stacked weights. -/
theorem after1_v14 : (StableHlo.after hostOps1 W (Proc.devRef .tc main_v14) : S64x64.Idx → EReal)
    = Cert.Spec.rows2 1 (W (Proc.devRef .tc main_arg9)) := by
  rw [after1_v14_raw]
  funext j
  obtain ⟨p, q, rfl⟩ : ∃ (p : Fin 64) (q : Fin 64), j = ix2 p q := ⟨j 0, j 1, eq_ix2 j⟩
  refine (slice2_axis0_apply 64 _ _ p q ⟨64 * (1 : Fin 2).val + p.val, by omega⟩ (by simp)).trans ?_
  rfl

/-- The node update's first bias as a one-row matrix. -/
theorem after1_v11 : (StableHlo.after hostOps1 W (Proc.devRef .tc main_v11) : S1x64.Idx → EReal)
    = Cert.Spec.biasRow (W (Proc.devRef .tc main_arg10)) := by
  rw [after1_v11_raw, shapeCast_biasRow]

/-- The node update's second bias as a one-row matrix. -/
theorem after1_v12 : (StableHlo.after hostOps1 W (Proc.devRef .tc main_v12) : S1x64.Idx → EReal)
    = Cert.Spec.biasRow (W (Proc.devRef .tc main_arg12)) := by
  rw [after1_v12_raw, shapeCast_biasRow]

end Region1

/-! ## The endpoint gather

The row gather of the node features at an index array wraps a negative index once by the number of nodes, gathers the
rows, and keeps a gathered row only where the wrapped index lies in `0 … 8191` (else a not-a-number fill). For
indices in `-8192 … 8191` the wrapped index always lies there, so the result is the gather itself. -/

/-- The gather of the endpoint rows over its own index computation: a negative index wrapped by 8192, as a column. -/
abbrev endpointRowsK (x0 : FVec Ideal S8192x64 .f32) (x3 : IVec S32768 32) : FVec Ideal S32768x64 .f32 :=
  Host.gather gather_S8192x64_S32768x1_S32768x64_1_0_n_n_0_1_164 x0
    (broadcastInDim S32768x1 ![0] bcast_S32768_S32768x1_0
      (select (cmpi .slt x3 (broadcastInDim S32768 ![] bcast_S_S32768 (constantI S_ 32 0#32)))
        (addi x3 (broadcastInDim S32768 ![] bcast_S_S32768 (constantI S_ 32 8192#32))) x3))

/-- Every index lies in `-8192 … 8191`. -/
def InRange (x : IVec S32768 32) : Prop := ∀ e : S32768.Idx, (-8192 : ℤ) ≤ (x e).toInt ∧ (x e).toInt < 8192

/-- The column of wrapped indices. -/
abbrev wrapCol (x3 : IVec S32768 32) : IVec S32768x1 32 :=
  broadcastInDim S32768x1 ![0] bcast_S32768_S32768x1_0
    (select (cmpi .slt x3 (broadcastInDim S32768 ![] bcast_S_S32768 (constantI S_ 32 0#32)))
      (addi x3 (broadcastInDim S32768 ![] bcast_S_S32768 (constantI S_ 32 8192#32))) x3)

/-- Where the wrapped index lies in `0 … 8191`, per edge. -/
abbrev takeMask (x3 : IVec S32768 32) : IVec S32768 1 :=
  Host.reduce IntOp.andi
    (andi (cmpi .sge (wrapCol x3) (broadcastInDim S32768x1 ![] bcast_S_S32768x1 (constantI S_ 32 0#32)))
      (cmpi .sle (wrapCol x3) (broadcastInDim S32768x1 ![0, 1] bcast_S1x1_S32768x1_0_1
        (broadcastInDim S1x1 ![1] bcast_S1_S1x1_1 (constantI S1 32 8191#32)))))
    (constantI S_ 1 1#1) reducesTo_S32768x1_S32768_d1 h_S_

/-- What the row gather leaves in its result: the gathered rows where the mask holds, the fill elsewhere. -/
abbrev takeVal (x0 : FVec Ideal S8192x64 .f32) (x3 : IVec S32768 32) : FVec Ideal S32768x64 .f32 :=
  select (broadcastInDim S32768x64 ![0] bcast_S32768_S32768x64_0 (takeMask x3)) (endpointRowsK x0 x3)
    (broadcastInDim S32768x64 ![] bcast_S_S32768x64 (constant (F := Ideal) S_ .f32 0x7FC00000#32))

/-- A left fold by `and` from 1 over 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl =>
    foldl_andi_one f l _ (IntOp.andi_eq_one.2 ⟨h, hl a List.mem_cons_self⟩) (fun n hn => hl n (List.mem_cons_of_mem _ hn))

/-- A reduction by `and` from 1 is 1 where every operand element reducing there is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_one x _ _ hinit (fun i hi => hx i ?_)
  have := (List.mem_filter.1 hi).2
  simpa using this

/-- A word in `-8192 … 8191`, wrapped by 8192 when negative, lies in `0 … 8191`. -/
theorem wrap_inBounds (x : BitVec 32) (h : (-8192 : ℤ) ≤ x.toInt ∧ x.toInt < 8192) :
    IntOp.andi
      (IntOp.cmpi .sge (Scalar.select (IntOp.cmpi .slt x 0#32) (IntOp.addi x 8192#32) x) 0#32)
      (IntOp.cmpi .sle (Scalar.select (IntOp.cmpi .slt x 0#32) (IntOp.addi x 8192#32) x) 8191#32) = 1#1 := by
  have h0 : (0#32 : BitVec 32).toInt = 0 := by decide
  have h1 : (8191#32 : BitVec 32).toInt = 8191 := by decide
  have h2 : (8192#32 : BitVec 32).toInt = 8192 := by decide
  by_cases hneg : x.toInt < 0
  · have hc : IntOp.cmpi .slt x 0#32 = 1#1 := IntOp.cmpi_slt.2 (by rw [h0]; exact hneg)
    rw [hc, select_one]
    have hs : (IntOp.addi x 8192#32).toInt = x.toInt + 8192 := by
      show (x + 8192#32).toInt = _
      rw [BitVec.toInt_add, h2]
      exact Int.bmod_eq_of_le_mul_two (by omega) (by omega)
    refine IntOp.andi_eq_one.2 ⟨IntOp.cmpi_sge.2 ?_, IntOp.cmpi_sle.2 ?_⟩
    · rw [h0, hs]; omega
    · rw [h1, hs]; omega
  · have hc : IntOp.cmpi .slt x 0#32 = 0#1 := eq_zero_of_ne_one (fun hc => hneg (by have := IntOp.cmpi_slt.1 hc; rwa [h0] at this))
    rw [hc, select_zero]
    refine IntOp.andi_eq_one.2 ⟨IntOp.cmpi_sge.2 ?_, IntOp.cmpi_sle.2 ?_⟩
    · rw [h0]; omega
    · rw [h1]; omega

/-- For indices in range the mask holds at every edge. -/
theorem takeMask_one (x3 : IVec S32768 32) (h : InRange x3) (e : S32768.Idx) : takeMask x3 e = 1#1 := by
  unfold takeMask
  apply reduce_andi_one
  · rfl
  · intro i _
    exact wrap_inBounds _ (h _)

/-- For indices in range the masked gather is the gather of the rows. -/
theorem take_eq (x0 : FVec Ideal S8192x64 .f32) (x3 : IVec S32768 32) (h : InRange x3) : takeVal x0 x3 = endpointRowsK x0 x3 := by
  funext j
  have hm : broadcastInDim S32768x64 ![0] bcast_S32768_S32768x64_0 (takeMask x3) j = 1#1 := takeMask_one x3 h _
  unfold takeVal
  rw [select_apply, hm, select_one]

/-! ## The gathered endpoint rows as region 0 finds them

Each host stretch is read from arbitrary contents `W` before it; the stretches are then chained from the launch. -/

section Stretches
variable (W : Valuation τ sig (Elt Ideal))

/-- The first row gather leaves its value over the node features and the source indices it finds. -/
theorem after0_v0 : (StableHlo.after hostOps0 W (Proc.devRef .tc main_v0) : S32768x64.Idx → EReal)
    = takeVal (W (Proc.devRef .tc main_arg0)) (W (Proc.devRef .tc main_arg3)) := by
  after_results_simp
  simp only [StableHlo.TRef.ofBuf, StableHlo.TRef.toBuf, cast_eq]

/-- Narrowing the first row gather's result leaves it as it was. -/
theorem after01_v1 : (StableHlo.after hostOps0_1 W (Proc.devRef .tc main_v1) : S32768x64.Idx → EReal)
    = (W (Proc.devRef .tc main_v0) : S32768x64.Idx → EReal) := by
  after_results
  rfl

/-- The second row gather leaves its value over the node features and the destination indices it finds. -/
theorem after02_v2 : (StableHlo.after hostOps0_2 W (Proc.devRef .tc main_v2) : S32768x64.Idx → EReal)
    = takeVal (W (Proc.devRef .tc main_arg0)) (W (Proc.devRef .tc main_arg4)) := by
  after_results_simp
  simp only [StableHlo.TRef.ofBuf, StableHlo.TRef.toBuf, cast_eq]

/-- Narrowing the second row gather's result leaves it as it was. -/
theorem after03_v3 : (StableHlo.after hostOps0_3 W (Proc.devRef .tc main_v3) : S32768x64.Idx → EReal)
    = (W (Proc.devRef .tc main_v2) : S32768x64.Idx → EReal) := by
  after_results
  rfl

end Stretches

theorem V2_a0 : Gen.V2 m c main_arg0 = m ((c.tc : Thread nD τ).loc main_arg0) :=
  (V2_of m c main_arg0 (by decide)).trans <| (V1_of m c main_arg0 (by decide)).trans rfl
theorem V2_a4 : Gen.V2 m c main_arg4 = m ((c.tc : Thread nD τ).loc main_arg4) :=
  (V2_of m c main_arg4 (by decide)).trans <| (V1_of m c main_arg4 (by decide)).trans rfl

/-- Region 0 finds, as the source rows, the gather of the node features at the source indices. -/
theorem V4_v1 (h : InRange (m ((c.tc : Thread nD τ).loc main_arg3))) : (Gen.V4 m c main_v1 : S32768x64.Idx → EReal)
    = endpointRowsK (m ((c.tc : Thread nD τ).loc main_arg0)) (m ((c.tc : Thread nD τ).loc main_arg3)) := by
  have e : Gen.V4 m c main_v1 = Gen.V2 m c main_v1 := (V4_of m c main_v1 (by decide)).trans (V3_of m c main_v1 (by decide))
  rw [e]
  refine (after01_v1 (Gen.V1 m c)).trans ?_
  refine (after0_v0 (Gen.V0 m c)).trans ?_
  exact take_eq _ _ h

/-- Region 0 finds, as the destination rows, the gather of the node features at the destination indices. -/
theorem V4_v3 (h : InRange (m ((c.tc : Thread nD τ).loc main_arg4))) : (Gen.V4 m c main_v3 : S32768x64.Idx → EReal)
    = endpointRowsK (m ((c.tc : Thread nD τ).loc main_arg0)) (m ((c.tc : Thread nD τ).loc main_arg4)) := by
  refine (after03_v3 (Gen.V3 m c)).trans ?_
  refine (after02_v2 (Gen.V2 m c)).trans ?_
  have e0 := V2_a0 m c
  have e4 := V2_a4 m c
  rw [show (Gen.V2 m c (Proc.devRef .tc main_arg0)) = m ((c.tc : Thread nD τ).loc main_arg0) from e0,
    show (Gen.V2 m c (Proc.devRef .tc main_arg4)) = m ((c.tc : Thread nD τ).loc main_arg4) from e4]
  exact take_eq _ _ h

/-! ## The range of the endpoint indices, read off the precondition

The precondition is a conjunction of tests that every element of an array satisfies a condition, printed as a chain of `and`s over reductions by `and`; its
last two conjuncts say that every source index and every destination index lies in `-8192 … 8191`. -/

instance : Subsingleton S_.Idx := ⟨fun a b => funext fun d => d.elim0⟩

/-- A test that every element of `x` lies in `-8192 … 8191`, when it came out 1, puts every element of `x` in range. -/
theorem inRange_of_all (x : IVec S32768 32) (init : IVec S_ 1) (hr : S32768.ReducesTo [0] S_) (hu : 0 < S_.numel)
    (hb : S_.BroadcastsInDim S32768 (![] : Fin 0 → Fin S32768.rank))
    (h : Host.reduce IntOp.andi
      (andi (cmpi .sge x (broadcastInDim S32768 ![] hb (constantI S_ 32 4294959104#32)))
        (cmpi .slt x (broadcastInDim S32768 ![] hb (constantI S_ 32 8192#32)))) init hr hu ix0 = 1#1) : InRange x := by
  intro e
  have he := Host.reduce_andi_all _ _ _ _ _ h e
  obtain ⟨hge, hlt⟩ := IntOp.andi_eq_one.1 (show IntOp.andi _ _ = 1#1 from he)
  have h1 : (4294959104#32 : BitVec 32).toInt ≤ (x e).toInt := IntOp.cmpi_sge.1 hge
  have h2 : (x e).toInt < (8192#32 : BitVec 32).toInt := IntOp.cmpi_slt.1 hlt
  have e1 : (4294959104#32 : BitVec 32).toInt = -8192 := by decide
  have e2 : (8192#32 : BitVec 32).toInt = 8192 := by decide
  rw [e1] at h1
  rw [e2] at h2
  exact ⟨h1, h2⟩

/-- Under the precondition the source indices and the destination indices are in range. -/
theorem inRange_of_pre (h : Cert.Pre_KernelIdeal m) (c : Dev nD) :
    InRange (m ((c.tc : Thread nD τ).loc main_arg3)) ∧ InRange (m ((c.tc : Thread nD τ).loc main_arg4)) := by
  have h0 := congrFun (h c) ix0
  obtain ⟨h60, h66⟩ := IntOp.andi_eq_one.1 (show IntOp.andi _ _ = 1#1 from h0)
  obtain ⟨h53, h59⟩ := IntOp.andi_eq_one.1 (show IntOp.andi _ _ = 1#1 from h60)
  exact ⟨inRange_of_all _ _ _ _ _ h59, inRange_of_all _ _ _ _ _ h66⟩

end Cert.KernelIdeal.Hand

end
-- ==== Proof.RefGen.lean ====
/- The reference's run and its read-at-an-index lemmas, gathered for the modules that compare the two programs. -/
import proofs.«407642_j41936060678384_3_alg».proof.Proof.Gen.ReferenceIdeal.Run
import proofs.«407642_j41936060678384_3_alg».proof.Proof.Gen.ReferenceIdeal.Read
-- ==== Proof.RefValue.lean ====
/-
  The reference program computes the specification's two maps.

  The reference lays the edge features and the two endpoint rows side by side (192 columns) and contracts them against
  the 192-row first weight matrix; the specification contracts each of the three 64-column pieces against its own
  64-row block and adds the three sums. A finite sum over 192 = 64 + 64 + 64 positions is the sum of the three sums
  over its thirds, so the two hidden layers agree entry by entry; the rectifier, the second layer and the biases are
  the same expressions on both sides. The node update is the same argument with two pieces (128 = 64 + 64), its
  second piece being the adjacency contracted against the new edge features.

  Only re-indexing and re-grouping of finite sums is used; no product is distributed over a sum.
-/
import proofs.«407642_j41936060678384_3_alg».proof.Proof.RefGen
import proofs.«407642_j41936060678384_3_alg».proof.Proof.Spec
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Spec

/-! ## Splitting a finite sum into equal consecutive blocks -/

/-- Position `a` of block `o` among three blocks of 64. -/
abbrev blk3 (o : Fin 3) (a : Fin 64) : Fin 192 := ⟨64 * o.val + a.val, by omega⟩
/-- Position `a` of block `o` among two blocks of 64. -/
abbrev blk2 (o : Fin 2) (a : Fin 64) : Fin 128 := ⟨64 * o.val + a.val, by omega⟩

/-- A sum over 128 positions is the sum over the first 64 plus the sum over the last 64. -/
theorem sum_blk2 {M : Type*} [AddCommMonoid M] (f : Fin 128 → M) :
    ∑ q : Fin 128, f q = (∑ a : Fin 64, f (blk2 0 a)) + ∑ a : Fin 64, f (blk2 1 a) := by
  refine (Fin.sum_univ_add (a := 64) (b := 64) f).trans ?_
  refine congrArg₂ (· + ·) (Finset.sum_congr rfl fun a _ => congrArg f (Fin.ext ?_))
    (Finset.sum_congr rfl fun a _ => congrArg f (Fin.ext ?_))
  · show a.val = 64 * 0 + a.val
    omega
  · show 64 + a.val = 64 * 1 + a.val
    omega

/-- A sum over 192 positions is the sum of the three sums over its consecutive thirds. -/
theorem sum_blk3 {M : Type*} [AddCommMonoid M] (f : Fin 192 → M) :
    ∑ q : Fin 192, f q = ((∑ a : Fin 64, f (blk3 0 a)) + ∑ a : Fin 64, f (blk3 1 a)) + ∑ a : Fin 64, f (blk3 2 a) := by
  refine (Fin.sum_univ_add (a := 128) (b := 64) f).trans ?_
  refine congrArg₂ (· + ·) ?_ (Finset.sum_congr rfl fun a _ => congrArg f (Fin.ext ?_))
  · refine (sum_blk2 fun q : Fin 128 => f (Fin.castAdd 64 q)).trans ?_
    refine congrArg₂ (· + ·) (Finset.sum_congr rfl fun a _ => congrArg f (Fin.ext ?_))
      (Finset.sum_congr rfl fun a _ => congrArg f (Fin.ext ?_))
    · show 64 * 0 + a.val = 64 * 0 + a.val
      rfl
    · show 64 * 1 + a.val = 64 * 1 + a.val
      rfl
  · show 128 + a.val = 64 * 2 + a.val
    omega

/-! ## The reference's endpoint rows and its side-by-side layouts -/

/-- Rows of the node features at the edge endpoints, a negative endpoint counted back from the number of nodes: the
    reference's own gather expression, kept as one array of 32768 rows. -/
abbrev endpointRows (x0 : FVec Ideal S8192x64 .f32) (x3 : IVec S32768 32) : FVec Ideal S32768x64 .f32 :=
  Host.gather gather_S8192x64_S32768x1_S32768x64_1_0_n_n_0_1_164 x0 (broadcastInDim S32768x1 ![0] bcast_S32768_S32768x1_0 (select (cmpi .slt x3 (broadcastInDim S32768 ![] bcast_S_S32768 (constantI S_ 32 0#32))) (addi x3 (broadcastInDim S32768 ![] bcast_S_S32768 (constantI S_ 32 8192#32))) x3))

/-- The reference's source-endpoint rows are this array. -/
theorem endpointRows_src (x0 : FVec Ideal S8192x64 .f32) (x3 : IVec S32768 32) :
    val_main_v6 (F := Ideal) x0 x3 = endpointRows x0 x3 := rfl

/-- The reference's destination-endpoint rows are this array. -/
theorem endpointRows_dst (x0 : FVec Ideal S8192x64 .f32) (x4 : IVec S32768 32) :
    val_main_v13 (F := Ideal) x0 x4 = endpointRows x0 x4 := rfl

/-- Three arrays of 64 columns laid side by side, read in the first third: the first array. -/
theorem cat3_0 (xa xb xc : S32768x64.Idx → EReal) (e : Fin 32768) (a : Fin 64) :
    concatenate S32768x192 1 [⟨S32768x64, xa⟩, ⟨S32768x64, xb⟩, ⟨S32768x64, xc⟩]
      concatenates_S32768x64_S32768x64_S32768x64_S32768x192_d1 (ix2 e (blk3 0 a)) = xa (ix2 e a) :=
  concatenate_apply_piece 1 _ _ (ix2 e (blk3 0 a)) 0 (by simp) S32768x64 xa rfl rfl 0 rfl (ix2 e a)
    (fun b hb => by match b with
      | ⟨0, _⟩ => rfl
      | ⟨1, _⟩ => exact absurd rfl hb)
    (by show 0 + a.val = 64 * 0 + a.val; omega)

/-- Three arrays of 64 columns laid side by side, read in the middle third: the second array. -/
theorem cat3_1 (xa xb xc : S32768x64.Idx → EReal) (e : Fin 32768) (a : Fin 64) :
    concatenate S32768x192 1 [⟨S32768x64, xa⟩, ⟨S32768x64, xb⟩, ⟨S32768x64, xc⟩]
      concatenates_S32768x64_S32768x64_S32768x64_S32768x192_d1 (ix2 e (blk3 1 a)) = xb (ix2 e a) :=
  concatenate_apply_piece 1 _ _ (ix2 e (blk3 1 a)) 1 (by simp) S32768x64 xb rfl rfl 64 rfl (ix2 e a)
    (fun b hb => by match b with
      | ⟨0, _⟩ => rfl
      | ⟨1, _⟩ => exact absurd rfl hb)
    (by show 64 + a.val = 64 * 1 + a.val; omega)

/-- Three arrays of 64 columns laid side by side, read in the last third: the third array. -/
theorem cat3_2 (xa xb xc : S32768x64.Idx → EReal) (e : Fin 32768) (a : Fin 64) :
    concatenate S32768x192 1 [⟨S32768x64, xa⟩, ⟨S32768x64, xb⟩, ⟨S32768x64, xc⟩]
      concatenates_S32768x64_S32768x64_S32768x64_S32768x192_d1 (ix2 e (blk3 2 a)) = xc (ix2 e a) :=
  concatenate_apply_piece 1 _ _ (ix2 e (blk3 2 a)) 2 (by simp) S32768x64 xc rfl rfl 128 rfl (ix2 e a)
    (fun b hb => by match b with
      | ⟨0, _⟩ => rfl
      | ⟨1, _⟩ => exact absurd rfl hb)
    (by show 128 + a.val = 64 * 2 + a.val; omega)

/-- Two arrays of 64 columns laid side by side, read in the first half: the first array. -/
theorem cat2_0 (xa xb : S8192x64.Idx → EReal) (n : Fin 8192) (a : Fin 64) :
    concatenate S8192x128 1 [⟨S8192x64, xa⟩, ⟨S8192x64, xb⟩]
      concatenates_S8192x64_S8192x64_S8192x128_d1 (ix2 n (blk2 0 a)) = xa (ix2 n a) :=
  concatenate_apply_piece 1 _ _ (ix2 n (blk2 0 a)) 0 (by simp) S8192x64 xa rfl rfl 0 rfl (ix2 n a)
    (fun b hb => by match b with
      | ⟨0, _⟩ => rfl
      | ⟨1, _⟩ => exact absurd rfl hb)
    (by show 0 + a.val = 64 * 0 + a.val; omega)

/-- Two arrays of 64 columns laid side by side, read in the second half: the second array. -/
theorem cat2_1 (xa xb : S8192x64.Idx → EReal) (n : Fin 8192) (a : Fin 64) :
    concatenate S8192x128 1 [⟨S8192x64, xa⟩, ⟨S8192x64, xb⟩]
      concatenates_S8192x64_S8192x64_S8192x128_d1 (ix2 n (blk2 1 a)) = xb (ix2 n a) :=
  concatenate_apply_piece 1 _ _ (ix2 n (blk2 1 a)) 1 (by simp) S8192x64 xb rfl rfl 64 rfl (ix2 n a)
    (fun b hb => by match b with
      | ⟨0, _⟩ => rfl
      | ⟨1, _⟩ => exact absurd rfl hb)
    (by show 64 + a.val = 64 * 1 + a.val; omega)

/-! ## The reference's index functions, at an index given by its coordinates -/

theorem lidx15 (e : Fin 32768) (k : Fin 64) (q : Fin 192) : lidx_main_v15 (ix2 e k) q = ix2 e q := by
  funext a; match a with | ⟨0, _⟩ => rfl | ⟨1, _⟩ => rfl
theorem ridx15 (e : Fin 32768) (k : Fin 64) (q : Fin 192) : ridx_main_v15 (ix2 e k) q = ix2 q k := by
  funext a; match a with | ⟨0, _⟩ => rfl | ⟨1, _⟩ => rfl
theorem lidx20 (e : Fin 32768) (j k : Fin 64) : lidx_main_v20 (ix2 e j) k = ix2 e k := by
  funext a; match a with | ⟨0, _⟩ => rfl | ⟨1, _⟩ => rfl
theorem ridx20 (e : Fin 32768) (j k : Fin 64) : ridx_main_v20 (ix2 e j) k = ix2 k j := by
  funext a; match a with | ⟨0, _⟩ => rfl | ⟨1, _⟩ => rfl

/-- The first bias of the edge update, spread over the edges, at an index: the bias at the column. -/
theorem bias17 (x6 : FVec Ideal S64 .f32) (e : Fin 32768) (k : Fin 64) :
    val_main_v17 (F := Ideal) x6 (ix2 e k) = x6 (ix1 k) := by
  rw [val_main_v17_apply, val_main_v16_apply]
  refine congrArg x6 ?_
  funext a; match a with | ⟨0, _⟩ => rfl

/-- The second bias of the edge update, spread over the edges, at an index: the bias at the column. -/
theorem bias22 (x8 : FVec Ideal S64 .f32) (e : Fin 32768) (j : Fin 64) :
    val_main_v22 (F := Ideal) x8 (ix2 e j) = x8 (ix1 j) := by
  rw [val_main_v22_apply, val_main_v21_apply]
  refine congrArg x8 ?_
  funext a; match a with | ⟨0, _⟩ => rfl

/-- The rectifier's zero array of the edge update is the extended real zero everywhere. -/
theorem zero_call0 (i : S32768x64.Idx) : (val_main_call0_v0 (F := Ideal) i : EReal) = 0 := by
  rw [val_main_call0_v0_apply, val_main_call0_cst_apply]
  exact Ideal.ofBits_zero_f32

/-! ## The edge update -/

/-- The reference's hidden layer of the edge update before its rectifier is the specification's. -/
theorem hidden_eq (x0 : FVec Ideal S8192x64 .f32) (x1 : FVec Ideal S32768x64 .f32) (x3 x4 : IVec S32768 32)
    (x5 : FVec Ideal S192x64 .f32) (x6 : FVec Ideal S64 .f32) (e : Fin 32768) (k : Fin 64) :
    val_main_v18 (F := Ideal) x0 x1 x3 x4 x5 x6 (ix2 e k)
      = edgeHidden x1 (endpointRows x0 x3) (endpointRows x0 x4) (rows3 0 x5) (rows3 1 x5) (rows3 2 x5) (biasRow x6) e k := by
  rw [val_main_v18_apply, val_main_v15_apply, bias17, sum_blk3]
  show _ = (((∑ a : Fin 64, x1 (ix2 e a) * x5 (ix2 (blk3 0 a) k))
      + (∑ a : Fin 64, endpointRows x0 x3 (ix2 e a) * x5 (ix2 (blk3 1 a) k)))
      + (∑ a : Fin 64, endpointRows x0 x4 (ix2 e a) * x5 (ix2 (blk3 2 a) k))) + x6 (ix1 k)
  refine congrArg₂ (· + ·) (congrArg₂ (· + ·) (congrArg₂ (· + ·) ?_ ?_) ?_) rfl
  · refine Finset.sum_congr rfl fun a _ => ?_
    rw [lidx15, ridx15]
    exact congrArg (· * x5 (ix2 (blk3 0 a) k)) (cat3_0 x1 (endpointRows x0 x3) (endpointRows x0 x4) e a)
  · refine Finset.sum_congr rfl fun a _ => ?_
    rw [lidx15, ridx15]
    exact congrArg (· * x5 (ix2 (blk3 1 a) k)) (cat3_1 x1 (endpointRows x0 x3) (endpointRows x0 x4) e a)
  · refine Finset.sum_congr rfl fun a _ => ?_
    rw [lidx15, ridx15]
    exact congrArg (· * x5 (ix2 (blk3 2 a) k)) (cat3_2 x1 (endpointRows x0 x3) (endpointRows x0 x4) e a)

/-- The reference's rectified hidden layer of the edge update is the specification's. -/
theorem relu19 (x0 : FVec Ideal S8192x64 .f32) (x1 : FVec Ideal S32768x64 .f32) (x3 x4 : IVec S32768 32)
    (x5 : FVec Ideal S192x64 .f32) (x6 : FVec Ideal S64 .f32) (e : Fin 32768) (k : Fin 64) :
    val_main_v19 (F := Ideal) x0 x1 x3 x4 x5 x6 (ix2 e k)
      = max (edgeHidden x1 (endpointRows x0 x3) (endpointRows x0 x4) (rows3 0 x5) (rows3 1 x5) (rows3 2 x5) (biasRow x6) e k) 0 := by
  rw [val_main_v19_apply, zero_call0, hidden_eq]
  rfl

/-- The reference's new edge features are the specification's edge update of the edge features and the endpoint rows. -/
theorem em_eq (x0 : FVec Ideal S8192x64 .f32) (x1 : FVec Ideal S32768x64 .f32) (x3 x4 : IVec S32768 32)
    (x5 : FVec Ideal S192x64 .f32) (x6 : FVec Ideal S64 .f32) (x7 : FVec Ideal S64x64 .f32) (x8 : FVec Ideal S64 .f32) :
    val_main_v23 (F := Ideal) x0 x1 x3 x4 x5 x6 x7 x8
      = edgeMlp x1 (endpointRows x0 x3) (endpointRows x0 x4) (rows3 0 x5) (rows3 1 x5) (rows3 2 x5) (biasRow x6) x7 (biasRow x8) := by
  funext i
  obtain ⟨e, j, rfl⟩ : ∃ (e : Fin 32768) (j : Fin 64), i = ix2 e j := ⟨i 0, i 1, eq_ix2 i⟩
  rw [val_main_v23_apply, val_main_v20_apply, bias22]
  show _ = (∑ k : Fin 64, max (edgeHidden x1 (endpointRows x0 x3) (endpointRows x0 x4) (rows3 0 x5) (rows3 1 x5) (rows3 2 x5)
      (biasRow x6) e k) 0 * x7 (ix2 k j)) + x8 (ix1 j)
  refine congrArg₂ (· + ·) (Finset.sum_congr rfl fun k _ => ?_) rfl
  rw [lidx20, ridx20, relu19]

/-! ## The node update -/

theorem lidx24 (n : Fin 8192) (a : Fin 64) (e : Fin 32768) : lidx_main_v24 (ix2 n a) e = ix2 n e := by
  funext b; match b with | ⟨0, _⟩ => rfl | ⟨1, _⟩ => rfl
theorem ridx24 (n : Fin 8192) (a : Fin 64) (e : Fin 32768) : ridx_main_v24 (ix2 n a) e = ix2 e a := by
  funext b; match b with | ⟨0, _⟩ => rfl | ⟨1, _⟩ => rfl
theorem lidx26 (n : Fin 8192) (k : Fin 64) (q : Fin 128) : lidx_main_v26 (ix2 n k) q = ix2 n q := by
  funext b; match b with | ⟨0, _⟩ => rfl | ⟨1, _⟩ => rfl
theorem ridx26 (n : Fin 8192) (k : Fin 64) (q : Fin 128) : ridx_main_v26 (ix2 n k) q = ix2 q k := by
  funext b; match b with | ⟨0, _⟩ => rfl | ⟨1, _⟩ => rfl
theorem lidx31 (n : Fin 8192) (j k : Fin 64) : lidx_main_v31 (ix2 n j) k = ix2 n k := by
  funext b; match b with | ⟨0, _⟩ => rfl | ⟨1, _⟩ => rfl
theorem ridx31 (n : Fin 8192) (j k : Fin 64) : ridx_main_v31 (ix2 n j) k = ix2 k j := by
  funext b; match b with | ⟨0, _⟩ => rfl | ⟨1, _⟩ => rfl

/-- The first bias of the node update, spread over the nodes, at an index: the bias at the column. -/
theorem bias28 (x10 : FVec Ideal S64 .f32) (n : Fin 8192) (k : Fin 64) :
    val_main_v28 (F := Ideal) x10 (ix2 n k) = x10 (ix1 k) := by
  rw [val_main_v28_apply, val_main_v27_apply]
  refine congrArg x10 ?_
  funext a; match a with | ⟨0, _⟩ => rfl

/-- The second bias of the node update, spread over the nodes, at an index: the bias at the column. -/
theorem bias33 (x12 : FVec Ideal S64 .f32) (n : Fin 8192) (j : Fin 64) :
    val_main_v33 (F := Ideal) x12 (ix2 n j) = x12 (ix1 j) := by
  rw [val_main_v33_apply, val_main_v32_apply]
  refine congrArg x12 ?_
  funext a; match a with | ⟨0, _⟩ => rfl

/-- The rectifier's zero array of the node update is the extended real zero everywhere. -/
theorem zero_call1 (i : S8192x64.Idx) : (val_main_call1_v0 (F := Ideal) i : EReal) = 0 := by
  rw [val_main_call1_v0_apply, val_main_call1_cst_apply]
  exact Ideal.ofBits_zero_f32

/-- The reference's adjacency product is the specification's aggregated messages of the new edge features. -/
theorem agg_eq (x0 : FVec Ideal S8192x64 .f32) (x1 : FVec Ideal S32768x64 .f32) (x2 : FVec Ideal S8192x32768 .f32) (x3 x4 : IVec S32768 32)
    (x5 : FVec Ideal S192x64 .f32) (x6 : FVec Ideal S64 .f32) (x7 : FVec Ideal S64x64 .f32) (x8 : FVec Ideal S64 .f32)
    (n : Fin 8192) (a : Fin 64) :
    val_main_v24 (F := Ideal) x0 x1 x2 x3 x4 x5 x6 x7 x8 (ix2 n a) = aggregate x2 (val_main_v23 (F := Ideal) x0 x1 x3 x4 x5 x6 x7 x8) n a := by
  rw [val_main_v24_apply]
  show _ = ∑ e : Fin 32768, x2 (ix2 n e) * (val_main_v23 (F := Ideal) x0 x1 x3 x4 x5 x6 x7 x8) (ix2 e a)
  refine Finset.sum_congr rfl fun e _ => ?_
  rw [lidx24, ridx24]

/-- The reference's hidden layer of the node update before its rectifier is the specification's. -/
theorem nhidden_eq (x0 : FVec Ideal S8192x64 .f32) (x1 : FVec Ideal S32768x64 .f32) (x2 : FVec Ideal S8192x32768 .f32) (x3 x4 : IVec S32768 32)
    (x5 : FVec Ideal S192x64 .f32) (x6 : FVec Ideal S64 .f32) (x7 : FVec Ideal S64x64 .f32) (x8 : FVec Ideal S64 .f32)
    (x9 : FVec Ideal S128x64 .f32) (x10 : FVec Ideal S64 .f32) (n : Fin 8192) (k : Fin 64) :
    val_main_v29 (F := Ideal) x0 x1 x2 x3 x4 x5 x6 x7 x8 x9 x10 (ix2 n k)
      = nodeHidden x0 (fun i => aggregate x2 (val_main_v23 (F := Ideal) x0 x1 x3 x4 x5 x6 x7 x8) (i 0) (i 1)) (rows2 0 x9) (rows2 1 x9) (biasRow x10) n k := by
  rw [val_main_v29_apply, val_main_v26_apply, bias28, sum_blk2]
  show _ = ((∑ a : Fin 64, x0 (ix2 n a) * x9 (ix2 (blk2 0 a) k))
      + (∑ a : Fin 64, aggregate x2 (val_main_v23 (F := Ideal) x0 x1 x3 x4 x5 x6 x7 x8) n a * x9 (ix2 (blk2 1 a) k))) + x10 (ix1 k)
  refine congrArg₂ (· + ·) (congrArg₂ (· + ·) ?_ ?_) rfl
  · refine Finset.sum_congr rfl fun a _ => ?_
    rw [lidx26, ridx26]
    exact congrArg (· * x9 (ix2 (blk2 0 a) k))
      (cat2_0 x0 (val_main_v24 (F := Ideal) x0 x1 x2 x3 x4 x5 x6 x7 x8) n a)
  · refine Finset.sum_congr rfl fun a _ => ?_
    rw [lidx26, ridx26]
    exact congrArg (· * x9 (ix2 (blk2 1 a) k))
      ((cat2_1 x0 (val_main_v24 (F := Ideal) x0 x1 x2 x3 x4 x5 x6 x7 x8) n a).trans
        (agg_eq x0 x1 x2 x3 x4 x5 x6 x7 x8 n a))

/-- The reference's rectified hidden layer of the node update is the specification's. -/
theorem relu30 (x0 : FVec Ideal S8192x64 .f32) (x1 : FVec Ideal S32768x64 .f32) (x2 : FVec Ideal S8192x32768 .f32) (x3 x4 : IVec S32768 32)
    (x5 : FVec Ideal S192x64 .f32) (x6 : FVec Ideal S64 .f32) (x7 : FVec Ideal S64x64 .f32) (x8 : FVec Ideal S64 .f32)
    (x9 : FVec Ideal S128x64 .f32) (x10 : FVec Ideal S64 .f32) (n : Fin 8192) (k : Fin 64) :
    val_main_v30 (F := Ideal) x0 x1 x2 x3 x4 x5 x6 x7 x8 x9 x10 (ix2 n k)
      = max (nodeHidden x0 (fun i => aggregate x2 (val_main_v23 (F := Ideal) x0 x1 x3 x4 x5 x6 x7 x8) (i 0) (i 1)) (rows2 0 x9) (rows2 1 x9) (biasRow x10) n k) 0 := by
  rw [val_main_v30_apply, zero_call1, nhidden_eq]
  rfl

/-- The reference's new node features are the specification's node update of the adjacency, the new edge features
    and the node features. -/
theorem vm_eq (x0 : FVec Ideal S8192x64 .f32) (x1 : FVec Ideal S32768x64 .f32) (x2 : FVec Ideal S8192x32768 .f32) (x3 x4 : IVec S32768 32)
    (x5 : FVec Ideal S192x64 .f32) (x6 : FVec Ideal S64 .f32) (x7 : FVec Ideal S64x64 .f32) (x8 : FVec Ideal S64 .f32)
    (x9 : FVec Ideal S128x64 .f32) (x10 : FVec Ideal S64 .f32) (x11 : FVec Ideal S64x64 .f32) (x12 : FVec Ideal S64 .f32) :
    val_main_v34 (F := Ideal) x0 x1 x2 x3 x4 x5 x6 x7 x8 x9 x10 x11 x12
      = nodeMlp x2 (val_main_v23 (F := Ideal) x0 x1 x3 x4 x5 x6 x7 x8) x0 (rows2 0 x9) (rows2 1 x9) (biasRow x10) x11 (biasRow x12) := by
  funext i
  obtain ⟨n, j, rfl⟩ : ∃ (n : Fin 8192) (j : Fin 64), i = ix2 n j := ⟨i 0, i 1, eq_ix2 i⟩
  rw [val_main_v34_apply, val_main_v31_apply, bias33]
  show _ = (∑ k : Fin 64, max (nodeHidden x0 (fun i => aggregate x2 (val_main_v23 (F := Ideal) x0 x1 x3 x4 x5 x6 x7 x8) (i 0) (i 1)) (rows2 0 x9) (rows2 1 x9) (biasRow x10) n k) 0 * x11 (ix2 k j)) + x12 (ix1 j)
  refine congrArg₂ (· + ·) (Finset.sum_congr rfl fun k _ => ?_) rfl
  rw [lidx31, ridx31, relu30]

/-! ## The reference's run, in the specification's words -/

/-- On every device, from any memory with zero counters, every weakly fair execution of the reference terminates with
    the new node features at the specification's node update of the new edge features, the new edge features at the
    specification's edge update, and the thirteen arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = (nodeMlp (m ((c.tc : Thread nD τ).loc main_arg2)) (edgeMlp (m ((c.tc : Thread nD τ).loc main_arg1)) (endpointRows (m ((c.tc : Thread nD τ).loc main_arg0)) (m ((c.tc : Thread nD τ).loc main_arg3))) (endpointRows (m ((c.tc : Thread nD τ).loc main_arg0)) (m ((c.tc : Thread nD τ).loc main_arg4))) (rows3 0 (m ((c.tc : Thread nD τ).loc main_arg5))) (rows3 1 (m ((c.tc : Thread nD τ).loc main_arg5))) (rows3 2 (m ((c.tc : Thread nD τ).loc main_arg5))) (biasRow (m ((c.tc : Thread nD τ).loc main_arg6))) (m ((c.tc : Thread nD τ).loc main_arg7)) (biasRow (m ((c.tc : Thread nD τ).loc main_arg8)))) (m ((c.tc : Thread nD τ).loc main_arg0)) (rows2 0 (m ((c.tc : Thread nD τ).loc main_arg9))) (rows2 1 (m ((c.tc : Thread nD τ).loc main_arg9))) (biasRow (m ((c.tc : Thread nD τ).loc main_arg10))) (m ((c.tc : Thread nD τ).loc main_arg11)) (biasRow (m ((c.tc : Thread nD τ).loc main_arg12))))
      ∧ r.2.mem ((c.tc : Thread nD τ).loc main_v23) = (edgeMlp (m ((c.tc : Thread nD τ).loc main_arg1)) (endpointRows (m ((c.tc : Thread nD τ).loc main_arg0)) (m ((c.tc : Thread nD τ).loc main_arg3))) (endpointRows (m ((c.tc : Thread nD τ).loc main_arg0)) (m ((c.tc : Thread nD τ).loc main_arg4))) (rows3 0 (m ((c.tc : Thread nD τ).loc main_arg5))) (rows3 1 (m ((c.tc : Thread nD τ).loc main_arg5))) (rows3 2 (m ((c.tc : Thread nD τ).loc main_arg5))) (biasRow (m ((c.tc : Thread nD τ).loc main_arg6))) (m ((c.tc : Thread nD τ).loc main_arg7)) (biasRow (m ((c.tc : Thread nD τ).loc main_arg8))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c).1.trans ((val_main_v34_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))).trans
        ((vm_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))).trans
          (congrArg (fun em => nodeMlp (m ((c.tc : Thread nD τ).loc main_arg2)) em (m ((c.tc : Thread nD τ).loc main_arg0)) (rows2 0 (m ((c.tc : Thread nD τ).loc main_arg9))) (rows2 1 (m ((c.tc : Thread nD τ).loc main_arg9))) (biasRow (m ((c.tc : Thread nD τ).loc main_arg10))) (m ((c.tc : Thread nD τ).loc main_arg11)) (biasRow (m ((c.tc : Thread nD τ).loc main_arg12))))
            (em_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))))),
      (h c).2.1.trans ((val_main_v23_eq (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans (em_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2⟩)
    (Cert.ReferenceIdeal.Value.run m ρ)

end Cert.ReferenceIdeal.RefValue

end
-- ==== Proof.lean ====
/-
  One message-passing step of a mesh graph network, as a two-kernel TPU program, against its plain reference.

  Both programs compute, on the extended reals,
      em_new = (max (xe·Wa + xs·Wb + xd·Wc + b1) 0)·W2 + b2          (per edge; xs, xd the endpoint rows of the node features)
      vm_new = (max (vm·Wt + (adj·em_new)·Wb' + b1') 0)·W2' + b2'     (per node)
  where Wa, Wb, Wc are the three 64-row blocks of the edge update's first weight matrix and Wt, Wb' the two blocks of
  the node update's. The reference multiplies the concatenated features by the whole matrices; a sum over the
  concatenated axis is the sum of the blocks' sums, and the kernel's accumulation of the adjacency product over eight
  column chunks is the one sum over all edges, because extended-real addition is commutative and associative. No
  product is distributed over a sum, so finiteness of the inputs is not used.

  The kernel's wrapper gathers endpoint rows with an in-bounds test that fills rows of out-of-range indices, while
  the reference's indexing clamps them. The two agree exactly when every edge endpoint, read as a python index,
  lies in [-8192, 8192): the precondition says so, and under it the in-bounds test passes at every edge, so both
  programs read the same gathered rows.

  The three frames: each kernel program runs as seven items (host stretches and the two kernel regions) whose
  boundary contents are a function of the launch memory; no item writes an argument. The reference is a straight
  line of host operations.
-/
import proofs.«407642_j41936060678384_3_alg».proof.Defs
import proofs.«407642_j41936060678384_3_alg».proof.Proof.Gen.Kernel
import proofs.«407642_j41936060678384_3_alg».proof.Proof.Gen.KernelIdeal
import proofs.«407642_j41936060678384_3_alg».proof.Proof.Gen.ReferenceIdeal
import proofs.«407642_j41936060678384_3_alg».proof.Proof.Gen.Pre_finite_inputs
import proofs.«407642_j41936060678384_3_alg».proof.Proof.K.Run
import proofs.«407642_j41936060678384_3_alg».proof.Proof.KI.Run
import proofs.«407642_j41936060678384_3_alg».proof.Proof.KI.R0Value
import proofs.«407642_j41936060678384_3_alg».proof.Proof.KI.R1Value
import proofs.«407642_j41936060678384_3_alg».proof.Proof.KI.HostValue
import proofs.«407642_j41936060678384_3_alg».proof.Proof.RefValue
import Idealize.ShloMosaic.Adequacy
import Idealize.ShloMosaic.Init

noncomputable section

namespace Cert.Proof

open Idealize.ShloMosaic Idealize.ShloMosaic.TcCoe Idealize.SL.Sem
open Cert.Spec

/-! ## The two results as functions of the launch memory -/

section Results

open Cert.KernelIdeal Cert.KernelIdeal.Gen Cert.KernelIdeal.Hand

variable (m : (ℓ : Loc Cert.KernelIdeal.nD Cert.KernelIdeal.τ Cert.KernelIdeal.sig) → Buf (Elt Ideal) ℓ)

/-- The new edge features, from the launch memory of the kernel program. -/
def emOf (c : Dev Cert.KernelIdeal.nD) : Cert.Spec.SE.Idx → EReal :=
  edgeMlp (m ((c.tc : Thread Cert.KernelIdeal.nD Cert.KernelIdeal.τ).loc Cert.KernelIdeal.main_arg1))
    (Cert.ReferenceIdeal.RefValue.endpointRows (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (Cert.ReferenceIdeal.RefValue.endpointRows (m ((c.tc : Thread Cert.KernelIdeal.nD Cert.KernelIdeal.τ).loc Cert.KernelIdeal.main_arg0)) (m ((c.tc : Thread Cert.KernelIdeal.nD Cert.KernelIdeal.τ).loc Cert.KernelIdeal.main_arg4)))
    (rows3 0 (m ((c.tc : Thread Cert.KernelIdeal.nD Cert.KernelIdeal.τ).loc Cert.KernelIdeal.main_arg5))) (rows3 1 (m ((c.tc : Thread Cert.KernelIdeal.nD Cert.KernelIdeal.τ).loc Cert.KernelIdeal.main_arg5))) (rows3 2 (m ((c.tc : Thread Cert.KernelIdeal.nD Cert.KernelIdeal.τ).loc Cert.KernelIdeal.main_arg5)))
    (biasRow (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (biasRow (m ((c.tc : Thread Cert.KernelIdeal.nD Cert.KernelIdeal.τ).loc Cert.KernelIdeal.main_arg8)))

/-- The new node features, from the launch memory of the kernel program. -/
def vmOf (c : Dev Cert.KernelIdeal.nD) : Cert.Spec.SN.Idx → EReal :=
  nodeMlp (m ((c.tc : Thread Cert.KernelIdeal.nD Cert.KernelIdeal.τ).loc Cert.KernelIdeal.main_arg2)) (emOf m c) (m ((c.tc : Thread Cert.KernelIdeal.nD Cert.KernelIdeal.τ).loc Cert.KernelIdeal.main_arg0))
    (rows2 0 (m ((c.tc : Thread Cert.KernelIdeal.nD Cert.KernelIdeal.τ).loc Cert.KernelIdeal.main_arg9))) (rows2 1 (m ((c.tc : Thread Cert.KernelIdeal.nD Cert.KernelIdeal.τ).loc Cert.KernelIdeal.main_arg9)))
    (biasRow (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (biasRow (m ((c.tc : Thread Cert.KernelIdeal.nD Cert.KernelIdeal.τ).loc Cert.KernelIdeal.main_arg12)))

/-- The two programs spell the endpoint gather with the same operations. -/
theorem endpointRows_same (x0 : FVec Ideal Cert.KernelIdeal.S8192x64 .f32) (x3 : IVec Cert.KernelIdeal.S32768 32) :
    endpointRowsK x0 x3 = Cert.ReferenceIdeal.RefValue.endpointRows x0 x3 := rfl

/-- The edge region's folded output is the new edge features: the region computes the edge update of the arrays it
    is entered with, and those are the arguments' gathered rows, weight blocks and bias rows. -/
theorem kernel_em (hpre : Cert.Pre_KernelIdeal m) (c : Dev Cert.KernelIdeal.nD) :
    ((dat0 (F := Ideal) (entry0 m) c).arrAt 9 cfg0.N : Cert.Spec.SE.Idx → EReal) = emOf m c := by
  obtain ⟨h3, h4⟩ := inRange_of_pre m hpre c
  rw [emNew_final (entry0 m) c]
  show edgeMlp (Gen.V4 m c main_v4) (Gen.V4 m c main_v1) (Gen.V4 m c main_v3) (Gen.V4 m c main_v7) (Gen.V4 m c main_v8)
      (Gen.V4 m c main_v9) (Gen.V4 m c main_v5) (Gen.V4 m c main_arg7) (Gen.V4 m c main_v6) = _
  rw [V4_v4 m c, V4_v1 m c h3, V4_v3 m c h4, V4_v7 m c, V4_v8 m c, V4_v9 m c, V4_v5 m c, V4_a7 m c, V4_v6 m c,
    endpointRows_same, endpointRows_same]
  rfl

/-- The node region's folded output is the new node features. -/
theorem kernel_vm (hpre : Cert.Pre_KernelIdeal m) (c : Dev Cert.KernelIdeal.nD) :
    ((dat1 (F := Ideal) (entry1 m) c).arrAt 8 cfg1.N : Cert.Spec.SN.Idx → EReal) = vmOf m c := by
  rw [vmNew_final (entry1 m) c]
  have e2 : entry1 m c main_arg2 = m ((c.tc : Thread nD τ).loc main_arg2) :=
    entry1_launch m c main_arg2 (by decide) (by decide) (by decide) (by decide) (by decide) (by decide)
  have e0 : entry1 m c main_arg0 = m ((c.tc : Thread nD τ).loc main_arg0) :=
    entry1_launch m c main_arg0 (by decide) (by decide) (by decide) (by decide) (by decide) (by decide)
  have e11 : entry1 m c main_arg11 = m ((c.tc : Thread nD τ).loc main_arg11) :=
    entry1_launch m c main_arg11 (by decide) (by decide) (by decide) (by decide) (by decide) (by decide)
  have x9 : exit0 m c (Proc.devRef .tc main_arg9) = m ((c.tc : Thread nD τ).loc main_arg9) :=
    exit0_launch m c main_arg9 (by decide) (by decide) (by decide) (by decide) (by decide)
  have x10 : exit0 m c (Proc.devRef .tc main_arg10) = m ((c.tc : Thread nD τ).loc main_arg10) :=
    exit0_launch m c main_arg10 (by decide) (by decide) (by decide) (by decide) (by decide)
  have x12 : exit0 m c (Proc.devRef .tc main_arg12) = m ((c.tc : Thread nD τ).loc main_arg12) :=
    exit0_launch m c main_arg12 (by decide) (by decide) (by decide) (by decide) (by decide)
  have ev10 : (entry1 m c main_v10 : Cert.Spec.SE.Idx → EReal) = emOf m c := (entry1_v10 m c).trans (kernel_em m hpre c)
  have e13 : (entry1 m c main_v13 : Cert.Spec.SW.Idx → EReal) = rows2 0 (m ((c.tc : Thread nD τ).loc main_arg9)) :=
    (after1_v13 (exit0 m c)).trans (by rw [x9])
  have e14 : (entry1 m c main_v14 : Cert.Spec.SW.Idx → EReal) = rows2 1 (m ((c.tc : Thread nD τ).loc main_arg9)) :=
    (after1_v14 (exit0 m c)).trans (by rw [x9])
  have e11' : (entry1 m c main_v11 : Cert.Spec.SB.Idx → EReal) = biasRow (m ((c.tc : Thread nD τ).loc main_arg10)) :=
    (after1_v11 (exit0 m c)).trans (by rw [x10])
  have e12 : (entry1 m c main_v12 : Cert.Spec.SB.Idx → EReal) = biasRow (m ((c.tc : Thread nD τ).loc main_arg12)) :=
    (after1_v12 (exit0 m c)).trans (by rw [x12])
  rw [e2, ev10, e0, e13, e14, e11', e11, e12]
  rfl

end Results

/-! ## The claims -/

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the two results at `vmOf` and `emOf` of the (agreeing) launch memories. -/
theorem algebraic : Cert.algebraic_KernelIdeal_ReferenceIdeal := by
  intro m ρ m' ρ' hpre hagree
  refine ⟨vmOf m, emOf m, ?_, ?_⟩
  · exact (θ_run Cert.KernelIdeal.defs _ _).mono
      (fun r h c => ⟨(h c).1.trans (kernel_vm m hpre c), (h c).2.1.trans (kernel_em m hpre c), (h c).2.2⟩)
      (Cert.KernelIdeal.Hand.run_named (F := Ideal) m ρ)
  · refine (θ_run Cert.ReferenceIdeal.defs _ _).mono (fun r h c => ⟨(h c).1.trans ?_, (h c).2.1.trans ?_, (h c).2.2⟩)
      (Cert.ReferenceIdeal.RefValue.ref_run m' ρ')
    · obtain ⟨a0, a1, a2, a3, a4, a5, a6, a7, a8, a9, a10, a11, a12⟩ := hagree c
      rw [a0, a1, a2, a3, a4, a5, a6, a7, a8, a9, a10, a11, a12]
      rfl
    · obtain ⟨a0, a1, a2, a3, a4, a5, a6, a7, a8, a9, a10, a11, a12⟩ := hagree c
      rw [a0, a1, a3, a4, a5, a6, a7, a8]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
